-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x1 : Shape := ⟨2, ![100000, 1]⟩
abbrev S512x128 : Shape := ⟨2, ![512, 128]⟩
abbrev S1x512 : Shape := ⟨2, ![1, 512]⟩
abbrev S2000x1 : Shape := ⟨2, ![2000, 1]⟩
abbrev S2000x512 : Shape := ⟨2, ![2000, 512]⟩
abbrev S512 : Shape := ⟨1, ![512]⟩
abbrev S512x1 : Shape := ⟨2, ![512, 1]⟩

abbrev nBuf : Space → Nat
  | .hbm => 115
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .f32⟩
  | .hbm, ⟨97, _⟩ => ⟨S1700000x1, .f32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x1, .i32⟩
  | .hbm, ⟨107, _⟩ => ⟨S512x128, .f32⟩
  | .hbm, ⟨108, _⟩ => ⟨S1x512, .f32⟩
  | .hbm, ⟨109, _⟩ => ⟨S512x1, .f32⟩
  | .hbm, ⟨110, _⟩ => ⟨S_, .f32⟩
  | .hbm, ⟨111, _⟩ => ⟨S512x1, .f32⟩
  | .hbm, ⟨112, _⟩ => ⟨S512x1, .f32⟩
  | .hbm, ⟨113, _⟩ => ⟨S512x128, .f32⟩
  | .hbm, ⟨114, _⟩ => ⟨S512x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .i32⟩
  | .local _ .vmem, ⟨33, _⟩ => ⟨S2000x1, .i32⟩
  | .local _ .vmem, ⟨34, _⟩ => ⟨S512x128, .f32⟩
  | .local _ .vmem, ⟨35, _⟩ => ⟨S1x512, .f32⟩
  | .local _ .vmem, ⟨36, _⟩ => ⟨S512x128, .f32⟩
  | .local _ .vmem, ⟨37, _⟩ => ⟨S1x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79_0 : Ref sig .tc := ⟨.hbm, 107, rfl⟩
abbrev main_v79_1 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc6_scratch0 : Ref sig .tc := ⟨.vmem, 36, rfl⟩
abbrev cc6_scratch1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def k6_cond2 (i : grid6.Coords) : BitVec 1 :=
  let arg0 : BitVec 32 := BitVec.ofNat 32 (i 0).val
  let c49_i32 : BitVec 32 := 49#32
  let v30 : BitVec 1 := Scalar.cmpi .eq arg0 c49_i32
  let v31 : BitVec 32 := Scalar.extui v30
  let c0_i32_13 : BitVec 32 := 0#32
  let v32 : BitVec 1 := Scalar.cmpi .ne v31 c0_i32_13
  v32

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  reduces_S2000x512_S512 : S2000x512.Reduces [0] S512
  shapeCasts_S512_S1x512 : S512.ShapeCasts S1x512
  shapeCasts_S1x512_S512x1 : S1x512.ShapeCasts S512x1
  bcast_S_S512x1 : S_.BroadcastsInDim S512x1 (![] : Fin 0 → Fin S512x1.rank)
  bcast_S512x1_S512x128_0_1 : S512x1.BroadcastsInDim S512x128 (![0, 1] : Fin 2 → Fin S512x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x512_S2000x128_S512x128_0_0_1_1_n_n_wf : DotDims.WF S2000x512 S2000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x512.size a ≤ S1x512.size a
  hwx6_3 : ∀ i : grid6.Coords, EltTy.bits .f32 = 32 ∨ (Rect.block (s := S1x512) S1x512.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v79_0) S512x128.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79_1) S1x512.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun i => !(k6_cond2 i == 1#1) | 3 => fun i => !(k6_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000, .f32⟩
  | 117 => ⟨S_, .f32⟩
  | 118 => ⟨S512, .f32⟩
  | 119 => ⟨S100000x1, .i32⟩
  | 120 => ⟨S512, .f32⟩
  | 121 => ⟨S_, .f32⟩
  | 122 => ⟨S512x128, .f32⟩
  | 123 => ⟨S100000x1, .i32⟩
  | 124 => ⟨S512x128, .f32⟩
  | 125 => ⟨S_, .f32⟩
  | 126 => ⟨S512, .f32⟩
  | 127 => ⟨S512, .f32⟩
  | _ => ⟨S100000x128, .f32⟩

abbrev hbmTy0_1 (i : Nat) : BufTy := match i % 128 with
  | 0 => ⟨S512x1, .f32⟩
  | 1 => ⟨S512x128, .f32⟩
  | 2 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_18 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.K_RunCond.lean ====
/-
  The launch of the seven-region program over its list of segments, with the result buffer read back beside the
  arguments: the unscoped buffers are held at the boundary contents `Gen.VJ` between two items, and at the end each
  buffer named in the post is read off the last valuation `Gen.V15`.
-/
import proofs.«422387_j74071005987301_1_alg».proof.Proof.Gen.Kernel.Regions

set_option maxRecDepth 1124

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- Every weakly fair execution of @main from memory `m` with zero counters terminates, and every final memory holds
    the result buffer at the last boundary's contents (the host operations after the last region applied to what the
    regions left) and each argument as launched — given, per region, a segment record entered from the thread state
    before it and left at the one after it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_v84) = V15 m outs c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, hpre0 c, hpost0 c, hpre1 c, (hpost1 c).trans (hpre2 c), hpost2 c, hpre3 c, (hpost3 c).trans (hpre4 c), hpost4 c, hpre5 c, hpost5 c, hpre6 c, hpost6 c, sep_mono .rfl (hE7 c)⟩)
    (hinit := ?_) (QY := fun c s => s.mem ((c.tc : Thread nD τ).loc main_v84) = V15 m outs c main_v84 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact ⟨h (Proc.devRef .tc main_v84) (Finset.mem_filter.mpr ⟨StableHlo.devRef_mem_tcRefs main_v84, by decide⟩),
        (h (Proc.devRef .tc main_arg0) (Finset.mem_filter.mpr ⟨StableHlo.devRef_mem_tcRefs main_arg0, by decide⟩)).trans (V15_main_arg0 m outs c),
        (h (Proc.devRef .tc main_arg1) (Finset.mem_filter.mpr ⟨StableHlo.devRef_mem_tcRefs main_arg1, by decide⟩)).trans (V15_main_arg1 m outs c),
        (h (Proc.devRef .tc main_arg2) (Finset.mem_filter.mpr ⟨StableHlo.devRef_mem_tcRefs main_arg2, by decide⟩)).trans (V15_main_arg2 m outs c),
        (h (Proc.devRef .tc main_arg3) (Finset.mem_filter.mpr ⟨StableHlo.devRef_mem_tcRefs main_arg3, by decide⟩)).trans (V15_main_arg3 m outs c),
        (h (Proc.devRef .tc main_arg4) (Finset.mem_filter.mpr ⟨StableHlo.devRef_mem_tcRefs main_arg4, by decide⟩)).trans (V15_main_arg4 m outs c),
        (h (Proc.devRef .tc main_arg5) (Finset.mem_filter.mpr ⟨StableHlo.devRef_mem_tcRefs main_arg5, by decide⟩)).trans (V15_main_arg5 m outs c),
        (h (Proc.devRef .tc main_arg6) (Finset.mem_filter.mpr ⟨StableHlo.devRef_mem_tcRefs main_arg6, by decide⟩)).trans (V15_main_arg6 m outs c),
        (h (Proc.devRef .tc main_arg7) (Finset.mem_filter.mpr ⟨StableHlo.devRef_mem_tcRefs main_arg7, by decide⟩)).trans (V15_main_arg7 m outs c),
        (h (Proc.devRef .tc main_arg8) (Finset.mem_filter.mpr ⟨StableHlo.devRef_mem_tcRefs main_arg8, by decide⟩)).trans (V15_main_arg8 m outs c)⟩
    · iexact HSI

end Cert.Kernel.Hand

end
-- ==== Proof.K_Dense0.lean ====
import proofs.«422387_j74071005987301_1_alg».proof.Proof.Gen.Kernel.Launch
import proofs.«422387_j74071005987301_1_alg».proof.Proof.Gen.Kernel.Skeleton
import proofs.«422387_j74071005987301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (a dense layer: row block times weight matrix), at a parameter `V`

The pipeline's proof data and the body obligation of region 0, stated at any buffer contents `V` of the
TensorCore when the region is entered. The region has three windows: window 0 is the row block
`[2000,128]` of the left operand, window 1 the whole weight matrix `[128,128]` (constant block index),
window 2 the output row block `[2000,128]`. The body reads both inputs whole, reads the output buffer
(the value is not used) and stores the matrix product of the two rounded inputs over the whole output
buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array
    is `V`'s and whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, fetched at the first point only, its block index constant) holds its
    block at every point, fetched there or not: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-! ## What the body leaves in the output window's buffer -/

/-- Window 2's staging buffer after the body, from the input windows' blocks: the one store, over the whole
    buffer, of the product payload of the two blocks read whole. -/
def out0_2 (x0 : Vec F S2000x128 .f32) (x1 : Vec F S128x128 .f32) : Vec F S2000x128 .f32 :=
  View.canon [⟨r0_0, k0_pay1 (View.ld x0 r0_0) (View.ld x1 r0_1)⟩]

/-- The one store covers the buffer. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The kernel body on whole staging memrefs, the inputs' at contents `x0`, `x1` and the output's at anything,
    runs to the continuation holding the inputs' as they were and the output's at `out0_2 x0 x1`. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    keeps the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Bias1.lean ====
/- Region 1 of @main (the bias-and-rectify kernel of layer 1): the pipeline's proof data and the body obligation, at a
   PARAMETER `V` — the TensorCore's buffer contents when the region is entered. Three windows: 0 the aggregated block
   (input), 1 the bias row (input, constant block index), 2 the output block. The body reads windows 0 and 1, reads the
   output buffer too (the value is unused), and stores the payload over the whole output buffer. -/
import proofs.«422387_j74071005987301_1_alg».proof.Proof.Gen.Kernel.Launch
import proofs.«422387_j74071005987301_1_alg».proof.Proof.Gen.Kernel.Skeleton
import proofs.«422387_j74071005987301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is `V`'s
    (`hA`) and whose body leaves the block in place (`hafter`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row, fetched at the first point only) holds its block at every point, fetched there or not:
    unfetched, the block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

/-! ## What the body leaves in the output window's buffer -/

/-- Window 2's staging buffer after the body, from the input windows' blocks: its one store, over the whole buffer, of the
    payload at the two blocks as loaded (each through its whole-buffer rectangle). -/
def out1_2 (x0 : Vec F S2000x128 .f32) (x1 : Vec F S1x128 .f32) : Vec F S2000x128 .f32 :=
  View.canon [⟨r1_0, k1_pay1 (View.ld x0 r1_0) (View.ld x1 r1_1)⟩]

/-- The one store tiles the buffer, so it covers it. -/
theorem cover1_2 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `x0`, `x1` and the output's at anything, runs to
    the continuation holding the inputs' as they were and the output's at `out1_2 x0 x1`. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t` each
    input's buffer at its block and the output's at `out1_2` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Dense2.lean ====
import proofs.«422387_j74071005987301_1_alg».proof.Proof.Gen.Kernel.Launch
import proofs.«422387_j74071005987301_1_alg».proof.Proof.Gen.Kernel.Skeleton
import proofs.«422387_j74071005987301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 (a dense layer: row block times weight matrix), at a parameter `V`

The pipeline's proof data and the body obligation of region 2, stated at any buffer contents `V` of the
TensorCore when the region is entered. The region has three windows: window 0 is the row block
`[2000,128]` of the left operand, window 1 the whole weight matrix `[128,128]` (constant block index),
window 2 the output row block `[2000,128]`. The body reads both inputs whole, reads the output buffer
(the value is not used) and stores the matrix product of the two rounded inputs over the whole output
buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array
    is `V`'s and whose body leaves the block in place: the window is fetched at every point, uncut, never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight matrix, fetched at the first point only, its block index constant) holds its
    block at every point, fetched there or not: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0

/-! ## What the body leaves in the output window's buffer -/

/-- Window 2's staging buffer after the body, from the input windows' blocks: the one store, over the whole
    buffer, of the product payload of the two blocks read whole. -/
def out2_2 (x0 : Vec F S2000x128 .f32) (x1 : Vec F S128x128 .f32) : Vec F S2000x128 .f32 :=
  View.canon [⟨r2_0, k2_pay1 (View.ld x0 r2_0) (View.ld x1 r2_1)⟩]

/-- The one store covers the buffer. -/
theorem cover2_2 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The kernel body on whole staging memrefs, the inputs' at contents `x0`, `x1` and the output's at anything,
    runs to the continuation holding the inputs' as they were and the output's at `out2_2 x0 x1`. -/
theorem sound_kernel2 (c : Dev nD) (E : Set ℕ) (i : grid2.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dense_kernel i arg1 harg1 arg2 harg2 arg3 harg3) K := by
  simp only [cc2__dense_kernel_eq_skeleton]; unfold cc2__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    keeps the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_Bias3.lean ====
/- Region 3 of @main (the bias-and-rectify kernel of layer 2): the pipeline's proof data and the body obligation, at a
   PARAMETER `V` — the TensorCore's buffer contents when the region is entered. Three windows: 0 the aggregated block
   (input), 1 the bias row (input, constant block index), 2 the output block. The body reads windows 0 and 1, reads the
   output buffer too (the value is unused), and stores the payload over the whole output buffer. -/
import proofs.«422387_j74071005987301_1_alg».proof.Proof.Gen.Kernel.Launch
import proofs.«422387_j74071005987301_1_alg».proof.Proof.Gen.Kernel.Skeleton
import proofs.«422387_j74071005987301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for ANY proof data whose array is `V`'s
    (`hA`) and whose body leaves the block in place (`hafter`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the bias row, fetched at the first point only) holds its block at every point, fetched there or not:
    unfetched, the block index has not moved, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-! ## What the body leaves in the output window's buffer -/

/-- Window 2's staging buffer after the body, from the input windows' blocks: its one store, over the whole buffer, of the
    payload at the two blocks as loaded (each through its whole-buffer rectangle). -/
def out3_2 (x0 : Vec F S2000x128 .f32) (x1 : Vec F S1x128 .f32) : Vec F S2000x128 .f32 :=
  View.canon [⟨r3_0, k3_pay1 (View.ld x0 r3_0) (View.ld x1 r3_1)⟩]

/-- The one store tiles the buffer, so it covers it. -/
theorem cover3_2 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at read contents `x0`, `x1` and the output's at anything, runs to
    the continuation holding the inputs' as they were and the output's at `out3_2 x0 x1`. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point `t` each
    input's buffer at its block and the output's at `out3_2` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K_Dense4.lean ====
import proofs.«422387_j74071005987301_1_alg».proof.Proof.Gen.Kernel.Launch
import proofs.«422387_j74071005987301_1_alg».proof.Proof.Gen.Kernel.Skeleton
import proofs.«422387_j74071005987301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 (a dense layer: row block times weight matrix), at a parameter `V`

The pipeline's proof data and the body obligation of region 4, stated at any buffer contents `V` of the
TensorCore when the region is entered. The region has three windows: window 0 is the row block
`[2000,128]` of the left operand, window 1 the whole weight matrix `[128,128]` (constant block index),
window 2 the output row block `[2000,128]`. The body reads both inputs whole, reads the output buffer
(the value is not used) and stores the matrix product of the two rounded inputs over the whole output
buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array
    is `V`'s and whose body leaves the block in place: the window is fetched at every point, uncut, never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the weight matrix, fetched at the first point only, its block index constant) holds its
    block at every point, fetched there or not: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0

/-! ## What the body leaves in the output window's buffer -/

/-- Window 2's staging buffer after the body, from the input windows' blocks: the one store, over the whole
    buffer, of the product payload of the two blocks read whole. -/
def out4_2 (x0 : Vec F S2000x128 .f32) (x1 : Vec F S128x128 .f32) : Vec F S2000x128 .f32 :=
  View.canon [⟨r4_0, k4_pay1 (View.ld x0 r4_0) (View.ld x1 r4_1)⟩]

/-- The one store covers the buffer. -/
theorem cover4_2 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

/-! ## The body's triple -/

set_option maxHeartbeats 1000000 in
/-- The kernel body on whole staging memrefs, the inputs' at contents `x0`, `x1` and the output's at anything,
    runs to the continuation holding the inputs' as they were and the output's at `out4_2 x0 x1`. -/
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__dense_kernel i arg1 harg1 arg2 harg2 arg3 harg3) K := by
  simp only [cc4__dense_kernel_eq_skeleton]; unfold cc4__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and the output's at `out4_2` of the input blocks; the invariant
    keeps the scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's obligations pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K_Bias5.lean ====
/- Region 5 of @main (the bias kernel of layer 3, which does not rectify): the pipeline's proof data and the body obligation, at a
   PARAMETER `V` — the TensorCore's buffer contents when the region is entered. Three windows: 0 the aggregated block
   (input), 1 the bias row (input, constant block index), 2 the output block. The body reads windows 0 and 1, reads the
   output buffer too (the value is unused), and stores the payload over the whole output buffer. -/
import proofs.«422387_j74071005987301_1_alg».proof.Proof.Gen.Kernel.Launch
import proofs.«422387_j74071005987301_1_alg».proof.Proof.Gen.Kernel.Skeleton
import proofs.«422387_j74071005987301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for ANY proof data whose array is `V`'s
    (`hA`) and whose body leaves the block in place (`hafter`); the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the bias row, fetched at the first point only) holds its block at every point, fetched there or not:
    unfetched, the block index has not moved, and the body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-! ## What the body leaves in the output window's buffer -/

/-- Window 2's staging buffer after the body, from the input windows' blocks: its one store, over the whole buffer, of the
    payload at the two blocks as loaded (each through its whole-buffer rectangle). -/
def out5_2 (x0 : Vec F S2000x128 .f32) (x1 : Vec F S1x128 .f32) : Vec F S2000x128 .f32 :=
  View.canon [⟨r5_0, k5_pay1 (View.ld x0 r5_0) (View.ld x1 r5_1)⟩]

/-- The one store tiles the buffer, so it covers it. -/
theorem cover5_2 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The kernel body on whole staging memrefs, the inputs' at read contents `x0`, `x1` and the output's at anything, runs to
    the continuation holding the inputs' as they were and the output's at `out5_2 x0 x1`. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5_kernel i arg1 harg1 arg2 harg2 arg3 harg3) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them (`V`); after the body at point `t` each
    input's buffer at its block and the output's at `out5_2` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K_ReadoutRuns.lean ====
import proofs.«422387_j74071005987301_1_alg».proof.Proof.Gen.Kernel.Launch
import proofs.«422387_j74071005987301_1_alg».proof.Proof.Gen.Kernel.Skeleton
import proofs.«422387_j74071005987301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The readout region: what its three control cases share -/

/-- The condition of the body's first conditional (the scratch accumulators are zeroed), from the grid coordinates. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val % 50 = 0 :=
  (by decide +kernel : ∀ t : Fin grid6.N, cond6_0 (grid6.coords t) ↔ t.val % 50 = 0)

/-- The condition of the body's second conditional (the accumulators are copied to the output buffers). -/
abbrev cond6_1 (i : grid6.Coords) : Prop := k6_cond2 i = 1#1
/-- It holds at the last point only. -/
theorem hcond6_1 : ∀ t : Fin cfg6.N, cond6_1 (grid6.coords t) ↔ t.val % 50 = 49 :=
  (by decide +kernel : ∀ t : Fin grid6.N, cond6_1 (grid6.coords t) ↔ t.val % 50 = 49)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬cond6_1 (grid6.coords t) → cfg6.idle 2 (grid6.coords t) = true := by decide +kernel
theorem idleAt6_3 : ∀ t : Fin cfg6.N, ¬cond6_1 (grid6.coords t) → cfg6.idle 3 (grid6.coords t) = true := by decide +kernel
theorem noFlush6_2 : ∀ t : Fin cfg6.N, ¬cond6_1 (grid6.coords t) → (cfg6.win 2).flush t = false := by decide +kernel
theorem noFlush6_3 : ∀ t : Fin cfg6.N, ¬cond6_1 (grid6.coords t) → (cfg6.win 3).flush t = false := by decide +kernel
theorem liveAt6_2 : ∀ t : Fin cfg6.N, cond6_1 (grid6.coords t) → cfg6.idle 2 (grid6.coords t) = false := by decide +kernel
theorem liveAt6_3 : ∀ t : Fin cfg6.N, cond6_1 (grid6.coords t) → cfg6.idle 3 (grid6.coords t) = false := by decide +kernel

/-! ## The memrefs the body is called with -/

abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x512 .f32 := win6_3.stage (cfg6.slots t 3)
abbrev hs6_3 (t : Fin cfg6.N) : (ms6_3 t).IsWhole := hstage6_3 ((cfg6.slots t 3).cast nbuf6_3)
/-- The two scratch accumulators: whole scoped buffers of the kernel's own. -/
abbrev scM6_0 : Memref sig .tc .vmem S512x128 .f32 := Memref.whole cc6_scratch0
abbrev scM6_1 : Memref sig .tc .vmem S1x512 .f32 := Memref.whole cc6_scratch1

/-- The whole-shape rectangles' offsets are zero. -/
theorem hz2 : (![0, 0] : Fin 2 → ℕ) = fun _ => 0 := by funext a; fin_cases a <;> rfl

/-- A whole-shape store, last, leaves its payload in the buffer whatever the earlier stores and contents were. -/
theorem read_writes_cons_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  have hc : ∀ y : S.Idx, ∃ p ∈ ((⟨Rect.unit off S.size inb, w⟩ : View.Piece (Elt F) S e) :: L), y ∈ p.1.set :=
    fun y => ⟨_, List.mem_cons_self, View.mem_set_unit_zero h inb y⟩
  rw [View.read_writes_eq_canon v f _ hc, View.canon_cons_unit_zero h]

end Cert.Kernel.Hand

end
-- ==== Proof.K_ReadoutRunA.lean ====
import proofs.«422387_j74071005987301_1_alg».proof.Proof.K_ReadoutRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The readout body at the first grid point -/

set_option maxHeartbeats 1000000 in
/-- At the first point (first conditional taken, second not): on whole memrefs, the inputs' at their blocks, the two
    output buffers at contents handed back untouched, the two scratch accumulators at anything, the body runs to
    the continuation holding the accumulators at the first block's contribution added to zero. -/
theorem kernelRun6_A (c : Dev nD) (i : grid6.Coords) (arg1 : Memref sig .tc .vmem S2000x128 .f32) (harg1 : arg1.IsWhole) (arg2 : Memref sig .tc .vmem S2000x1 .i32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1x512 .f32) (harg6 : arg6.IsWhole) (hc0 : cond6_0 i) (hc1 : ¬cond6_1 i)
    (x0 : Vec F S2000x128 .f32) (x1 : Vec F S2000x1 .i32) (xi2 : Vec F S512x128 .f32) (xi3 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare (k6_pay4 x0 x1 k6_pay1) ∗ owns (c : Thread nD τ) arg6 fullShare (k6_pay5 x1 k6_pay2)) -∗ K ⟨⟩))
      ⊢ wp frame (wpE (defs₀ (F := F)) Variants.none c none) E (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_writes_cons_unit_zero _ _ hz2 _ _ _).trans ?_
    sl_unfold_words
    simp only [View.readAt_eq_ld, harg1.read_unread, harg2.read_unread, View.ld_unit_zero (S := S2000x128) hz2, View.ld_unit_zero (S := S2000x1) hz2, View.readCov_unit_zero (S := S512x128) _ hz2]
  · iexists _; isplitr
    swap; · iexact H5
    ipureintro
    refine (read_writes_cons_unit_zero _ _ hz2 _ _ _).trans ?_
    sl_unfold_words
    simp only [View.readAt_eq_ld, harg2.read_unread, View.ld_unit_zero (S := S2000x1) hz2, View.readCov_unit_zero (S := S1x512) _ hz2]

end Cert.Kernel.Hand

end
-- ==== Proof.K_ReadoutRunB.lean ====
import proofs.«422387_j74071005987301_1_alg».proof.Proof.K_ReadoutRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The readout body at a grid point that is neither the first nor the last -/

set_option maxHeartbeats 1000000 in
/-- At an inner point (neither conditional taken): the two output buffers handed back untouched, the two scratch
    accumulators, found at what the point before left, left with this block's contribution added. -/
theorem kernelRun6_B (c : Dev nD) (i : grid6.Coords) (arg1 : Memref sig .tc .vmem S2000x128 .f32) (harg1 : arg1.IsWhole) (arg2 : Memref sig .tc .vmem S2000x1 .i32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1x512 .f32) (harg6 : arg6.IsWhole) (hc0 : ¬cond6_0 i) (hc1 : ¬cond6_1 i)
    (x0 : Vec F S2000x128 .f32) (x1 : Vec F S2000x1 .i32) (xi2 : Vec F S512x128 .f32) (xi3 : Vec F S1x512 .f32)
    (xs0 : Vec F S512x128 .f32) (xs1 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xi3
        ∗ owns (c : Thread nD τ) arg5 fullShare xs0 ∗ owns (c : Thread nD τ) arg6 fullShare xs1
        ∗ (iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare (k6_pay4 x0 x1 xs0) ∗ owns (c : Thread nD τ) arg6 fullShare (k6_pay5 x1 xs1)) -∗ K ⟨⟩))
      ⊢ wp frame (wpE (defs₀ (F := F)) Variants.none c none) E (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]
  · iexists _; isplitr
    swap; · iexact H5
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]

end Cert.Kernel.Hand

end
-- ==== Proof.K_ReadoutRunC.lean ====
import proofs.«422387_j74071005987301_1_alg».proof.Proof.K_ReadoutRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The readout body at the last grid point -/

set_option maxHeartbeats 1000000 in
/-- At the last point (second conditional taken): the scratch accumulators, found at what the point before left,
    are left with this block's contribution added, and copied into the two output buffers. -/
theorem kernelRun6_C (c : Dev nD) (i : grid6.Coords) (arg1 : Memref sig .tc .vmem S2000x128 .f32) (harg1 : arg1.IsWhole) (arg2 : Memref sig .tc .vmem S2000x1 .i32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1x512 .f32) (harg6 : arg6.IsWhole) (hc0 : ¬cond6_0 i) (hc1 : cond6_1 i)
    (x0 : Vec F S2000x128 .f32) (x1 : Vec F S2000x1 .i32)
    (xs0 : Vec F S512x128 .f32) (xs1 : Vec F S1x512 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare (k6_pay4 x0 x1 xs0) ∗ owns (c : Thread nD τ) arg4 fullShare (k6_pay5 x1 xs1)
            ∗ owns (c : Thread nD τ) arg5 fullShare (k6_pay4 x0 x1 xs0) ∗ owns (c : Thread nD τ) arg6 fullShare (k6_pay5 x1 xs1)) -∗ K ⟨⟩))
      ⊢ wp frame (wpE (defs₀ (F := F)) Variants.none c none) E (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  obtain rfl := harg1.eq_unread hf0; obtain rfl := harg2.eq_unread hf1
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]
  isplitl [H3]
  · iexists _; isplitr
    swap; · iexact H3
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]
  isplitl [H4]
  · iexists _; isplitr
    swap; · iexact H4
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]
  · iexists _; isplitr
    swap; · iexact H5
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]

end Cert.Kernel.Hand

end
-- ==== Proof.K_Readout.lean ====
import proofs.«422387_j74071005987301_1_alg».proof.Proof.K_ReadoutRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What the two scratch accumulators hold after each point -/

/-- The segment sums and the segment counts accumulated over the row blocks `0 … n`: the first block added to
    zero, each later block added to what the block before left. -/
def acc6 (c : Dev nD) : (n : ℕ) → n < cfg6.N → Vec F S512x128 .f32 × Vec F S1x512 .f32
  | 0, h => (k6_pay4 (iblk6 V c 0 ⟨0, h⟩) (iblk6 V c 1 ⟨0, h⟩) k6_pay1, k6_pay5 (iblk6 V c 1 ⟨0, h⟩) k6_pay2)
  | n + 1, h => (k6_pay4 (iblk6 V c 0 ⟨n + 1, h⟩) (iblk6 V c 1 ⟨n + 1, h⟩) (acc6 c n (Nat.lt_of_succ_lt h)).1,
      k6_pay5 (iblk6 V c 1 ⟨n + 1, h⟩) (acc6 c n (Nat.lt_of_succ_lt h)).2)

/-- At the first point. -/
theorem acc6_zero (c : Dev nD) (t : Fin cfg6.N) (hz : t.val = 0) :
    acc6 V c t.val t.isLt = (k6_pay4 (iblk6 V c 0 t) (iblk6 V c 1 t) k6_pay1, k6_pay5 (iblk6 V c 1 t) k6_pay2) := by
  obtain ⟨n, hn⟩ := t
  cases n with
  | zero => rfl
  | succ n => exact absurd hz (Nat.succ_ne_zero n)

/-- At a later point: over what the point before left. -/
theorem acc6_pos (c : Dev nD) (t : Fin cfg6.N) (hz : t.val ≠ 0) :
    acc6 V c t.val t.isLt = (k6_pay4 (iblk6 V c 0 t) (iblk6 V c 1 t) (acc6 V c (t.val - 1) (Nat.lt_of_le_of_lt (Nat.sub_le _ _) t.isLt)).1,
      k6_pay5 (iblk6 V c 1 t) (acc6 V c (t.val - 1) (Nat.lt_of_le_of_lt (Nat.sub_le _ _) t.isLt)).2) := by
  obtain ⟨n, hn⟩ := t
  cases n with
  | zero => exact absurd rfl hz
  | succ n => rfl

/-! ## The region invariant -/

/-- Before the first point the class's invariant (every scoped buffer that is no staging buffer at anything, the
    generator register at some state); afterwards the two scratch accumulators at what the point before left, the
    other scoped buffers unopened, and the generator register at some state. -/
def PhiS6 (c : Dev nD) : (n : ℕ) → n ≤ cfg6.N → sProp 𝕄
  | 0, _ => Pipeline.ΦA spec6 c
  | n + 1, hn => iprop(iprop(owns (c : Thread nD τ) scM6_0 fullShare ((acc6 V c n hn).1) ∗ owns (c : Thread nD τ) scM6_1 fullShare ((acc6 V c n hn).2))
      ∗ Pipeline.scopedRestBut (Ix := Unit) (Name := ℕ) (U := UR sig nD τ) (Lvl := ℕ) (Val := Elt F) spec6 c [cc6_scratch0, cc6_scratch1] ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((acc6 V c n hn).1) ∗ owns (c : Thread nD τ) scM6_1 fullShare ((acc6 V c n hn).2))
      ∗ Pipeline.scopedRestBut (Ix := Unit) (Name := ℕ) (U := UR sig nD τ) (Lvl := ℕ) (Val := Elt F) spec6 c [cc6_scratch0, cc6_scratch1] ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((acc6 V c (n - 1) (by omega)).1) ∗ owns (c : Thread nD τ) scM6_1 fullShare ((acc6 V c (n - 1) (by omega)).2))
      ∗ Pipeline.scopedRestBut (Ix := Unit) (Name := ℕ) (U := UR sig nD τ) (Lvl := ℕ) (Val := Elt F) spec6 c [cc6_scratch0, cc6_scratch1] ∗ (∃ r, prngReg c r)) := by
  cases n with
  | zero => exact absurd rfl hz
  | succ n => rfl

/-- The class's invariant with the two scratch accumulators as memrefs owned at some contents, the other scoped
    buffers unopened. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## The pipeline's proof data -/

/-- The arrays as the region finds them; after the body at point `t` each input's buffer at its block and the
    two outputs' at the accumulators (consulted at the last point only: elsewhere the outputs are idle). -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (acc6 V c t.val t.isLt).1
    | ⟨3, _⟩ => (acc6 V c t.val t.isLt).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (acc6 V c t.val t.isLt).1 := by dsimp only [dat6]
theorem after6_3 (c : Dev nD) (t : Fin cfg6.N) : (dat6 V c).after 3 t = (acc6 V c t.val t.isLt).2 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks; the closed forms of the two conditions say which
    case the point is in; the invariant hands the body the two accumulators at what the point before left (at anything
    at the first point) and takes them back at this point's contents; at every point but the last the two output
    buffers are handed back as found, at the last they hold the accumulators. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 50 := lt_of_lt_of_eq t.isLt (show cfg6.N = 50 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  by_cases h1 : t.val % 50 = 49
  · have h0 : ¬t.val % 50 = 0 := by omega
    have hz : t.val ≠ 0 := by omega
    rw [show (dat6 V c).leavesExact 2 t = owns (c : Thread nD τ) (ms6_2 t) fullShare ((dat6 V c).after 2 t) from by
      unfold Dat.leavesExact; rw [liveAt6_2 t ((hcond6_1 t).mpr h1)], after6_2]
    rw [show (dat6 V c).leavesExact 3 t = owns (c : Thread nD τ) (ms6_3 t) fullShare ((dat6 V c).after 3 t) from by
      unfold Dat.leavesExact; rw [liveAt6_3 t ((hcond6_1 t).mpr h1)], after6_3]
    rw [acc6_pos V c t hz]; (try dsimp only)
    rw [PhiS6_castSucc V c t, PhiS6_pos V c _ _ hz]
    iintro ⟨⟨⟨HS0, HS1⟩, HR, Hg⟩, Ho, ⟨%d0, H0⟩, ⟨%d1, H1⟩, ⟨%d2, H2⟩, ⟨%d3, H3⟩⟩
    iapply (kernelRun6_C c (grid6.coords t) _ _ _ _ _ _ _ _ _ _ _ _ (fun h => h0 ((hcond6_0 t).mp h)) ((hcond6_1 t).mpr h1) (iblk6 V c 0 t) (iblk6 V c 1 t) _ _ Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 HR Hg]
    · isplitl [HS0 HS1]
      · isplitl [HS0]; · iexact HS0
        iexact HS1
      isplitl [HR]; · iexact HR
      iexact Hg
    isplitl [Ho]; · iexact Ho
    isplitl [H0]; · iexact H0
    isplitl [H1]; · iexact H1
    isplitl [H2]; · iexact H2
    iexact H3
  · rw [Dat.leavesExact_idle (dat6 V c) 2 t (idleAt6_2 t (fun h => h1 ((hcond6_1 t).mp h))) (noFlush6_2 t (fun h => h1 ((hcond6_1 t).mp h)))]
    rw [Dat.leavesExact_idle (dat6 V c) 3 t (idleAt6_3 t (fun h => h1 ((hcond6_1 t).mp h))) (noFlush6_3 t (fun h => h1 ((hcond6_1 t).mp h)))]
    by_cases h0 : t.val % 50 = 0
    · have hz : t.val = 0 := by omega
      rw [acc6_zero V c t hz]; (try dsimp only)
      rw [PhiS6_castSucc V c t, PhiS6_zero V c _ _ hz, PhiA6_eq]
      iintro ⟨⟨⟨⟨HS0, HS1⟩, HR⟩, Hg⟩, Ho, ⟨%d0, H0⟩, ⟨%d1, H1⟩, ⟨%d2, H2⟩, ⟨%d3, H3⟩⟩
      iapply (kernelRun6_A c (grid6.coords t) _ _ _ _ _ _ _ _ _ _ _ _ ((hcond6_0 t).mpr h0) (fun h => h1 ((hcond6_1 t).mp h)) (iblk6 V c 0 t) (iblk6 V c 1 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexists _; iexact H2
      iexists _; iexact H3
    · have hz : t.val ≠ 0 := by omega
      rw [acc6_pos V c t hz]; (try dsimp only)
      rw [PhiS6_castSucc V c t, PhiS6_pos V c _ _ hz]
      iintro ⟨⟨⟨HS0, HS1⟩, HR, Hg⟩, Ho, ⟨%d0, H0⟩, ⟨%d1, H1⟩, ⟨%d2, H2⟩, ⟨%d3, H3⟩⟩
      iapply (kernelRun6_B c (grid6.coords t) _ _ _ _ _ _ _ _ _ _ _ _ (fun h => h0 ((hcond6_0 t).mp h)) (fun h => h1 ((hcond6_1 t).mp h)) (iblk6 V c 0 t) (iblk6 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: the accumulators' contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HS1⟩, HR, Hg⟩
  isplitr [Hg]
  · isplitr [HR]
    · isplitl [HS0]
      · iexists _; iexact HS0
      · iexists _; iexact HS1
    · iexact HR
  · iexact Hg

theorem hout6 (c : Dev nD) : (dat6 V c).Φ (Fin.last cfg6.N) ⊢ Pipeline.ΦA spec6 c :=
  Phi_out6 V c _ (by rw [Fin.val_last]; have : cfg6.N = 50 := N_6; omega)

end Cert.Kernel.Hand

end
-- ==== Proof.K_Chain.lean ====
/-
  The contents of the TensorCore's unscoped buffers at every boundary between two items of @main, as a chain: the
  launch memory, then each host stretch applied (`StableHlo.after`), then, after a kernel region, the region's output
  array replaced by what the pipeline's write-backs leave (`Dat.arrAt` at the last point) — and every pipeline's
  proof data, each stated at the contents its region is entered from.
-/
import proofs.«422387_j74071005987301_1_alg».proof.Proof.K_RunCond
import proofs.«422387_j74071005987301_1_alg».proof.Proof.K_Dense0
import proofs.«422387_j74071005987301_1_alg».proof.Proof.K_Bias1
import proofs.«422387_j74071005987301_1_alg».proof.Proof.K_Dense2
import proofs.«422387_j74071005987301_1_alg».proof.Proof.K_Bias3
import proofs.«422387_j74071005987301_1_alg».proof.Proof.K_Dense4
import proofs.«422387_j74071005987301_1_alg».proof.Proof.K_Bias5
import proofs.«422387_j74071005987301_1_alg».proof.Proof.K_Readout

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A boundary's contents read at the TensorCore's references (what a region's proof data take). -/
abbrev atTc (W : Dev nD → Valuation τ sig (Elt F)) : (c : Dev nD) → (b : Ref sig .tc) → Buf (Elt F) ((c : Thread nD τ).loc b) :=
  fun c b => W c b

/-! ## The chain of boundary contents -/

/-- Before region 0: the launch memory after the first three host stretches. -/
abbrev W3 : Dev nD → Valuation τ sig (Elt F) := fun c => Gen.V3 m c
/-- What region 0 leaves in its output array `main_v30`. -/
def o4 (c : Dev nD) : Buf (Elt F) ((c : Thread nD τ).loc main_v30) := (dat0 (atTc (W3 m)) c).arrAt 2 cfg0.N
/-- After region 0. -/
def W4 (c : Dev nD) : Valuation τ sig (Elt F) := Function.update (W3 m c) main_v30 (o4 m c)
/-- Before region 1: after the host stretch that gathers, scales and scatter-adds. -/
abbrev W5 : Dev nD → Valuation τ sig (Elt F) := fun c => StableHlo.after hostOps1 (W4 m c)
/-- What region 1 leaves in `main_v45`. -/
def o6 (c : Dev nD) : Buf (Elt F) ((c : Thread nD τ).loc main_v45) := (dat1 (atTc (W5 m)) c).arrAt 2 cfg1.N
/-- After region 1 (and before region 2). -/
def W6 (c : Dev nD) : Valuation τ sig (Elt F) := Function.update (W5 m c) main_v45 (o6 m c)
/-- What region 2 leaves in `main_v46`. -/
def o7 (c : Dev nD) : Buf (Elt F) ((c : Thread nD τ).loc main_v46) := (dat2 (atTc (W6 m)) c).arrAt 2 cfg2.N
/-- After region 2. -/
def W7 (c : Dev nD) : Valuation τ sig (Elt F) := Function.update (W6 m c) main_v46 (o7 m c)
/-- Before region 3. -/
abbrev W8 : Dev nD → Valuation τ sig (Elt F) := fun c => StableHlo.after hostOps3 (W7 m c)
/-- What region 3 leaves in `main_v61`. -/
def o9 (c : Dev nD) : Buf (Elt F) ((c : Thread nD τ).loc main_v61) := (dat3 (atTc (W8 m)) c).arrAt 2 cfg3.N
/-- After region 3 (and before region 4). -/
def W9 (c : Dev nD) : Valuation τ sig (Elt F) := Function.update (W8 m c) main_v61 (o9 m c)
/-- What region 4 leaves in `main_v62`. -/
def o10 (c : Dev nD) : Buf (Elt F) ((c : Thread nD τ).loc main_v62) := (dat4 (atTc (W9 m)) c).arrAt 2 cfg4.N
/-- After region 4. -/
def W10 (c : Dev nD) : Valuation τ sig (Elt F) := Function.update (W9 m c) main_v62 (o10 m c)
/-- Before region 5. -/
abbrev W11 : Dev nD → Valuation τ sig (Elt F) := fun c => StableHlo.after hostOps5 (W10 m c)
/-- What region 5 leaves in `main_v77`. -/
def o12 (c : Dev nD) : Buf (Elt F) ((c : Thread nD τ).loc main_v77) := (dat5 (atTc (W11 m)) c).arrAt 2 cfg5.N
/-- After region 5. -/
def W12 (c : Dev nD) : Valuation τ sig (Elt F) := Function.update (W11 m c) main_v77 (o12 m c)
/-- Before region 6: the graph ids reshaped to a column. -/
abbrev W13 : Dev nD → Valuation τ sig (Elt F) := fun c => StableHlo.after hostOps6 (W12 m c)
/-- What region 6 leaves in its two output arrays: the per-graph sums and the per-graph counts. -/
def o14a (c : Dev nD) : Buf (Elt F) ((c : Thread nD τ).loc main_v79_0) := (dat6 (atTc (W13 m)) c).arrAt 2 cfg6.N
def o14b (c : Dev nD) : Buf (Elt F) ((c : Thread nD τ).loc main_v79_1) := (dat6 (atTc (W13 m)) c).arrAt 3 cfg6.N
/-- After region 6. -/
def W14 (c : Dev nD) : Valuation τ sig (Elt F) :=
  Function.update (Function.update (W13 m c) main_v79_0 (o14a m c)) main_v79_1 (o14b m c)
/-- At the return: the quotient by the clamped counts. -/
abbrev W15 : Dev nD → Valuation τ sig (Elt F) := fun c => StableHlo.after hostOps7 (W14 m c)

/-! ## The same chain as the launch module's valuations over what the regions leave -/

/-- What the regions leave, as the launch module's valuations read it: at item `j`, the boundary contents after it. -/
def outs : Gen.Outs (F := F)
  | 4, r, c => W4 m c r
  | 6, r, c => W6 m c r
  | 7, r, c => W7 m c r
  | 9, r, c => W9 m c r
  | 10, r, c => W10 m c r
  | 12, r, c => W12 m c r
  | _, r, c => W14 m c r

theorem V4_eq (c : Dev nD) : Gen.V4 m (outs m) c = W4 m c := by
  show Function.update (Gen.V3 m c) main_v30 (W4 m c main_v30) = W4 m c
  unfold W4; rw [Function.update_self]
theorem V5_eq (c : Dev nD) : Gen.V5 m (outs m) c = W5 m c := by
  show StableHlo.after hostOps1 (Gen.V4 m (outs m) c) = _; rw [V4_eq]
theorem V6_eq (c : Dev nD) : Gen.V6 m (outs m) c = W6 m c := by
  show Function.update (Gen.V5 m (outs m) c) main_v45 (W6 m c main_v45) = W6 m c
  rw [V5_eq]; unfold W6; rw [Function.update_self]
theorem V7_eq (c : Dev nD) : Gen.V7 m (outs m) c = W7 m c := by
  show Function.update (Gen.V6 m (outs m) c) main_v46 (W7 m c main_v46) = W7 m c
  rw [V6_eq]; unfold W7; rw [Function.update_self]
theorem V8_eq (c : Dev nD) : Gen.V8 m (outs m) c = W8 m c := by
  show StableHlo.after hostOps3 (Gen.V7 m (outs m) c) = _; rw [V7_eq]
theorem V9_eq (c : Dev nD) : Gen.V9 m (outs m) c = W9 m c := by
  show Function.update (Gen.V8 m (outs m) c) main_v61 (W9 m c main_v61) = W9 m c
  rw [V8_eq]; unfold W9; rw [Function.update_self]
theorem V10_eq (c : Dev nD) : Gen.V10 m (outs m) c = W10 m c := by
  show Function.update (Gen.V9 m (outs m) c) main_v62 (W10 m c main_v62) = W10 m c
  rw [V9_eq]; unfold W10; rw [Function.update_self]
theorem V11_eq (c : Dev nD) : Gen.V11 m (outs m) c = W11 m c := by
  show StableHlo.after hostOps5 (Gen.V10 m (outs m) c) = _; rw [V10_eq]
theorem V12_eq (c : Dev nD) : Gen.V12 m (outs m) c = W12 m c := by
  show Function.update (Gen.V11 m (outs m) c) main_v77 (W12 m c main_v77) = W12 m c
  rw [V11_eq]; unfold W12; rw [Function.update_self]
theorem V13_eq (c : Dev nD) : Gen.V13 m (outs m) c = W13 m c := by
  show StableHlo.after hostOps6 (Gen.V12 m (outs m) c) = _; rw [V12_eq]
theorem V14_eq (c : Dev nD) : Gen.V14 m (outs m) c = W14 m c := by
  show Function.update (Function.update (Gen.V13 m (outs m) c) main_v79_0 (W14 m c main_v79_0)) main_v79_1 (W14 m c main_v79_1) = W14 m c
  rw [V13_eq]; unfold W14
  rw [Function.update_self, Function.update_of_ne (StableHlo.devRef_ne_of_ne (by decide)), Function.update_self]
theorem V15_eq (c : Dev nD) : Gen.V15 m (outs m) c = W15 m c := by
  show StableHlo.after hostOps7 (Gen.V14 m (outs m) c) = _; rw [V14_eq]

/-! ## Every pipeline's proof data, each at its region's entry contents -/

def pdats : (p : Fin 7) → (c : Dev nD) → Dat τ (Elt F) Unit ℕ (UR sig nD τ) ℕ (cfgs p) c
  | ⟨0, _⟩ => fun c => dat0 (atTc (W3 m)) c
  | ⟨1, _⟩ => fun c => dat1 (atTc (W5 m)) c
  | ⟨2, _⟩ => fun c => dat2 (atTc (W6 m)) c
  | ⟨3, _⟩ => fun c => dat3 (atTc (W8 m)) c
  | ⟨4, _⟩ => fun c => dat4 (atTc (W9 m)) c
  | ⟨5, _⟩ => fun c => dat5 (atTc (W11 m)) c
  | ⟨6, _⟩ => fun c => dat6 (atTc (W13 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev Rst (c : Dev nD) : sProp 𝕄 := iprop((∃ r, prngReg c r) ∗ ∃ W, owes (c : Thread nD τ) (0 : CellTallies nD τ sig Unit) W)

end Cert.Kernel.Hand

end
-- ==== Proof.K_Reg0.lean ====
/-
  Region 0 of @main (the dense transform of the input features) as a segment of the launch: entered from the
  contents after the host prefix, left with its output array at what the row blocks' write-backs leave.
-/
import proofs.«422387_j74071005987301_1_alg».proof.Proof.K_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: an input array its entry contents (no
    write-back touches it), the output array the write-backs folded. -/
theorem hF0 (c : Dev nD) (w : Fin cfg0.W) :
    (pdats m 0 c).arrAt w cfg0.N = atTc (W4 m) c (Pipeline.arrRef spec0 w) := by
  match w with
  | ⟨0, _⟩ =>
    refine (((pdats m 0 c).arrAt_in 0 rfl _).trans (A_eq0 (atTc (W3 m)) c 0)).trans ?_
    show W3 m c (Proc.devRef .tc (Pipeline.arrRef spec0 0))
      = Function.update (W3 m c) (Proc.devRef .tc main_v30) (o4 m c) (Proc.devRef .tc (Pipeline.arrRef spec0 0))
    rw [Function.update_of_ne (StableHlo.devRef_ne_of_ne (by decide) : (Proc.devRef .tc (Pipeline.arrRef spec0 0) : DevRef τ sig) ≠ Proc.devRef .tc main_v30)]
  | ⟨1, _⟩ =>
    refine (((pdats m 0 c).arrAt_in 1 rfl _).trans (A_eq0 (atTc (W3 m)) c 1)).trans ?_
    show W3 m c (Proc.devRef .tc (Pipeline.arrRef spec0 1))
      = Function.update (W3 m c) (Proc.devRef .tc main_v30) (o4 m c) (Proc.devRef .tc (Pipeline.arrRef spec0 1))
    rw [Function.update_of_ne (StableHlo.devRef_ne_of_ne (by decide) : (Proc.devRef .tc (Pipeline.arrRef spec0 1) : DevRef τ sig) ≠ Proc.devRef .tc main_v30)]
  | ⟨2, _⟩ =>
    show o4 m c = Function.update (W3 m c) (Proc.devRef .tc main_v30) (o4 m c) (Proc.devRef .tc main_v30)
    rw [Function.update_self]

/-- Every other buffer holds at the exit what it held at the entry. -/
theorem hrest0 (c : Dev nD) : ∀ b, b ∉ Finset.univ.image (Pipeline.arrRef spec0) → atTc (W4 m) c b = atTc (W3 m) c b := by
  intro b hb
  show Function.update (W3 m c) (Proc.devRef .tc main_v30) (o4 m c) (Proc.devRef .tc b) = W3 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v30)]

set_option backward.isDefEq.respectTransparency.types false in
/-- REGION 0 (the dense transform of the input features) over the thread state "every unscoped buffer at the boundary's contents, the generator register
    at some state, nothing owed": its arrays split out of the unscoped buffers and put back at the exit contents; the
    generator register into the region's invariant and out; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W3 m)) c).loose
  hwaits := Pipeline.hwaits_of_owed_zero _ _ _ _ L lv 0 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (W3 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (W3 m) c) (atTc (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg1.lean ====
/-
  Region 1 of @main as a segment of the launch: entered from the
  contents after the host prefix, left with its output array at what the row blocks' write-backs leave.
-/
import proofs.«422387_j74071005987301_1_alg».proof.Proof.K_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 1's exit each of its arrays holds what the pipeline leaves: an input array its entry contents (no
    write-back touches it), the output array the write-backs folded. -/
theorem hF1 (c : Dev nD) (w : Fin cfg1.W) :
    (pdats m 1 c).arrAt w cfg1.N = atTc (W6 m) c (Pipeline.arrRef spec1 w) := by
  match w with
  | ⟨0, _⟩ =>
    refine (((pdats m 1 c).arrAt_in 0 rfl _).trans (A_eq1 (atTc (W5 m)) c 0)).trans ?_
    show W5 m c (Proc.devRef .tc (Pipeline.arrRef spec1 0))
      = Function.update (W5 m c) (Proc.devRef .tc main_v45) (o6 m c) (Proc.devRef .tc (Pipeline.arrRef spec1 0))
    rw [Function.update_of_ne (StableHlo.devRef_ne_of_ne (by decide) : (Proc.devRef .tc (Pipeline.arrRef spec1 0) : DevRef τ sig) ≠ Proc.devRef .tc main_v45)]
  | ⟨1, _⟩ =>
    refine (((pdats m 1 c).arrAt_in 1 rfl _).trans (A_eq1 (atTc (W5 m)) c 1)).trans ?_
    show W5 m c (Proc.devRef .tc (Pipeline.arrRef spec1 1))
      = Function.update (W5 m c) (Proc.devRef .tc main_v45) (o6 m c) (Proc.devRef .tc (Pipeline.arrRef spec1 1))
    rw [Function.update_of_ne (StableHlo.devRef_ne_of_ne (by decide) : (Proc.devRef .tc (Pipeline.arrRef spec1 1) : DevRef τ sig) ≠ Proc.devRef .tc main_v45)]
  | ⟨2, _⟩ =>
    show o6 m c = Function.update (W5 m c) (Proc.devRef .tc main_v45) (o6 m c) (Proc.devRef .tc main_v45)
    rw [Function.update_self]

/-- Every other buffer holds at the exit what it held at the entry. -/
theorem hrest1 (c : Dev nD) : ∀ b, b ∉ Finset.univ.image (Pipeline.arrRef spec1) → atTc (W6 m) c b = atTc (W5 m) c b := by
  intro b hb
  show Function.update (W5 m c) (Proc.devRef .tc main_v45) (o6 m c) (Proc.devRef .tc b) = W5 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v45)]

set_option backward.isDefEq.respectTransparency.types false in
/-- REGION 1 over the thread state "every unscoped buffer at the boundary's contents, the generator register
    at some state, nothing owed": its arrays split out of the unscoped buffers and put back at the exit contents; the
    generator register into the region's invariant and out; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W5 m)) c).loose
  hwaits := Pipeline.hwaits_of_owed_zero _ _ _ _ L lv 1 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (W5 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (W5 m) c) (atTc (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg2.lean ====
/-
  Region 2 of @main as a segment of the launch: entered from the
  contents after the host prefix, left with its output array at what the row blocks' write-backs leave.
-/
import proofs.«422387_j74071005987301_1_alg».proof.Proof.K_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 2's exit each of its arrays holds what the pipeline leaves: an input array its entry contents (no
    write-back touches it), the output array the write-backs folded. -/
theorem hF2 (c : Dev nD) (w : Fin cfg2.W) :
    (pdats m 2 c).arrAt w cfg2.N = atTc (W7 m) c (Pipeline.arrRef spec2 w) := by
  match w with
  | ⟨0, _⟩ =>
    refine (((pdats m 2 c).arrAt_in 0 rfl _).trans (A_eq2 (atTc (W6 m)) c 0)).trans ?_
    show W6 m c (Proc.devRef .tc (Pipeline.arrRef spec2 0))
      = Function.update (W6 m c) (Proc.devRef .tc main_v46) (o7 m c) (Proc.devRef .tc (Pipeline.arrRef spec2 0))
    rw [Function.update_of_ne (StableHlo.devRef_ne_of_ne (by decide) : (Proc.devRef .tc (Pipeline.arrRef spec2 0) : DevRef τ sig) ≠ Proc.devRef .tc main_v46)]
  | ⟨1, _⟩ =>
    refine (((pdats m 2 c).arrAt_in 1 rfl _).trans (A_eq2 (atTc (W6 m)) c 1)).trans ?_
    show W6 m c (Proc.devRef .tc (Pipeline.arrRef spec2 1))
      = Function.update (W6 m c) (Proc.devRef .tc main_v46) (o7 m c) (Proc.devRef .tc (Pipeline.arrRef spec2 1))
    rw [Function.update_of_ne (StableHlo.devRef_ne_of_ne (by decide) : (Proc.devRef .tc (Pipeline.arrRef spec2 1) : DevRef τ sig) ≠ Proc.devRef .tc main_v46)]
  | ⟨2, _⟩ =>
    show o7 m c = Function.update (W6 m c) (Proc.devRef .tc main_v46) (o7 m c) (Proc.devRef .tc main_v46)
    rw [Function.update_self]

/-- Every other buffer holds at the exit what it held at the entry. -/
theorem hrest2 (c : Dev nD) : ∀ b, b ∉ Finset.univ.image (Pipeline.arrRef spec2) → atTc (W7 m) c b = atTc (W6 m) c b := by
  intro b hb
  show Function.update (W6 m c) (Proc.devRef .tc main_v46) (o7 m c) (Proc.devRef .tc b) = W6 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v46)]

set_option backward.isDefEq.respectTransparency.types false in
/-- REGION 2 over the thread state "every unscoped buffer at the boundary's contents, the generator register
    at some state, nothing owed": its arrays split out of the unscoped buffers and put back at the exit contents; the
    generator register into the region's invariant and out; no semaphore of the kernel's own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W6 m)) c).loose
  hwaits := Pipeline.hwaits_of_owed_zero _ _ _ _ L lv 2 fun _ _ => rfl
  pre c := iprop(StableHlo.held (c : Thread nD τ) (Pipeline.ucRefs τ sig) (W6 m c) ∗ Rst c)
  post c := iprop(StableHlo.held (c : Thread nD τ) (Pipeline.ucRefs τ sig) (W7 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (W6 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (W6 m) c) (atTc (W7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg3.lean ====
/-
  Region 3 of @main as a segment of the launch: entered from the
  contents after the host prefix, left with its output array at what the row blocks' write-backs leave.
-/
import proofs.«422387_j74071005987301_1_alg».proof.Proof.K_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 3's exit each of its arrays holds what the pipeline leaves: an input array its entry contents (no
    write-back touches it), the output array the write-backs folded. -/
theorem hF3 (c : Dev nD) (w : Fin cfg3.W) :
    (pdats m 3 c).arrAt w cfg3.N = atTc (W9 m) c (Pipeline.arrRef spec3 w) := by
  match w with
  | ⟨0, _⟩ =>
    refine (((pdats m 3 c).arrAt_in 0 rfl _).trans (A_eq3 (atTc (W8 m)) c 0)).trans ?_
    show W8 m c (Proc.devRef .tc (Pipeline.arrRef spec3 0))
      = Function.update (W8 m c) (Proc.devRef .tc main_v61) (o9 m c) (Proc.devRef .tc (Pipeline.arrRef spec3 0))
    rw [Function.update_of_ne (StableHlo.devRef_ne_of_ne (by decide) : (Proc.devRef .tc (Pipeline.arrRef spec3 0) : DevRef τ sig) ≠ Proc.devRef .tc main_v61)]
  | ⟨1, _⟩ =>
    refine (((pdats m 3 c).arrAt_in 1 rfl _).trans (A_eq3 (atTc (W8 m)) c 1)).trans ?_
    show W8 m c (Proc.devRef .tc (Pipeline.arrRef spec3 1))
      = Function.update (W8 m c) (Proc.devRef .tc main_v61) (o9 m c) (Proc.devRef .tc (Pipeline.arrRef spec3 1))
    rw [Function.update_of_ne (StableHlo.devRef_ne_of_ne (by decide) : (Proc.devRef .tc (Pipeline.arrRef spec3 1) : DevRef τ sig) ≠ Proc.devRef .tc main_v61)]
  | ⟨2, _⟩ =>
    show o9 m c = Function.update (W8 m c) (Proc.devRef .tc main_v61) (o9 m c) (Proc.devRef .tc main_v61)
    rw [Function.update_self]

/-- Every other buffer holds at the exit what it held at the entry. -/
theorem hrest3 (c : Dev nD) : ∀ b, b ∉ Finset.univ.image (Pipeline.arrRef spec3) → atTc (W9 m) c b = atTc (W8 m) c b := by
  intro b hb
  show Function.update (W8 m c) (Proc.devRef .tc main_v61) (o9 m c) (Proc.devRef .tc b) = W8 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v61)]

set_option backward.isDefEq.respectTransparency.types false in
/-- REGION 3 over the thread state "every unscoped buffer at the boundary's contents, the generator register
    at some state, nothing owed": its arrays split out of the unscoped buffers and put back at the exit contents; the
    generator register into the region's invariant and out; no semaphore of the kernel's own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (W8 m)) c).loose
  hwaits := Pipeline.hwaits_of_owed_zero _ _ _ _ L lv 3 fun _ _ => rfl
  pre c := iprop(StableHlo.held (c : Thread nD τ) (Pipeline.ucRefs τ sig) (W8 m c) ∗ Rst c)
  post c := iprop(StableHlo.held (c : Thread nD τ) (Pipeline.ucRefs τ sig) (W9 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (W8 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (W8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (W8 m) c) (atTc (W9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg4.lean ====
/-
  Region 4 of @main as a segment of the launch: entered from the
  contents after the host prefix, left with its output array at what the row blocks' write-backs leave.
-/
import proofs.«422387_j74071005987301_1_alg».proof.Proof.K_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 4's exit each of its arrays holds what the pipeline leaves: an input array its entry contents (no
    write-back touches it), the output array the write-backs folded. -/
theorem hF4 (c : Dev nD) (w : Fin cfg4.W) :
    (pdats m 4 c).arrAt w cfg4.N = atTc (W10 m) c (Pipeline.arrRef spec4 w) := by
  match w with
  | ⟨0, _⟩ =>
    refine (((pdats m 4 c).arrAt_in 0 rfl _).trans (A_eq4 (atTc (W9 m)) c 0)).trans ?_
    show W9 m c (Proc.devRef .tc (Pipeline.arrRef spec4 0))
      = Function.update (W9 m c) (Proc.devRef .tc main_v62) (o10 m c) (Proc.devRef .tc (Pipeline.arrRef spec4 0))
    rw [Function.update_of_ne (StableHlo.devRef_ne_of_ne (by decide) : (Proc.devRef .tc (Pipeline.arrRef spec4 0) : DevRef τ sig) ≠ Proc.devRef .tc main_v62)]
  | ⟨1, _⟩ =>
    refine (((pdats m 4 c).arrAt_in 1 rfl _).trans (A_eq4 (atTc (W9 m)) c 1)).trans ?_
    show W9 m c (Proc.devRef .tc (Pipeline.arrRef spec4 1))
      = Function.update (W9 m c) (Proc.devRef .tc main_v62) (o10 m c) (Proc.devRef .tc (Pipeline.arrRef spec4 1))
    rw [Function.update_of_ne (StableHlo.devRef_ne_of_ne (by decide) : (Proc.devRef .tc (Pipeline.arrRef spec4 1) : DevRef τ sig) ≠ Proc.devRef .tc main_v62)]
  | ⟨2, _⟩ =>
    show o10 m c = Function.update (W9 m c) (Proc.devRef .tc main_v62) (o10 m c) (Proc.devRef .tc main_v62)
    rw [Function.update_self]

/-- Every other buffer holds at the exit what it held at the entry. -/
theorem hrest4 (c : Dev nD) : ∀ b, b ∉ Finset.univ.image (Pipeline.arrRef spec4) → atTc (W10 m) c b = atTc (W9 m) c b := by
  intro b hb
  show Function.update (W9 m c) (Proc.devRef .tc main_v62) (o10 m c) (Proc.devRef .tc b) = W9 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v62)]

set_option backward.isDefEq.respectTransparency.types false in
/-- REGION 4 over the thread state "every unscoped buffer at the boundary's contents, the generator register
    at some state, nothing owed": its arrays split out of the unscoped buffers and put back at the exit contents; the
    generator register into the region's invariant and out; no semaphore of the kernel's own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (W9 m)) c).loose
  hwaits := Pipeline.hwaits_of_owed_zero _ _ _ _ L lv 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (W9 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atTc (W9 m) c) (atTc (W10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg5.lean ====
/-
  Region 5 of @main as a segment of the launch: entered from the
  contents after the host prefix, left with its output array at what the row blocks' write-backs leave.
-/
import proofs.«422387_j74071005987301_1_alg».proof.Proof.K_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 5's exit each of its arrays holds what the pipeline leaves: an input array its entry contents (no
    write-back touches it), the output array the write-backs folded. -/
theorem hF5 (c : Dev nD) (w : Fin cfg5.W) :
    (pdats m 5 c).arrAt w cfg5.N = atTc (W12 m) c (Pipeline.arrRef spec5 w) := by
  match w with
  | ⟨0, _⟩ =>
    refine (((pdats m 5 c).arrAt_in 0 rfl _).trans (A_eq5 (atTc (W11 m)) c 0)).trans ?_
    show W11 m c (Proc.devRef .tc (Pipeline.arrRef spec5 0))
      = Function.update (W11 m c) (Proc.devRef .tc main_v77) (o12 m c) (Proc.devRef .tc (Pipeline.arrRef spec5 0))
    rw [Function.update_of_ne (StableHlo.devRef_ne_of_ne (by decide) : (Proc.devRef .tc (Pipeline.arrRef spec5 0) : DevRef τ sig) ≠ Proc.devRef .tc main_v77)]
  | ⟨1, _⟩ =>
    refine (((pdats m 5 c).arrAt_in 1 rfl _).trans (A_eq5 (atTc (W11 m)) c 1)).trans ?_
    show W11 m c (Proc.devRef .tc (Pipeline.arrRef spec5 1))
      = Function.update (W11 m c) (Proc.devRef .tc main_v77) (o12 m c) (Proc.devRef .tc (Pipeline.arrRef spec5 1))
    rw [Function.update_of_ne (StableHlo.devRef_ne_of_ne (by decide) : (Proc.devRef .tc (Pipeline.arrRef spec5 1) : DevRef τ sig) ≠ Proc.devRef .tc main_v77)]
  | ⟨2, _⟩ =>
    show o12 m c = Function.update (W11 m c) (Proc.devRef .tc main_v77) (o12 m c) (Proc.devRef .tc main_v77)
    rw [Function.update_self]

/-- Every other buffer holds at the exit what it held at the entry. -/
theorem hrest5 (c : Dev nD) : ∀ b, b ∉ Finset.univ.image (Pipeline.arrRef spec5) → atTc (W12 m) c b = atTc (W11 m) c b := by
  intro b hb
  show Function.update (W11 m c) (Proc.devRef .tc main_v77) (o12 m c) (Proc.devRef .tc b) = W11 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v77)]

set_option backward.isDefEq.respectTransparency.types false in
/-- REGION 5 over the thread state "every unscoped buffer at the boundary's contents, the generator register
    at some state, nothing owed": its arrays split out of the unscoped buffers and put back at the exit contents; the
    generator register into the region's invariant and out; no semaphore of the kernel's own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (W11 m)) c).loose
  hwaits := Pipeline.hwaits_of_owed_zero _ _ _ _ L lv 5 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (W11 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (atTc (W11 m) c) (atTc (W12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg6.lean ====
/-
  Region 6 of @main (the per-graph readout) as a segment of the launch: entered from the contents after the graph ids
  are reshaped to a column, left with its two output arrays — the per-graph sums and the per-graph counts — at what
  the single write-back at the last grid point leaves; the two accumulators it carries between grid points live in
  its invariant.
-/
import proofs.«422387_j74071005987301_1_alg».proof.Proof.K_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- At region 6's exit each of its arrays holds what the pipeline leaves: an input array its entry contents, each output
    array what the write-back at the last point wrote. -/
theorem hF6 (c : Dev nD) (w : Fin cfg6.W) :
    (pdats m 6 c).arrAt w cfg6.N = atTc (W14 m) c (Pipeline.arrRef spec6 w) := by
  match w with
  | ⟨0, _⟩ =>
    refine (((pdats m 6 c).arrAt_in 0 rfl _).trans (A_eq6 (atTc (W13 m)) c 0)).trans ?_
    show W13 m c (Proc.devRef .tc (Pipeline.arrRef spec6 0))
      = Function.update (Function.update (W13 m c) (Proc.devRef .tc main_v79_0) (o14a m c)) (Proc.devRef .tc main_v79_1) (o14b m c) (Proc.devRef .tc (Pipeline.arrRef spec6 0))
    rw [Function.update_of_ne (StableHlo.devRef_ne_of_ne (by decide) : (Proc.devRef .tc (Pipeline.arrRef spec6 0) : DevRef τ sig) ≠ Proc.devRef .tc main_v79_1),
      Function.update_of_ne (StableHlo.devRef_ne_of_ne (by decide) : (Proc.devRef .tc (Pipeline.arrRef spec6 0) : DevRef τ sig) ≠ Proc.devRef .tc main_v79_0)]
  | ⟨1, _⟩ =>
    refine (((pdats m 6 c).arrAt_in 1 rfl _).trans (A_eq6 (atTc (W13 m)) c 1)).trans ?_
    show W13 m c (Proc.devRef .tc (Pipeline.arrRef spec6 1))
      = Function.update (Function.update (W13 m c) (Proc.devRef .tc main_v79_0) (o14a m c)) (Proc.devRef .tc main_v79_1) (o14b m c) (Proc.devRef .tc (Pipeline.arrRef spec6 1))
    rw [Function.update_of_ne (StableHlo.devRef_ne_of_ne (by decide) : (Proc.devRef .tc (Pipeline.arrRef spec6 1) : DevRef τ sig) ≠ Proc.devRef .tc main_v79_1),
      Function.update_of_ne (StableHlo.devRef_ne_of_ne (by decide) : (Proc.devRef .tc (Pipeline.arrRef spec6 1) : DevRef τ sig) ≠ Proc.devRef .tc main_v79_0)]
  | ⟨2, _⟩ =>
    refine Eq.trans (?_ : _ = o14a m c) ?_
    · unfold o14a; rfl
    show o14a m c = Function.update (Function.update (W13 m c) (Proc.devRef .tc main_v79_0) (o14a m c)) (Proc.devRef .tc main_v79_1) (o14b m c) (Proc.devRef .tc main_v79_0)
    rw [Function.update_of_ne (StableHlo.devRef_ne_of_ne (by decide) : (Proc.devRef .tc main_v79_0 : DevRef τ sig) ≠ Proc.devRef .tc main_v79_1),
      Function.update_self]
  | ⟨3, _⟩ =>
    refine Eq.trans (?_ : _ = o14b m c) ?_
    · unfold o14b; rfl
    show o14b m c = Function.update (Function.update (W13 m c) (Proc.devRef .tc main_v79_0) (o14a m c)) (Proc.devRef .tc main_v79_1) (o14b m c) (Proc.devRef .tc main_v79_1)
    rw [Function.update_self]

/-- Every other buffer holds at the exit what it held at the entry. -/
theorem hrest6 (c : Dev nD) : ∀ b, b ∉ Finset.univ.image (Pipeline.arrRef spec6) → atTc (W14 m) c b = atTc (W13 m) c b := by
  intro b hb
  show Function.update (Function.update (W13 m c) (Proc.devRef .tc main_v79_0) (o14a m c)) (Proc.devRef .tc main_v79_1) (o14b m c) (Proc.devRef .tc b) = W13 m c (Proc.devRef .tc b)
  rw [Function.update_of_ne (StableHlo.devRef_ne_of_ne (fun e => hb (Finset.mem_image.mpr ⟨3, Finset.mem_univ _, e.symm⟩)) : (Proc.devRef .tc b : DevRef τ sig) ≠ Proc.devRef .tc main_v79_1),
    Function.update_of_ne (StableHlo.devRef_ne_of_ne (fun e => hb (Finset.mem_image.mpr ⟨2, Finset.mem_univ _, e.symm⟩)) : (Proc.devRef .tc b : DevRef τ sig) ≠ Proc.devRef .tc main_v79_0)]

set_option backward.isDefEq.respectTransparency.types false in
/-- REGION 6 (the per-graph readout) over the thread state "every unscoped buffer at the boundary's contents, the generator register
    at some state, nothing owed": its arrays split out of the unscoped buffers and put back at the exit contents; the
    generator register into the region's invariant and out; no semaphore of the kernel's own. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (W13 m)) c).loose
  hwaits := Pipeline.hwaits_of_owed_zero _ _ _ _ L lv 6 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec6 c (atTc (W13 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (atTc (W13 m)) c)
    unfold Pipeline.ΦA
    iintro ⟨Hp, -, Hr⟩
    isplitl [Hr]; · iexact Hr
    iexact Hp
  hout c := by
    refine (hout6 (atTc (W13 m)) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (atTc (W13 m) c) (atTc (W14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Main.lean ====
/-
  The whole launch: @main's fifteen items — eight host stretches and the seven kernel regions — run in order from the
  launch memory; every weakly fair execution terminates, the result buffer ends at the last boundary's contents and
  every argument as launched.
-/
import proofs.«422387_j74071005987301_1_alg».proof.Proof.K_Reg0
import proofs.«422387_j74071005987301_1_alg».proof.Proof.K_Reg1
import proofs.«422387_j74071005987301_1_alg».proof.Proof.K_Reg2
import proofs.«422387_j74071005987301_1_alg».proof.Proof.K_Reg3
import proofs.«422387_j74071005987301_1_alg».proof.Proof.K_Reg4
import proofs.«422387_j74071005987301_1_alg».proof.Proof.K_Reg5
import proofs.«422387_j74071005987301_1_alg».proof.Proof.K_Reg6
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- From any memory with zero counters every weakly fair execution of @main terminates, nothing faulting; the result
    buffer then holds the host tail applied to what region 6 left (`W15`), and each argument array its launch contents. -/
theorem run_main (ρ : Dev nD → PrngReg) :
    θ_run defs (onTc (τ := τ) (main (F := F))) ⟨m, fun _ => 0, ρ⟩ (fun r => ∀ c : Dev nD,
      r.2.mem ((c.tc : Thread nD τ).loc main_v84) = W15 m c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE7 := fun c => by iintro ⟨-, HO⟩; iexact HO)
    (reg0 m) (fun c => .rfl) (fun c => by rw [V4_eq]; exact .rfl)
    (reg1 m) (fun c => by rw [V5_eq]; exact .rfl) (fun c => by rw [V6_eq]; exact .rfl)
    (reg2 m) (fun c => by rw [V6_eq]; exact .rfl) (fun c => by rw [V7_eq]; exact .rfl)
    (reg3 m) (fun c => by rw [V8_eq]; exact .rfl) (fun c => by rw [V9_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
  refine (θ_run defs _ _).mono (fun r hr c => ?_) h
  rw [← V15_eq]; exact hr c

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c => (hr c).2) (run_main m ρ)

end Cert.Kernel.Hand

end
-- ==== Proof.KI_RunCond.lean ====
/-
  The launch of the seven-region program over its list of segments, with the result buffer read back beside the
  arguments: the unscoped buffers are held at the boundary contents `Gen.VJ` between two items, and at the end each
  buffer named in the post is read off the last valuation `Gen.V15`.
-/
import proofs.«422387_j74071005987301_1_alg».proof.Proof.Gen.KernelIdeal.Regions

set_option maxRecDepth 1124

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- Every weakly fair execution of @main from memory `m` with zero counters terminates, and every final memory holds
    the result buffer at the last boundary's contents (the host operations after the last region applied to what the
    regions left) and each argument as launched — given, per region, a segment record entered from the thread state
    before it and left at the one after it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_v84) = V15 m outs c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, hpre0 c, hpost0 c, hpre1 c, (hpost1 c).trans (hpre2 c), hpost2 c, hpre3 c, (hpost3 c).trans (hpre4 c), hpost4 c, hpre5 c, hpost5 c, hpre6 c, hpost6 c, sep_mono .rfl (hE7 c)⟩)
    (hinit := ?_) (QY := fun c s => s.mem ((c.tc : Thread nD τ).loc main_v84) = V15 m outs c main_v84 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact ⟨h (Proc.devRef .tc main_v84) (Finset.mem_filter.mpr ⟨StableHlo.devRef_mem_tcRefs main_v84, by decide⟩),
        (h (Proc.devRef .tc main_arg0) (Finset.mem_filter.mpr ⟨StableHlo.devRef_mem_tcRefs main_arg0, by decide⟩)).trans (V15_main_arg0 m outs c),
        (h (Proc.devRef .tc main_arg1) (Finset.mem_filter.mpr ⟨StableHlo.devRef_mem_tcRefs main_arg1, by decide⟩)).trans (V15_main_arg1 m outs c),
        (h (Proc.devRef .tc main_arg2) (Finset.mem_filter.mpr ⟨StableHlo.devRef_mem_tcRefs main_arg2, by decide⟩)).trans (V15_main_arg2 m outs c),
        (h (Proc.devRef .tc main_arg3) (Finset.mem_filter.mpr ⟨StableHlo.devRef_mem_tcRefs main_arg3, by decide⟩)).trans (V15_main_arg3 m outs c),
        (h (Proc.devRef .tc main_arg4) (Finset.mem_filter.mpr ⟨StableHlo.devRef_mem_tcRefs main_arg4, by decide⟩)).trans (V15_main_arg4 m outs c),
        (h (Proc.devRef .tc main_arg5) (Finset.mem_filter.mpr ⟨StableHlo.devRef_mem_tcRefs main_arg5, by decide⟩)).trans (V15_main_arg5 m outs c),
        (h (Proc.devRef .tc main_arg6) (Finset.mem_filter.mpr ⟨StableHlo.devRef_mem_tcRefs main_arg6, by decide⟩)).trans (V15_main_arg6 m outs c),
        (h (Proc.devRef .tc main_arg7) (Finset.mem_filter.mpr ⟨StableHlo.devRef_mem_tcRefs main_arg7, by decide⟩)).trans (V15_main_arg7 m outs c),
        (h (Proc.devRef .tc main_arg8) (Finset.mem_filter.mpr ⟨StableHlo.devRef_mem_tcRefs main_arg8, by decide⟩)).trans (V15_main_arg8 m outs c)⟩
    · iexact HSI

end Cert.KernelIdeal.Hand

end
-- ==== Proof.KI_Dense0.lean ====
import proofs.«422387_j74071005987301_1_alg».proof.Proof.Gen.KernelIdeal.Launch
import proofs.«422387_j74071005987301_1_alg».proof.Proof.Gen.KernelIdeal.Skeleton
import proofs.«422387_j74071005987301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (a dense layer: row block times weight matrix), at a parameter `V`

The pipeline's proof data and the body obligation of region 0, stated at any buffer contents `V` of the
TensorCore when the region is entered. The region has three windows: window 0 is the row block
`[2000,128]` of the left operand, window 1 the whole weight matrix `[128,128]` (constant block index),
window 2 the output row block `[2000,128]`. The body reads both inputs whole, reads the output buffer
(the value is not used) and stores the matrix product of the two rounded inputs over the whole output
buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array
    is `V`'s and whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, fetched at the first point only, its block index constant) holds its
    block at every point, fetched there or not: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-! ## What the body leaves in the output window's buffer -/

/-- Window 2's staging buffer after the body, from the input windows' blocks: the one store, over the whole
    buffer, of the product payload of the two blocks read whole. -/
def out0_2 (x0 : Vec F S2000x128 .f32) (x1 : Vec F S128x128 .f32) : Vec F S2000x128 .f32 :=
  View.canon [⟨r0_0, k0_pay1 (View.ld x0 r0_0) (View.ld x1 r0_1)⟩]

/-- The one store covers the buffer. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The kernel body on whole staging memrefs, the inputs' at contents `x0`, `x1` and the output's at anything,
    runs to the continuation holding the inputs' as they were and the output's at `out0_2 x0 x1`. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    keeps the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Bias1.lean ====
/- Region 1 of @main (the bias-and-rectify kernel of layer 1): the pipeline's proof data and the body obligation, at a
   PARAMETER `V` — the TensorCore's buffer contents when the region is entered. Three windows: 0 the aggregated block
   (input), 1 the bias row (input, constant block index), 2 the output block. The body reads windows 0 and 1, reads the
   output buffer too (the value is unused), and stores the payload over the whole output buffer. -/
import proofs.«422387_j74071005987301_1_alg».proof.Proof.Gen.KernelIdeal.Launch
import proofs.«422387_j74071005987301_1_alg».proof.Proof.Gen.KernelIdeal.Skeleton
import proofs.«422387_j74071005987301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is `V`'s
    (`hA`) and whose body leaves the block in place (`hafter`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row, fetched at the first point only) holds its block at every point, fetched there or not:
    unfetched, the block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

/-! ## What the body leaves in the output window's buffer -/

/-- Window 2's staging buffer after the body, from the input windows' blocks: its one store, over the whole buffer, of the
    payload at the two blocks as loaded (each through its whole-buffer rectangle). -/
def out1_2 (x0 : Vec F S2000x128 .f32) (x1 : Vec F S1x128 .f32) : Vec F S2000x128 .f32 :=
  View.canon [⟨r1_0, k1_pay1 (View.ld x0 r1_0) (View.ld x1 r1_1)⟩]

/-- The one store tiles the buffer, so it covers it. -/
theorem cover1_2 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `x0`, `x1` and the output's at anything, runs to
    the continuation holding the inputs' as they were and the output's at `out1_2 x0 x1`. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t` each
    input's buffer at its block and the output's at `out1_2` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Dense2.lean ====
import proofs.«422387_j74071005987301_1_alg».proof.Proof.Gen.KernelIdeal.Launch
import proofs.«422387_j74071005987301_1_alg».proof.Proof.Gen.KernelIdeal.Skeleton
import proofs.«422387_j74071005987301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 (a dense layer: row block times weight matrix), at a parameter `V`

The pipeline's proof data and the body obligation of region 2, stated at any buffer contents `V` of the
TensorCore when the region is entered. The region has three windows: window 0 is the row block
`[2000,128]` of the left operand, window 1 the whole weight matrix `[128,128]` (constant block index),
window 2 the output row block `[2000,128]`. The body reads both inputs whole, reads the output buffer
(the value is not used) and stores the matrix product of the two rounded inputs over the whole output
buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array
    is `V`'s and whose body leaves the block in place: the window is fetched at every point, uncut, never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight matrix, fetched at the first point only, its block index constant) holds its
    block at every point, fetched there or not: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0

/-! ## What the body leaves in the output window's buffer -/

/-- Window 2's staging buffer after the body, from the input windows' blocks: the one store, over the whole
    buffer, of the product payload of the two blocks read whole. -/
def out2_2 (x0 : Vec F S2000x128 .f32) (x1 : Vec F S128x128 .f32) : Vec F S2000x128 .f32 :=
  View.canon [⟨r2_0, k2_pay1 (View.ld x0 r2_0) (View.ld x1 r2_1)⟩]

/-- The one store covers the buffer. -/
theorem cover2_2 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The kernel body on whole staging memrefs, the inputs' at contents `x0`, `x1` and the output's at anything,
    runs to the continuation holding the inputs' as they were and the output's at `out2_2 x0 x1`. -/
theorem sound_kernel2 (c : Dev nD) (E : Set ℕ) (i : grid2.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dense_kernel i arg1 harg1 arg2 harg2 arg3 harg3) K := by
  simp only [cc2__dense_kernel_eq_skeleton]; unfold cc2__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    keeps the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Bias3.lean ====
/- Region 3 of @main (the bias-and-rectify kernel of layer 2): the pipeline's proof data and the body obligation, at a
   PARAMETER `V` — the TensorCore's buffer contents when the region is entered. Three windows: 0 the aggregated block
   (input), 1 the bias row (input, constant block index), 2 the output block. The body reads windows 0 and 1, reads the
   output buffer too (the value is unused), and stores the payload over the whole output buffer. -/
import proofs.«422387_j74071005987301_1_alg».proof.Proof.Gen.KernelIdeal.Launch
import proofs.«422387_j74071005987301_1_alg».proof.Proof.Gen.KernelIdeal.Skeleton
import proofs.«422387_j74071005987301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for ANY proof data whose array is `V`'s
    (`hA`) and whose body leaves the block in place (`hafter`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the bias row, fetched at the first point only) holds its block at every point, fetched there or not:
    unfetched, the block index has not moved, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-! ## What the body leaves in the output window's buffer -/

/-- Window 2's staging buffer after the body, from the input windows' blocks: its one store, over the whole buffer, of the
    payload at the two blocks as loaded (each through its whole-buffer rectangle). -/
def out3_2 (x0 : Vec F S2000x128 .f32) (x1 : Vec F S1x128 .f32) : Vec F S2000x128 .f32 :=
  View.canon [⟨r3_0, k3_pay1 (View.ld x0 r3_0) (View.ld x1 r3_1)⟩]

/-- The one store tiles the buffer, so it covers it. -/
theorem cover3_2 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at read contents `x0`, `x1` and the output's at anything, runs to
    the continuation holding the inputs' as they were and the output's at `out3_2 x0 x1`. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point `t` each
    input's buffer at its block and the output's at `out3_2` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI_Dense4.lean ====
import proofs.«422387_j74071005987301_1_alg».proof.Proof.Gen.KernelIdeal.Launch
import proofs.«422387_j74071005987301_1_alg».proof.Proof.Gen.KernelIdeal.Skeleton
import proofs.«422387_j74071005987301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 (a dense layer: row block times weight matrix), at a parameter `V`

The pipeline's proof data and the body obligation of region 4, stated at any buffer contents `V` of the
TensorCore when the region is entered. The region has three windows: window 0 is the row block
`[2000,128]` of the left operand, window 1 the whole weight matrix `[128,128]` (constant block index),
window 2 the output row block `[2000,128]`. The body reads both inputs whole, reads the output buffer
(the value is not used) and stores the matrix product of the two rounded inputs over the whole output
buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array
    is `V`'s and whose body leaves the block in place: the window is fetched at every point, uncut, never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the weight matrix, fetched at the first point only, its block index constant) holds its
    block at every point, fetched there or not: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0

/-! ## What the body leaves in the output window's buffer -/

/-- Window 2's staging buffer after the body, from the input windows' blocks: the one store, over the whole
    buffer, of the product payload of the two blocks read whole. -/
def out4_2 (x0 : Vec F S2000x128 .f32) (x1 : Vec F S128x128 .f32) : Vec F S2000x128 .f32 :=
  View.canon [⟨r4_0, k4_pay1 (View.ld x0 r4_0) (View.ld x1 r4_1)⟩]

/-- The one store covers the buffer. -/
theorem cover4_2 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

/-! ## The body's triple -/

set_option maxHeartbeats 1000000 in
/-- The kernel body on whole staging memrefs, the inputs' at contents `x0`, `x1` and the output's at anything,
    runs to the continuation holding the inputs' as they were and the output's at `out4_2 x0 x1`. -/
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__dense_kernel i arg1 harg1 arg2 harg2 arg3 harg3) K := by
  simp only [cc4__dense_kernel_eq_skeleton]; unfold cc4__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and the output's at `out4_2` of the input blocks; the invariant
    keeps the scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's obligations pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI_Bias5.lean ====
/- Region 5 of @main (the bias kernel of layer 3, which does not rectify): the pipeline's proof data and the body obligation, at a
   PARAMETER `V` — the TensorCore's buffer contents when the region is entered. Three windows: 0 the aggregated block
   (input), 1 the bias row (input, constant block index), 2 the output block. The body reads windows 0 and 1, reads the
   output buffer too (the value is unused), and stores the payload over the whole output buffer. -/
import proofs.«422387_j74071005987301_1_alg».proof.Proof.Gen.KernelIdeal.Launch
import proofs.«422387_j74071005987301_1_alg».proof.Proof.Gen.KernelIdeal.Skeleton
import proofs.«422387_j74071005987301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for ANY proof data whose array is `V`'s
    (`hA`) and whose body leaves the block in place (`hafter`); the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the bias row, fetched at the first point only) holds its block at every point, fetched there or not:
    unfetched, the block index has not moved, and the body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-! ## What the body leaves in the output window's buffer -/

/-- Window 2's staging buffer after the body, from the input windows' blocks: its one store, over the whole buffer, of the
    payload at the two blocks as loaded (each through its whole-buffer rectangle). -/
def out5_2 (x0 : Vec F S2000x128 .f32) (x1 : Vec F S1x128 .f32) : Vec F S2000x128 .f32 :=
  View.canon [⟨r5_0, k5_pay1 (View.ld x0 r5_0) (View.ld x1 r5_1)⟩]

/-- The one store tiles the buffer, so it covers it. -/
theorem cover5_2 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The kernel body on whole staging memrefs, the inputs' at read contents `x0`, `x1` and the output's at anything, runs to
    the continuation holding the inputs' as they were and the output's at `out5_2 x0 x1`. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5_kernel i arg1 harg1 arg2 harg2 arg3 harg3) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them (`V`); after the body at point `t` each
    input's buffer at its block and the output's at `out5_2` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI_ReadoutRuns.lean ====
import proofs.«422387_j74071005987301_1_alg».proof.Proof.Gen.KernelIdeal.Launch
import proofs.«422387_j74071005987301_1_alg».proof.Proof.Gen.KernelIdeal.Skeleton
import proofs.«422387_j74071005987301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The readout region: what its three control cases share -/

/-- The condition of the body's first conditional (the scratch accumulators are zeroed), from the grid coordinates. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val % 50 = 0 :=
  (by decide +kernel : ∀ t : Fin grid6.N, cond6_0 (grid6.coords t) ↔ t.val % 50 = 0)

/-- The condition of the body's second conditional (the accumulators are copied to the output buffers). -/
abbrev cond6_1 (i : grid6.Coords) : Prop := k6_cond2 i = 1#1
/-- It holds at the last point only. -/
theorem hcond6_1 : ∀ t : Fin cfg6.N, cond6_1 (grid6.coords t) ↔ t.val % 50 = 49 :=
  (by decide +kernel : ∀ t : Fin grid6.N, cond6_1 (grid6.coords t) ↔ t.val % 50 = 49)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬cond6_1 (grid6.coords t) → cfg6.idle 2 (grid6.coords t) = true := by decide +kernel
theorem idleAt6_3 : ∀ t : Fin cfg6.N, ¬cond6_1 (grid6.coords t) → cfg6.idle 3 (grid6.coords t) = true := by decide +kernel
theorem noFlush6_2 : ∀ t : Fin cfg6.N, ¬cond6_1 (grid6.coords t) → (cfg6.win 2).flush t = false := by decide +kernel
theorem noFlush6_3 : ∀ t : Fin cfg6.N, ¬cond6_1 (grid6.coords t) → (cfg6.win 3).flush t = false := by decide +kernel
theorem liveAt6_2 : ∀ t : Fin cfg6.N, cond6_1 (grid6.coords t) → cfg6.idle 2 (grid6.coords t) = false := by decide +kernel
theorem liveAt6_3 : ∀ t : Fin cfg6.N, cond6_1 (grid6.coords t) → cfg6.idle 3 (grid6.coords t) = false := by decide +kernel

/-! ## The memrefs the body is called with -/

abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x512 .f32 := win6_3.stage (cfg6.slots t 3)
abbrev hs6_3 (t : Fin cfg6.N) : (ms6_3 t).IsWhole := hstage6_3 ((cfg6.slots t 3).cast nbuf6_3)
/-- The two scratch accumulators: whole scoped buffers of the kernel's own. -/
abbrev scM6_0 : Memref sig .tc .vmem S512x128 .f32 := Memref.whole cc6_scratch0
abbrev scM6_1 : Memref sig .tc .vmem S1x512 .f32 := Memref.whole cc6_scratch1

/-- The whole-shape rectangles' offsets are zero. -/
theorem hz2 : (![0, 0] : Fin 2 → ℕ) = fun _ => 0 := by funext a; fin_cases a <;> rfl

/-- A whole-shape store, last, leaves its payload in the buffer whatever the earlier stores and contents were. -/
theorem read_writes_cons_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  have hc : ∀ y : S.Idx, ∃ p ∈ ((⟨Rect.unit off S.size inb, w⟩ : View.Piece (Elt F) S e) :: L), y ∈ p.1.set :=
    fun y => ⟨_, List.mem_cons_self, View.mem_set_unit_zero h inb y⟩
  rw [View.read_writes_eq_canon v f _ hc, View.canon_cons_unit_zero h]

end Cert.KernelIdeal.Hand

end
-- ==== Proof.KI_ReadoutRunA.lean ====
import proofs.«422387_j74071005987301_1_alg».proof.Proof.KI_ReadoutRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The readout body at the first grid point -/

set_option maxHeartbeats 1000000 in
/-- At the first point (first conditional taken, second not): on whole memrefs, the inputs' at their blocks, the two
    output buffers at contents handed back untouched, the two scratch accumulators at anything, the body runs to
    the continuation holding the accumulators at the first block's contribution added to zero. -/
theorem kernelRun6_A (c : Dev nD) (i : grid6.Coords) (arg1 : Memref sig .tc .vmem S2000x128 .f32) (harg1 : arg1.IsWhole) (arg2 : Memref sig .tc .vmem S2000x1 .i32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1x512 .f32) (harg6 : arg6.IsWhole) (hc0 : cond6_0 i) (hc1 : ¬cond6_1 i)
    (x0 : Vec F S2000x128 .f32) (x1 : Vec F S2000x1 .i32) (xi2 : Vec F S512x128 .f32) (xi3 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare (k6_pay4 x0 x1 k6_pay1) ∗ owns (c : Thread nD τ) arg6 fullShare (k6_pay5 x1 k6_pay2)) -∗ K ⟨⟩))
      ⊢ wp frame (wpE (defs₀ (F := F)) Variants.none c none) E (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_writes_cons_unit_zero _ _ hz2 _ _ _).trans ?_
    sl_unfold_words
    simp only [View.readAt_eq_ld, harg1.read_unread, harg2.read_unread, View.ld_unit_zero (S := S2000x128) hz2, View.ld_unit_zero (S := S2000x1) hz2, View.readCov_unit_zero (S := S512x128) _ hz2]
  · iexists _; isplitr
    swap; · iexact H5
    ipureintro
    refine (read_writes_cons_unit_zero _ _ hz2 _ _ _).trans ?_
    sl_unfold_words
    simp only [View.readAt_eq_ld, harg2.read_unread, View.ld_unit_zero (S := S2000x1) hz2, View.readCov_unit_zero (S := S1x512) _ hz2]

end Cert.KernelIdeal.Hand

end
-- ==== Proof.KI_ReadoutRunB.lean ====
import proofs.«422387_j74071005987301_1_alg».proof.Proof.KI_ReadoutRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The readout body at a grid point that is neither the first nor the last -/

set_option maxHeartbeats 1000000 in
/-- At an inner point (neither conditional taken): the two output buffers handed back untouched, the two scratch
    accumulators, found at what the point before left, left with this block's contribution added. -/
theorem kernelRun6_B (c : Dev nD) (i : grid6.Coords) (arg1 : Memref sig .tc .vmem S2000x128 .f32) (harg1 : arg1.IsWhole) (arg2 : Memref sig .tc .vmem S2000x1 .i32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1x512 .f32) (harg6 : arg6.IsWhole) (hc0 : ¬cond6_0 i) (hc1 : ¬cond6_1 i)
    (x0 : Vec F S2000x128 .f32) (x1 : Vec F S2000x1 .i32) (xi2 : Vec F S512x128 .f32) (xi3 : Vec F S1x512 .f32)
    (xs0 : Vec F S512x128 .f32) (xs1 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xi3
        ∗ owns (c : Thread nD τ) arg5 fullShare xs0 ∗ owns (c : Thread nD τ) arg6 fullShare xs1
        ∗ (iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare (k6_pay4 x0 x1 xs0) ∗ owns (c : Thread nD τ) arg6 fullShare (k6_pay5 x1 xs1)) -∗ K ⟨⟩))
      ⊢ wp frame (wpE (defs₀ (F := F)) Variants.none c none) E (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]
  · iexists _; isplitr
    swap; · iexact H5
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]

end Cert.KernelIdeal.Hand

end
-- ==== Proof.KI_ReadoutRunC.lean ====
import proofs.«422387_j74071005987301_1_alg».proof.Proof.KI_ReadoutRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The readout body at the last grid point -/

set_option maxHeartbeats 1000000 in
/-- At the last point (second conditional taken): the scratch accumulators, found at what the point before left,
    are left with this block's contribution added, and copied into the two output buffers. -/
theorem kernelRun6_C (c : Dev nD) (i : grid6.Coords) (arg1 : Memref sig .tc .vmem S2000x128 .f32) (harg1 : arg1.IsWhole) (arg2 : Memref sig .tc .vmem S2000x1 .i32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1x512 .f32) (harg6 : arg6.IsWhole) (hc0 : ¬cond6_0 i) (hc1 : cond6_1 i)
    (x0 : Vec F S2000x128 .f32) (x1 : Vec F S2000x1 .i32)
    (xs0 : Vec F S512x128 .f32) (xs1 : Vec F S1x512 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare (k6_pay4 x0 x1 xs0) ∗ owns (c : Thread nD τ) arg4 fullShare (k6_pay5 x1 xs1)
            ∗ owns (c : Thread nD τ) arg5 fullShare (k6_pay4 x0 x1 xs0) ∗ owns (c : Thread nD τ) arg6 fullShare (k6_pay5 x1 xs1)) -∗ K ⟨⟩))
      ⊢ wp frame (wpE (defs₀ (F := F)) Variants.none c none) E (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  obtain rfl := harg1.eq_unread hf0; obtain rfl := harg2.eq_unread hf1
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]
  isplitl [H3]
  · iexists _; isplitr
    swap; · iexact H3
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]
  isplitl [H4]
  · iexists _; isplitr
    swap; · iexact H4
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]
  · iexists _; isplitr
    swap; · iexact H5
    ipureintro
    refine (read_writes_cons_unit_zero _ _ hz2 _ _ _).trans ?_
    sl_unfold_words
    simp only [View.readAt_eq_ld, harg1.read_unread, harg2.read_unread, harg5.read_unread, harg6.read_unread, View.ld_unit_zero (S := S2000x128) hz2, View.ld_unit_zero (S := S2000x1) hz2, View.ld_unit_zero (S := S512x128) hz2, View.ld_unit_zero (S := S1x512) hz2, View.readCov_unit_zero (S := S512x128) _ hz2, View.readCov_unit_zero (S := S1x512) _ hz2]

end Cert.KernelIdeal.Hand

end
-- ==== Proof.KI_Readout.lean ====
import proofs.«422387_j74071005987301_1_alg».proof.Proof.KI_ReadoutRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What the two scratch accumulators hold after each point -/

/-- The segment sums and the segment counts accumulated over the row blocks `0 … n`: the first block added to
    zero, each later block added to what the block before left. -/
def acc6 (c : Dev nD) : (n : ℕ) → n < cfg6.N → Vec F S512x128 .f32 × Vec F S1x512 .f32
  | 0, h => (k6_pay4 (iblk6 V c 0 ⟨0, h⟩) (iblk6 V c 1 ⟨0, h⟩) k6_pay1, k6_pay5 (iblk6 V c 1 ⟨0, h⟩) k6_pay2)
  | n + 1, h => (k6_pay4 (iblk6 V c 0 ⟨n + 1, h⟩) (iblk6 V c 1 ⟨n + 1, h⟩) (acc6 c n (Nat.lt_of_succ_lt h)).1,
      k6_pay5 (iblk6 V c 1 ⟨n + 1, h⟩) (acc6 c n (Nat.lt_of_succ_lt h)).2)

/-- At the first point. -/
theorem acc6_zero (c : Dev nD) (t : Fin cfg6.N) (hz : t.val = 0) :
    acc6 V c t.val t.isLt = (k6_pay4 (iblk6 V c 0 t) (iblk6 V c 1 t) k6_pay1, k6_pay5 (iblk6 V c 1 t) k6_pay2) := by
  obtain ⟨n, hn⟩ := t
  cases n with
  | zero => rfl
  | succ n => exact absurd hz (Nat.succ_ne_zero n)

/-- At a later point: over what the point before left. -/
theorem acc6_pos (c : Dev nD) (t : Fin cfg6.N) (hz : t.val ≠ 0) :
    acc6 V c t.val t.isLt = (k6_pay4 (iblk6 V c 0 t) (iblk6 V c 1 t) (acc6 V c (t.val - 1) (Nat.lt_of_le_of_lt (Nat.sub_le _ _) t.isLt)).1,
      k6_pay5 (iblk6 V c 1 t) (acc6 V c (t.val - 1) (Nat.lt_of_le_of_lt (Nat.sub_le _ _) t.isLt)).2) := by
  obtain ⟨n, hn⟩ := t
  cases n with
  | zero => exact absurd rfl hz
  | succ n => rfl

/-! ## The region invariant -/

/-- Before the first point the class's invariant (every scoped buffer that is no staging buffer at anything, the
    generator register at some state); afterwards the two scratch accumulators at what the point before left, the
    other scoped buffers unopened, and the generator register at some state. -/
def PhiS6 (c : Dev nD) : (n : ℕ) → n ≤ cfg6.N → sProp 𝕄
  | 0, _ => Pipeline.ΦA spec6 c
  | n + 1, hn => iprop(iprop(owns (c : Thread nD τ) scM6_0 fullShare ((acc6 V c n hn).1) ∗ owns (c : Thread nD τ) scM6_1 fullShare ((acc6 V c n hn).2))
      ∗ Pipeline.scopedRestBut (Ix := Unit) (Name := ℕ) (U := UR sig nD τ) (Lvl := ℕ) (Val := Elt F) spec6 c [cc6_scratch0, cc6_scratch1] ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((acc6 V c n hn).1) ∗ owns (c : Thread nD τ) scM6_1 fullShare ((acc6 V c n hn).2))
      ∗ Pipeline.scopedRestBut (Ix := Unit) (Name := ℕ) (U := UR sig nD τ) (Lvl := ℕ) (Val := Elt F) spec6 c [cc6_scratch0, cc6_scratch1] ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((acc6 V c (n - 1) (by omega)).1) ∗ owns (c : Thread nD τ) scM6_1 fullShare ((acc6 V c (n - 1) (by omega)).2))
      ∗ Pipeline.scopedRestBut (Ix := Unit) (Name := ℕ) (U := UR sig nD τ) (Lvl := ℕ) (Val := Elt F) spec6 c [cc6_scratch0, cc6_scratch1] ∗ (∃ r, prngReg c r)) := by
  cases n with
  | zero => exact absurd rfl hz
  | succ n => rfl

/-- The class's invariant with the two scratch accumulators as memrefs owned at some contents, the other scoped
    buffers unopened. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## The pipeline's proof data -/

/-- The arrays as the region finds them; after the body at point `t` each input's buffer at its block and the
    two outputs' at the accumulators (consulted at the last point only: elsewhere the outputs are idle). -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (acc6 V c t.val t.isLt).1
    | ⟨3, _⟩ => (acc6 V c t.val t.isLt).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (acc6 V c t.val t.isLt).1 := by dsimp only [dat6]
theorem after6_3 (c : Dev nD) (t : Fin cfg6.N) : (dat6 V c).after 3 t = (acc6 V c t.val t.isLt).2 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks; the closed forms of the two conditions say which
    case the point is in; the invariant hands the body the two accumulators at what the point before left (at anything
    at the first point) and takes them back at this point's contents; at every point but the last the two output
    buffers are handed back as found, at the last they hold the accumulators. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 50 := lt_of_lt_of_eq t.isLt (show cfg6.N = 50 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  by_cases h1 : t.val % 50 = 49
  · have h0 : ¬t.val % 50 = 0 := by omega
    have hz : t.val ≠ 0 := by omega
    rw [show (dat6 V c).leavesExact 2 t = owns (c : Thread nD τ) (ms6_2 t) fullShare ((dat6 V c).after 2 t) from by
      unfold Dat.leavesExact; rw [liveAt6_2 t ((hcond6_1 t).mpr h1)], after6_2]
    rw [show (dat6 V c).leavesExact 3 t = owns (c : Thread nD τ) (ms6_3 t) fullShare ((dat6 V c).after 3 t) from by
      unfold Dat.leavesExact; rw [liveAt6_3 t ((hcond6_1 t).mpr h1)], after6_3]
    rw [acc6_pos V c t hz]; (try dsimp only)
    rw [PhiS6_castSucc V c t, PhiS6_pos V c _ _ hz]
    iintro ⟨⟨⟨HS0, HS1⟩, HR, Hg⟩, Ho, ⟨%d0, H0⟩, ⟨%d1, H1⟩, ⟨%d2, H2⟩, ⟨%d3, H3⟩⟩
    iapply (kernelRun6_C c (grid6.coords t) _ _ _ _ _ _ _ _ _ _ _ _ (fun h => h0 ((hcond6_0 t).mp h)) ((hcond6_1 t).mpr h1) (iblk6 V c 0 t) (iblk6 V c 1 t) _ _ Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 HR Hg]
    · isplitl [HS0 HS1]
      · isplitl [HS0]; · iexact HS0
        iexact HS1
      isplitl [HR]; · iexact HR
      iexact Hg
    isplitl [Ho]; · iexact Ho
    isplitl [H0]; · iexact H0
    isplitl [H1]; · iexact H1
    isplitl [H2]; · iexact H2
    iexact H3
  · rw [Dat.leavesExact_idle (dat6 V c) 2 t (idleAt6_2 t (fun h => h1 ((hcond6_1 t).mp h))) (noFlush6_2 t (fun h => h1 ((hcond6_1 t).mp h)))]
    rw [Dat.leavesExact_idle (dat6 V c) 3 t (idleAt6_3 t (fun h => h1 ((hcond6_1 t).mp h))) (noFlush6_3 t (fun h => h1 ((hcond6_1 t).mp h)))]
    by_cases h0 : t.val % 50 = 0
    · have hz : t.val = 0 := by omega
      rw [acc6_zero V c t hz]; (try dsimp only)
      rw [PhiS6_castSucc V c t, PhiS6_zero V c _ _ hz, PhiA6_eq]
      iintro ⟨⟨⟨⟨HS0, HS1⟩, HR⟩, Hg⟩, Ho, ⟨%d0, H0⟩, ⟨%d1, H1⟩, ⟨%d2, H2⟩, ⟨%d3, H3⟩⟩
      iapply (kernelRun6_A c (grid6.coords t) _ _ _ _ _ _ _ _ _ _ _ _ ((hcond6_0 t).mpr h0) (fun h => h1 ((hcond6_1 t).mp h)) (iblk6 V c 0 t) (iblk6 V c 1 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexists _; iexact H2
      iexists _; iexact H3
    · have hz : t.val ≠ 0 := by omega
      rw [acc6_pos V c t hz]; (try dsimp only)
      rw [PhiS6_castSucc V c t, PhiS6_pos V c _ _ hz]
      iintro ⟨⟨⟨HS0, HS1⟩, HR, Hg⟩, Ho, ⟨%d0, H0⟩, ⟨%d1, H1⟩, ⟨%d2, H2⟩, ⟨%d3, H3⟩⟩
      iapply (kernelRun6_B c (grid6.coords t) _ _ _ _ _ _ _ _ _ _ _ _ (fun h => h0 ((hcond6_0 t).mp h)) (fun h => h1 ((hcond6_1 t).mp h)) (iblk6 V c 0 t) (iblk6 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: the accumulators' contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HS1⟩, HR, Hg⟩
  isplitr [Hg]
  · isplitr [HR]
    · isplitl [HS0]
      · iexists _; iexact HS0
      · iexists _; iexact HS1
    · iexact HR
  · iexact Hg

theorem hout6 (c : Dev nD) : (dat6 V c).Φ (Fin.last cfg6.N) ⊢ Pipeline.ΦA spec6 c :=
  Phi_out6 V c _ (by rw [Fin.val_last]; have : cfg6.N = 50 := N_6; omega)

end Cert.KernelIdeal.Hand

end
-- ==== Proof.KI_Chain.lean ====
/-
  The contents of the TensorCore's unscoped buffers at every boundary between two items of @main, as a chain: the
  launch memory, then each host stretch applied (`StableHlo.after`), then, after a kernel region, the region's output
  array replaced by what the pipeline's write-backs leave (`Dat.arrAt` at the last point) — and every pipeline's
  proof data, each stated at the contents its region is entered from.
-/
import proofs.«422387_j74071005987301_1_alg».proof.Proof.KI_RunCond
import proofs.«422387_j74071005987301_1_alg».proof.Proof.KI_Dense0
import proofs.«422387_j74071005987301_1_alg».proof.Proof.KI_Bias1
import proofs.«422387_j74071005987301_1_alg».proof.Proof.KI_Dense2
import proofs.«422387_j74071005987301_1_alg».proof.Proof.KI_Bias3
import proofs.«422387_j74071005987301_1_alg».proof.Proof.KI_Dense4
import proofs.«422387_j74071005987301_1_alg».proof.Proof.KI_Bias5
import proofs.«422387_j74071005987301_1_alg».proof.Proof.KI_Readout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A boundary's contents read at the TensorCore's references (what a region's proof data take). -/
abbrev atTc (W : Dev nD → Valuation τ sig (Elt F)) : (c : Dev nD) → (b : Ref sig .tc) → Buf (Elt F) ((c : Thread nD τ).loc b) :=
  fun c b => W c b

/-! ## The chain of boundary contents -/

/-- Before region 0: the launch memory after the first three host stretches. -/
abbrev W3 : Dev nD → Valuation τ sig (Elt F) := fun c => Gen.V3 m c
/-- What region 0 leaves in its output array `main_v30`. -/
def o4 (c : Dev nD) : Buf (Elt F) ((c : Thread nD τ).loc main_v30) := (dat0 (atTc (W3 m)) c).arrAt 2 cfg0.N
/-- After region 0. -/
def W4 (c : Dev nD) : Valuation τ sig (Elt F) := Function.update (W3 m c) main_v30 (o4 m c)
/-- Before region 1: after the host stretch that gathers, scales and scatter-adds. -/
abbrev W5 : Dev nD → Valuation τ sig (Elt F) := fun c => StableHlo.after hostOps1 (W4 m c)
/-- What region 1 leaves in `main_v45`. -/
def o6 (c : Dev nD) : Buf (Elt F) ((c : Thread nD τ).loc main_v45) := (dat1 (atTc (W5 m)) c).arrAt 2 cfg1.N
/-- After region 1 (and before region 2). -/
def W6 (c : Dev nD) : Valuation τ sig (Elt F) := Function.update (W5 m c) main_v45 (o6 m c)
/-- What region 2 leaves in `main_v46`. -/
def o7 (c : Dev nD) : Buf (Elt F) ((c : Thread nD τ).loc main_v46) := (dat2 (atTc (W6 m)) c).arrAt 2 cfg2.N
/-- After region 2. -/
def W7 (c : Dev nD) : Valuation τ sig (Elt F) := Function.update (W6 m c) main_v46 (o7 m c)
/-- Before region 3. -/
abbrev W8 : Dev nD → Valuation τ sig (Elt F) := fun c => StableHlo.after hostOps3 (W7 m c)
/-- What region 3 leaves in `main_v61`. -/
def o9 (c : Dev nD) : Buf (Elt F) ((c : Thread nD τ).loc main_v61) := (dat3 (atTc (W8 m)) c).arrAt 2 cfg3.N
/-- After region 3 (and before region 4). -/
def W9 (c : Dev nD) : Valuation τ sig (Elt F) := Function.update (W8 m c) main_v61 (o9 m c)
/-- What region 4 leaves in `main_v62`. -/
def o10 (c : Dev nD) : Buf (Elt F) ((c : Thread nD τ).loc main_v62) := (dat4 (atTc (W9 m)) c).arrAt 2 cfg4.N
/-- After region 4. -/
def W10 (c : Dev nD) : Valuation τ sig (Elt F) := Function.update (W9 m c) main_v62 (o10 m c)
/-- Before region 5. -/
abbrev W11 : Dev nD → Valuation τ sig (Elt F) := fun c => StableHlo.after hostOps5 (W10 m c)
/-- What region 5 leaves in `main_v77`. -/
def o12 (c : Dev nD) : Buf (Elt F) ((c : Thread nD τ).loc main_v77) := (dat5 (atTc (W11 m)) c).arrAt 2 cfg5.N
/-- After region 5. -/
def W12 (c : Dev nD) : Valuation τ sig (Elt F) := Function.update (W11 m c) main_v77 (o12 m c)
/-- Before region 6: the graph ids reshaped to a column. -/
abbrev W13 : Dev nD → Valuation τ sig (Elt F) := fun c => StableHlo.after hostOps6 (W12 m c)
/-- What region 6 leaves in its two output arrays: the per-graph sums and the per-graph counts. -/
def o14a (c : Dev nD) : Buf (Elt F) ((c : Thread nD τ).loc main_v79_0) := (dat6 (atTc (W13 m)) c).arrAt 2 cfg6.N
def o14b (c : Dev nD) : Buf (Elt F) ((c : Thread nD τ).loc main_v79_1) := (dat6 (atTc (W13 m)) c).arrAt 3 cfg6.N
/-- After region 6. -/
def W14 (c : Dev nD) : Valuation τ sig (Elt F) :=
  Function.update (Function.update (W13 m c) main_v79_0 (o14a m c)) main_v79_1 (o14b m c)
/-- At the return: the quotient by the clamped counts. -/
abbrev W15 : Dev nD → Valuation τ sig (Elt F) := fun c => StableHlo.after hostOps7 (W14 m c)

/-! ## The same chain as the launch module's valuations over what the regions leave -/

/-- What the regions leave, as the launch module's valuations read it: at item `j`, the boundary contents after it. -/
def outs : Gen.Outs (F := F)
  | 4, r, c => W4 m c r
  | 6, r, c => W6 m c r
  | 7, r, c => W7 m c r
  | 9, r, c => W9 m c r
  | 10, r, c => W10 m c r
  | 12, r, c => W12 m c r
  | _, r, c => W14 m c r

theorem V4_eq (c : Dev nD) : Gen.V4 m (outs m) c = W4 m c := by
  show Function.update (Gen.V3 m c) main_v30 (W4 m c main_v30) = W4 m c
  unfold W4; rw [Function.update_self]
theorem V5_eq (c : Dev nD) : Gen.V5 m (outs m) c = W5 m c := by
  show StableHlo.after hostOps1 (Gen.V4 m (outs m) c) = _; rw [V4_eq]
theorem V6_eq (c : Dev nD) : Gen.V6 m (outs m) c = W6 m c := by
  show Function.update (Gen.V5 m (outs m) c) main_v45 (W6 m c main_v45) = W6 m c
  rw [V5_eq]; unfold W6; rw [Function.update_self]
theorem V7_eq (c : Dev nD) : Gen.V7 m (outs m) c = W7 m c := by
  show Function.update (Gen.V6 m (outs m) c) main_v46 (W7 m c main_v46) = W7 m c
  rw [V6_eq]; unfold W7; rw [Function.update_self]
theorem V8_eq (c : Dev nD) : Gen.V8 m (outs m) c = W8 m c := by
  show StableHlo.after hostOps3 (Gen.V7 m (outs m) c) = _; rw [V7_eq]
theorem V9_eq (c : Dev nD) : Gen.V9 m (outs m) c = W9 m c := by
  show Function.update (Gen.V8 m (outs m) c) main_v61 (W9 m c main_v61) = W9 m c
  rw [V8_eq]; unfold W9; rw [Function.update_self]
theorem V10_eq (c : Dev nD) : Gen.V10 m (outs m) c = W10 m c := by
  show Function.update (Gen.V9 m (outs m) c) main_v62 (W10 m c main_v62) = W10 m c
  rw [V9_eq]; unfold W10; rw [Function.update_self]
theorem V11_eq (c : Dev nD) : Gen.V11 m (outs m) c = W11 m c := by
  show StableHlo.after hostOps5 (Gen.V10 m (outs m) c) = _; rw [V10_eq]
theorem V12_eq (c : Dev nD) : Gen.V12 m (outs m) c = W12 m c := by
  show Function.update (Gen.V11 m (outs m) c) main_v77 (W12 m c main_v77) = W12 m c
  rw [V11_eq]; unfold W12; rw [Function.update_self]
theorem V13_eq (c : Dev nD) : Gen.V13 m (outs m) c = W13 m c := by
  show StableHlo.after hostOps6 (Gen.V12 m (outs m) c) = _; rw [V12_eq]
theorem V14_eq (c : Dev nD) : Gen.V14 m (outs m) c = W14 m c := by
  show Function.update (Function.update (Gen.V13 m (outs m) c) main_v79_0 (W14 m c main_v79_0)) main_v79_1 (W14 m c main_v79_1) = W14 m c
  rw [V13_eq]; unfold W14
  rw [Function.update_self, Function.update_of_ne (StableHlo.devRef_ne_of_ne (by decide)), Function.update_self]
theorem V15_eq (c : Dev nD) : Gen.V15 m (outs m) c = W15 m c := by
  show StableHlo.after hostOps7 (Gen.V14 m (outs m) c) = _; rw [V14_eq]

/-! ## Every pipeline's proof data, each at its region's entry contents -/

def pdats : (p : Fin 7) → (c : Dev nD) → Dat τ (Elt F) Unit ℕ (UR sig nD τ) ℕ (cfgs p) c
  | ⟨0, _⟩ => fun c => dat0 (atTc (W3 m)) c
  | ⟨1, _⟩ => fun c => dat1 (atTc (W5 m)) c
  | ⟨2, _⟩ => fun c => dat2 (atTc (W6 m)) c
  | ⟨3, _⟩ => fun c => dat3 (atTc (W8 m)) c
  | ⟨4, _⟩ => fun c => dat4 (atTc (W9 m)) c
  | ⟨5, _⟩ => fun c => dat5 (atTc (W11 m)) c
  | ⟨6, _⟩ => fun c => dat6 (atTc (W13 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev Rst (c : Dev nD) : sProp 𝕄 := iprop((∃ r, prngReg c r) ∗ ∃ W, owes (c : Thread nD τ) (0 : CellTallies nD τ sig Unit) W)

end Cert.KernelIdeal.Hand

end
-- ==== Proof.KI_Reg0.lean ====
/-
  Region 0 of @main (the dense transform of the input features) as a segment of the launch: entered from the
  contents after the host prefix, left with its output array at what the row blocks' write-backs leave.
-/
import proofs.«422387_j74071005987301_1_alg».proof.Proof.KI_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: an input array its entry contents (no
    write-back touches it), the output array the write-backs folded. -/
theorem hF0 (c : Dev nD) (w : Fin cfg0.W) :
    (pdats m 0 c).arrAt w cfg0.N = atTc (W4 m) c (Pipeline.arrRef spec0 w) := by
  match w with
  | ⟨0, _⟩ =>
    refine (((pdats m 0 c).arrAt_in 0 rfl _).trans (A_eq0 (atTc (W3 m)) c 0)).trans ?_
    show W3 m c (Proc.devRef .tc (Pipeline.arrRef spec0 0))
      = Function.update (W3 m c) (Proc.devRef .tc main_v30) (o4 m c) (Proc.devRef .tc (Pipeline.arrRef spec0 0))
    rw [Function.update_of_ne (StableHlo.devRef_ne_of_ne (by decide) : (Proc.devRef .tc (Pipeline.arrRef spec0 0) : DevRef τ sig) ≠ Proc.devRef .tc main_v30)]
  | ⟨1, _⟩ =>
    refine (((pdats m 0 c).arrAt_in 1 rfl _).trans (A_eq0 (atTc (W3 m)) c 1)).trans ?_
    show W3 m c (Proc.devRef .tc (Pipeline.arrRef spec0 1))
      = Function.update (W3 m c) (Proc.devRef .tc main_v30) (o4 m c) (Proc.devRef .tc (Pipeline.arrRef spec0 1))
    rw [Function.update_of_ne (StableHlo.devRef_ne_of_ne (by decide) : (Proc.devRef .tc (Pipeline.arrRef spec0 1) : DevRef τ sig) ≠ Proc.devRef .tc main_v30)]
  | ⟨2, _⟩ =>
    show o4 m c = Function.update (W3 m c) (Proc.devRef .tc main_v30) (o4 m c) (Proc.devRef .tc main_v30)
    rw [Function.update_self]

/-- Every other buffer holds at the exit what it held at the entry. -/
theorem hrest0 (c : Dev nD) : ∀ b, b ∉ Finset.univ.image (Pipeline.arrRef spec0) → atTc (W4 m) c b = atTc (W3 m) c b := by
  intro b hb
  show Function.update (W3 m c) (Proc.devRef .tc main_v30) (o4 m c) (Proc.devRef .tc b) = W3 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v30)]

set_option backward.isDefEq.respectTransparency.types false in
/-- REGION 0 (the dense transform of the input features) over the thread state "every unscoped buffer at the boundary's contents, the generator register
    at some state, nothing owed": its arrays split out of the unscoped buffers and put back at the exit contents; the
    generator register into the region's invariant and out; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W3 m)) c).loose
  hwaits := Pipeline.hwaits_of_owed_zero _ _ _ _ L lv 0 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (W3 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (W3 m) c) (atTc (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Reg1.lean ====
/-
  Region 1 of @main as a segment of the launch: entered from the
  contents after the host prefix, left with its output array at what the row blocks' write-backs leave.
-/
import proofs.«422387_j74071005987301_1_alg».proof.Proof.KI_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 1's exit each of its arrays holds what the pipeline leaves: an input array its entry contents (no
    write-back touches it), the output array the write-backs folded. -/
theorem hF1 (c : Dev nD) (w : Fin cfg1.W) :
    (pdats m 1 c).arrAt w cfg1.N = atTc (W6 m) c (Pipeline.arrRef spec1 w) := by
  match w with
  | ⟨0, _⟩ =>
    refine (((pdats m 1 c).arrAt_in 0 rfl _).trans (A_eq1 (atTc (W5 m)) c 0)).trans ?_
    show W5 m c (Proc.devRef .tc (Pipeline.arrRef spec1 0))
      = Function.update (W5 m c) (Proc.devRef .tc main_v45) (o6 m c) (Proc.devRef .tc (Pipeline.arrRef spec1 0))
    rw [Function.update_of_ne (StableHlo.devRef_ne_of_ne (by decide) : (Proc.devRef .tc (Pipeline.arrRef spec1 0) : DevRef τ sig) ≠ Proc.devRef .tc main_v45)]
  | ⟨1, _⟩ =>
    refine (((pdats m 1 c).arrAt_in 1 rfl _).trans (A_eq1 (atTc (W5 m)) c 1)).trans ?_
    show W5 m c (Proc.devRef .tc (Pipeline.arrRef spec1 1))
      = Function.update (W5 m c) (Proc.devRef .tc main_v45) (o6 m c) (Proc.devRef .tc (Pipeline.arrRef spec1 1))
    rw [Function.update_of_ne (StableHlo.devRef_ne_of_ne (by decide) : (Proc.devRef .tc (Pipeline.arrRef spec1 1) : DevRef τ sig) ≠ Proc.devRef .tc main_v45)]
  | ⟨2, _⟩ =>
    show o6 m c = Function.update (W5 m c) (Proc.devRef .tc main_v45) (o6 m c) (Proc.devRef .tc main_v45)
    rw [Function.update_self]

/-- Every other buffer holds at the exit what it held at the entry. -/
theorem hrest1 (c : Dev nD) : ∀ b, b ∉ Finset.univ.image (Pipeline.arrRef spec1) → atTc (W6 m) c b = atTc (W5 m) c b := by
  intro b hb
  show Function.update (W5 m c) (Proc.devRef .tc main_v45) (o6 m c) (Proc.devRef .tc b) = W5 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v45)]

set_option backward.isDefEq.respectTransparency.types false in
/-- REGION 1 over the thread state "every unscoped buffer at the boundary's contents, the generator register
    at some state, nothing owed": its arrays split out of the unscoped buffers and put back at the exit contents; the
    generator register into the region's invariant and out; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W5 m)) c).loose
  hwaits := Pipeline.hwaits_of_owed_zero _ _ _ _ L lv 1 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (W5 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (W5 m) c) (atTc (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Reg2.lean ====
/-
  Region 2 of @main as a segment of the launch: entered from the
  contents after the host prefix, left with its output array at what the row blocks' write-backs leave.
-/
import proofs.«422387_j74071005987301_1_alg».proof.Proof.KI_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 2's exit each of its arrays holds what the pipeline leaves: an input array its entry contents (no
    write-back touches it), the output array the write-backs folded. -/
theorem hF2 (c : Dev nD) (w : Fin cfg2.W) :
    (pdats m 2 c).arrAt w cfg2.N = atTc (W7 m) c (Pipeline.arrRef spec2 w) := by
  match w with
  | ⟨0, _⟩ =>
    refine (((pdats m 2 c).arrAt_in 0 rfl _).trans (A_eq2 (atTc (W6 m)) c 0)).trans ?_
    show W6 m c (Proc.devRef .tc (Pipeline.arrRef spec2 0))
      = Function.update (W6 m c) (Proc.devRef .tc main_v46) (o7 m c) (Proc.devRef .tc (Pipeline.arrRef spec2 0))
    rw [Function.update_of_ne (StableHlo.devRef_ne_of_ne (by decide) : (Proc.devRef .tc (Pipeline.arrRef spec2 0) : DevRef τ sig) ≠ Proc.devRef .tc main_v46)]
  | ⟨1, _⟩ =>
    refine (((pdats m 2 c).arrAt_in 1 rfl _).trans (A_eq2 (atTc (W6 m)) c 1)).trans ?_
    show W6 m c (Proc.devRef .tc (Pipeline.arrRef spec2 1))
      = Function.update (W6 m c) (Proc.devRef .tc main_v46) (o7 m c) (Proc.devRef .tc (Pipeline.arrRef spec2 1))
    rw [Function.update_of_ne (StableHlo.devRef_ne_of_ne (by decide) : (Proc.devRef .tc (Pipeline.arrRef spec2 1) : DevRef τ sig) ≠ Proc.devRef .tc main_v46)]
  | ⟨2, _⟩ =>
    show o7 m c = Function.update (W6 m c) (Proc.devRef .tc main_v46) (o7 m c) (Proc.devRef .tc main_v46)
    rw [Function.update_self]

/-- Every other buffer holds at the exit what it held at the entry. -/
theorem hrest2 (c : Dev nD) : ∀ b, b ∉ Finset.univ.image (Pipeline.arrRef spec2) → atTc (W7 m) c b = atTc (W6 m) c b := by
  intro b hb
  show Function.update (W6 m c) (Proc.devRef .tc main_v46) (o7 m c) (Proc.devRef .tc b) = W6 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v46)]

set_option backward.isDefEq.respectTransparency.types false in
/-- REGION 2 over the thread state "every unscoped buffer at the boundary's contents, the generator register
    at some state, nothing owed": its arrays split out of the unscoped buffers and put back at the exit contents; the
    generator register into the region's invariant and out; no semaphore of the kernel's own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W6 m)) c).loose
  hwaits := Pipeline.hwaits_of_owed_zero _ _ _ _ L lv 2 fun _ _ => rfl
  pre c := iprop(StableHlo.held (c : Thread nD τ) (Pipeline.ucRefs τ sig) (W6 m c) ∗ Rst c)
  post c := iprop(StableHlo.held (c : Thread nD τ) (Pipeline.ucRefs τ sig) (W7 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (W6 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (W6 m) c) (atTc (W7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Reg3.lean ====
/-
  Region 3 of @main as a segment of the launch: entered from the
  contents after the host prefix, left with its output array at what the row blocks' write-backs leave.
-/
import proofs.«422387_j74071005987301_1_alg».proof.Proof.KI_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 3's exit each of its arrays holds what the pipeline leaves: an input array its entry contents (no
    write-back touches it), the output array the write-backs folded. -/
theorem hF3 (c : Dev nD) (w : Fin cfg3.W) :
    (pdats m 3 c).arrAt w cfg3.N = atTc (W9 m) c (Pipeline.arrRef spec3 w) := by
  match w with
  | ⟨0, _⟩ =>
    refine (((pdats m 3 c).arrAt_in 0 rfl _).trans (A_eq3 (atTc (W8 m)) c 0)).trans ?_
    show W8 m c (Proc.devRef .tc (Pipeline.arrRef spec3 0))
      = Function.update (W8 m c) (Proc.devRef .tc main_v61) (o9 m c) (Proc.devRef .tc (Pipeline.arrRef spec3 0))
    rw [Function.update_of_ne (StableHlo.devRef_ne_of_ne (by decide) : (Proc.devRef .tc (Pipeline.arrRef spec3 0) : DevRef τ sig) ≠ Proc.devRef .tc main_v61)]
  | ⟨1, _⟩ =>
    refine (((pdats m 3 c).arrAt_in 1 rfl _).trans (A_eq3 (atTc (W8 m)) c 1)).trans ?_
    show W8 m c (Proc.devRef .tc (Pipeline.arrRef spec3 1))
      = Function.update (W8 m c) (Proc.devRef .tc main_v61) (o9 m c) (Proc.devRef .tc (Pipeline.arrRef spec3 1))
    rw [Function.update_of_ne (StableHlo.devRef_ne_of_ne (by decide) : (Proc.devRef .tc (Pipeline.arrRef spec3 1) : DevRef τ sig) ≠ Proc.devRef .tc main_v61)]
  | ⟨2, _⟩ =>
    show o9 m c = Function.update (W8 m c) (Proc.devRef .tc main_v61) (o9 m c) (Proc.devRef .tc main_v61)
    rw [Function.update_self]

/-- Every other buffer holds at the exit what it held at the entry. -/
theorem hrest3 (c : Dev nD) : ∀ b, b ∉ Finset.univ.image (Pipeline.arrRef spec3) → atTc (W9 m) c b = atTc (W8 m) c b := by
  intro b hb
  show Function.update (W8 m c) (Proc.devRef .tc main_v61) (o9 m c) (Proc.devRef .tc b) = W8 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v61)]

set_option backward.isDefEq.respectTransparency.types false in
/-- REGION 3 over the thread state "every unscoped buffer at the boundary's contents, the generator register
    at some state, nothing owed": its arrays split out of the unscoped buffers and put back at the exit contents; the
    generator register into the region's invariant and out; no semaphore of the kernel's own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (W8 m)) c).loose
  hwaits := Pipeline.hwaits_of_owed_zero _ _ _ _ L lv 3 fun _ _ => rfl
  pre c := iprop(StableHlo.held (c : Thread nD τ) (Pipeline.ucRefs τ sig) (W8 m c) ∗ Rst c)
  post c := iprop(StableHlo.held (c : Thread nD τ) (Pipeline.ucRefs τ sig) (W9 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (W8 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (W8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (W8 m) c) (atTc (W9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Reg4.lean ====
/-
  Region 4 of @main as a segment of the launch: entered from the
  contents after the host prefix, left with its output array at what the row blocks' write-backs leave.
-/
import proofs.«422387_j74071005987301_1_alg».proof.Proof.KI_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 4's exit each of its arrays holds what the pipeline leaves: an input array its entry contents (no
    write-back touches it), the output array the write-backs folded. -/
theorem hF4 (c : Dev nD) (w : Fin cfg4.W) :
    (pdats m 4 c).arrAt w cfg4.N = atTc (W10 m) c (Pipeline.arrRef spec4 w) := by
  match w with
  | ⟨0, _⟩ =>
    refine (((pdats m 4 c).arrAt_in 0 rfl _).trans (A_eq4 (atTc (W9 m)) c 0)).trans ?_
    show W9 m c (Proc.devRef .tc (Pipeline.arrRef spec4 0))
      = Function.update (W9 m c) (Proc.devRef .tc main_v62) (o10 m c) (Proc.devRef .tc (Pipeline.arrRef spec4 0))
    rw [Function.update_of_ne (StableHlo.devRef_ne_of_ne (by decide) : (Proc.devRef .tc (Pipeline.arrRef spec4 0) : DevRef τ sig) ≠ Proc.devRef .tc main_v62)]
  | ⟨1, _⟩ =>
    refine (((pdats m 4 c).arrAt_in 1 rfl _).trans (A_eq4 (atTc (W9 m)) c 1)).trans ?_
    show W9 m c (Proc.devRef .tc (Pipeline.arrRef spec4 1))
      = Function.update (W9 m c) (Proc.devRef .tc main_v62) (o10 m c) (Proc.devRef .tc (Pipeline.arrRef spec4 1))
    rw [Function.update_of_ne (StableHlo.devRef_ne_of_ne (by decide) : (Proc.devRef .tc (Pipeline.arrRef spec4 1) : DevRef τ sig) ≠ Proc.devRef .tc main_v62)]
  | ⟨2, _⟩ =>
    show o10 m c = Function.update (W9 m c) (Proc.devRef .tc main_v62) (o10 m c) (Proc.devRef .tc main_v62)
    rw [Function.update_self]

/-- Every other buffer holds at the exit what it held at the entry. -/
theorem hrest4 (c : Dev nD) : ∀ b, b ∉ Finset.univ.image (Pipeline.arrRef spec4) → atTc (W10 m) c b = atTc (W9 m) c b := by
  intro b hb
  show Function.update (W9 m c) (Proc.devRef .tc main_v62) (o10 m c) (Proc.devRef .tc b) = W9 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v62)]

set_option backward.isDefEq.respectTransparency.types false in
/-- REGION 4 over the thread state "every unscoped buffer at the boundary's contents, the generator register
    at some state, nothing owed": its arrays split out of the unscoped buffers and put back at the exit contents; the
    generator register into the region's invariant and out; no semaphore of the kernel's own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (W9 m)) c).loose
  hwaits := Pipeline.hwaits_of_owed_zero _ _ _ _ L lv 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (W9 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atTc (W9 m) c) (atTc (W10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Reg5.lean ====
/-
  Region 5 of @main as a segment of the launch: entered from the
  contents after the host prefix, left with its output array at what the row blocks' write-backs leave.
-/
import proofs.«422387_j74071005987301_1_alg».proof.Proof.KI_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 5's exit each of its arrays holds what the pipeline leaves: an input array its entry contents (no
    write-back touches it), the output array the write-backs folded. -/
theorem hF5 (c : Dev nD) (w : Fin cfg5.W) :
    (pdats m 5 c).arrAt w cfg5.N = atTc (W12 m) c (Pipeline.arrRef spec5 w) := by
  match w with
  | ⟨0, _⟩ =>
    refine (((pdats m 5 c).arrAt_in 0 rfl _).trans (A_eq5 (atTc (W11 m)) c 0)).trans ?_
    show W11 m c (Proc.devRef .tc (Pipeline.arrRef spec5 0))
      = Function.update (W11 m c) (Proc.devRef .tc main_v77) (o12 m c) (Proc.devRef .tc (Pipeline.arrRef spec5 0))
    rw [Function.update_of_ne (StableHlo.devRef_ne_of_ne (by decide) : (Proc.devRef .tc (Pipeline.arrRef spec5 0) : DevRef τ sig) ≠ Proc.devRef .tc main_v77)]
  | ⟨1, _⟩ =>
    refine (((pdats m 5 c).arrAt_in 1 rfl _).trans (A_eq5 (atTc (W11 m)) c 1)).trans ?_
    show W11 m c (Proc.devRef .tc (Pipeline.arrRef spec5 1))
      = Function.update (W11 m c) (Proc.devRef .tc main_v77) (o12 m c) (Proc.devRef .tc (Pipeline.arrRef spec5 1))
    rw [Function.update_of_ne (StableHlo.devRef_ne_of_ne (by decide) : (Proc.devRef .tc (Pipeline.arrRef spec5 1) : DevRef τ sig) ≠ Proc.devRef .tc main_v77)]
  | ⟨2, _⟩ =>
    show o12 m c = Function.update (W11 m c) (Proc.devRef .tc main_v77) (o12 m c) (Proc.devRef .tc main_v77)
    rw [Function.update_self]

/-- Every other buffer holds at the exit what it held at the entry. -/
theorem hrest5 (c : Dev nD) : ∀ b, b ∉ Finset.univ.image (Pipeline.arrRef spec5) → atTc (W12 m) c b = atTc (W11 m) c b := by
  intro b hb
  show Function.update (W11 m c) (Proc.devRef .tc main_v77) (o12 m c) (Proc.devRef .tc b) = W11 m c (Proc.devRef .tc b)
  rw [Function.update_of_ne (StableHlo.devRef_ne_of_ne (fun e => hb (Finset.mem_image.mpr ⟨2, Finset.mem_univ _, e.symm⟩)) : (Proc.devRef .tc b : DevRef τ sig) ≠ Proc.devRef .tc main_v77)]

set_option backward.isDefEq.respectTransparency.types false in
/-- REGION 5 over the thread state "every unscoped buffer at the boundary's contents, the generator register
    at some state, nothing owed": its arrays split out of the unscoped buffers and put back at the exit contents; the
    generator register into the region's invariant and out; no semaphore of the kernel's own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (W11 m)) c).loose
  hwaits := Pipeline.hwaits_of_owed_zero _ _ _ _ L lv 5 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (W11 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (atTc (W11 m) c) (atTc (W12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Reg6.lean ====
/-
  Region 6 of @main (the per-graph readout) as a segment of the launch: entered from the contents after the graph ids
  are reshaped to a column, left with its two output arrays — the per-graph sums and the per-graph counts — at what
  the single write-back at the last grid point leaves; the two accumulators it carries between grid points live in
  its invariant.
-/
import proofs.«422387_j74071005987301_1_alg».proof.Proof.KI_Chain
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- At region 6's exit each of its arrays holds what the pipeline leaves: an input array its entry contents, each output
    array what the write-back at the last point wrote. -/
theorem hF6 (c : Dev nD) (w : Fin cfg6.W) :
    (pdats m 6 c).arrAt w cfg6.N = atTc (W14 m) c (Pipeline.arrRef spec6 w) := by
  match w with
  | ⟨0, _⟩ =>
    refine (((pdats m 6 c).arrAt_in 0 rfl _).trans (A_eq6 (atTc (W13 m)) c 0)).trans ?_
    show W13 m c (Proc.devRef .tc (Pipeline.arrRef spec6 0))
      = Function.update (Function.update (W13 m c) (Proc.devRef .tc main_v79_0) (o14a m c)) (Proc.devRef .tc main_v79_1) (o14b m c) (Proc.devRef .tc (Pipeline.arrRef spec6 0))
    rw [Function.update_of_ne (StableHlo.devRef_ne_of_ne (by decide) : (Proc.devRef .tc (Pipeline.arrRef spec6 0) : DevRef τ sig) ≠ Proc.devRef .tc main_v79_1),
      Function.update_of_ne (StableHlo.devRef_ne_of_ne (by decide) : (Proc.devRef .tc (Pipeline.arrRef spec6 0) : DevRef τ sig) ≠ Proc.devRef .tc main_v79_0)]
  | ⟨1, _⟩ =>
    refine (((pdats m 6 c).arrAt_in 1 rfl _).trans (A_eq6 (atTc (W13 m)) c 1)).trans ?_
    show W13 m c (Proc.devRef .tc (Pipeline.arrRef spec6 1))
      = Function.update (Function.update (W13 m c) (Proc.devRef .tc main_v79_0) (o14a m c)) (Proc.devRef .tc main_v79_1) (o14b m c) (Proc.devRef .tc (Pipeline.arrRef spec6 1))
    rw [Function.update_of_ne (StableHlo.devRef_ne_of_ne (by decide) : (Proc.devRef .tc (Pipeline.arrRef spec6 1) : DevRef τ sig) ≠ Proc.devRef .tc main_v79_1),
      Function.update_of_ne (StableHlo.devRef_ne_of_ne (by decide) : (Proc.devRef .tc (Pipeline.arrRef spec6 1) : DevRef τ sig) ≠ Proc.devRef .tc main_v79_0)]
  | ⟨2, _⟩ =>
    refine Eq.trans (?_ : _ = o14a m c) ?_
    · unfold o14a; rfl
    show o14a m c = Function.update (Function.update (W13 m c) (Proc.devRef .tc main_v79_0) (o14a m c)) (Proc.devRef .tc main_v79_1) (o14b m c) (Proc.devRef .tc main_v79_0)
    rw [Function.update_of_ne (StableHlo.devRef_ne_of_ne (by decide) : (Proc.devRef .tc main_v79_0 : DevRef τ sig) ≠ Proc.devRef .tc main_v79_1),
      Function.update_self]
  | ⟨3, _⟩ =>
    refine Eq.trans (?_ : _ = o14b m c) ?_
    · unfold o14b; rfl
    show o14b m c = Function.update (Function.update (W13 m c) (Proc.devRef .tc main_v79_0) (o14a m c)) (Proc.devRef .tc main_v79_1) (o14b m c) (Proc.devRef .tc main_v79_1)
    rw [Function.update_self]

/-- Every other buffer holds at the exit what it held at the entry. -/
theorem hrest6 (c : Dev nD) : ∀ b, b ∉ Finset.univ.image (Pipeline.arrRef spec6) → atTc (W14 m) c b = atTc (W13 m) c b := by
  intro b hb
  show Function.update (Function.update (W13 m c) (Proc.devRef .tc main_v79_0) (o14a m c)) (Proc.devRef .tc main_v79_1) (o14b m c) (Proc.devRef .tc b) = W13 m c (Proc.devRef .tc b)
  rw [Function.update_of_ne (StableHlo.devRef_ne_of_ne (fun e => hb (Finset.mem_image.mpr ⟨3, Finset.mem_univ _, e.symm⟩)) : (Proc.devRef .tc b : DevRef τ sig) ≠ Proc.devRef .tc main_v79_1),
    Function.update_of_ne (StableHlo.devRef_ne_of_ne (fun e => hb (Finset.mem_image.mpr ⟨2, Finset.mem_univ _, e.symm⟩)) : (Proc.devRef .tc b : DevRef τ sig) ≠ Proc.devRef .tc main_v79_0)]

set_option backward.isDefEq.respectTransparency.types false in
/-- REGION 6 (the per-graph readout) over the thread state "every unscoped buffer at the boundary's contents, the generator register
    at some state, nothing owed": its arrays split out of the unscoped buffers and put back at the exit contents; the
    generator register into the region's invariant and out; no semaphore of the kernel's own. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (W13 m)) c).loose
  hwaits := Pipeline.hwaits_of_owed_zero _ _ _ _ L lv 6 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec6 c (atTc (W13 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (atTc (W13 m)) c)
    unfold Pipeline.ΦA
    iintro ⟨Hp, -, Hr⟩
    isplitl [Hr]; · iexact Hr
    iexact Hp
  hout c := by
    refine (hout6 (atTc (W13 m)) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (atTc (W13 m) c) (atTc (W14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Main.lean ====
/-
  The whole launch: @main's fifteen items — eight host stretches and the seven kernel regions — run in order from the
  launch memory; every weakly fair execution terminates, the result buffer ends at the last boundary's contents and
  every argument as launched.
-/
import proofs.«422387_j74071005987301_1_alg».proof.Proof.KI_Reg0
import proofs.«422387_j74071005987301_1_alg».proof.Proof.KI_Reg1
import proofs.«422387_j74071005987301_1_alg».proof.Proof.KI_Reg2
import proofs.«422387_j74071005987301_1_alg».proof.Proof.KI_Reg3
import proofs.«422387_j74071005987301_1_alg».proof.Proof.KI_Reg4
import proofs.«422387_j74071005987301_1_alg».proof.Proof.KI_Reg5
import proofs.«422387_j74071005987301_1_alg».proof.Proof.KI_Reg6
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- From any memory with zero counters every weakly fair execution of @main terminates, nothing faulting; the result
    buffer then holds the host tail applied to what region 6 left (`W15`), and each argument array its launch contents. -/
theorem run_main (ρ : Dev nD → PrngReg) :
    θ_run defs (onTc (τ := τ) (main (F := F))) ⟨m, fun _ => 0, ρ⟩ (fun r => ∀ c : Dev nD,
      r.2.mem ((c.tc : Thread nD τ).loc main_v84) = W15 m c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE7 := fun c => by iintro ⟨-, HO⟩; iexact HO)
    (reg0 m) (fun c => .rfl) (fun c => by rw [V4_eq]; exact .rfl)
    (reg1 m) (fun c => by rw [V5_eq]; exact .rfl) (fun c => by rw [V6_eq]; exact .rfl)
    (reg2 m) (fun c => by rw [V6_eq]; exact .rfl) (fun c => by rw [V7_eq]; exact .rfl)
    (reg3 m) (fun c => by rw [V8_eq]; exact .rfl) (fun c => by rw [V9_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
  refine (θ_run defs _ _).mono (fun r hr c => ?_) h
  rw [← V15_eq]; exact hr c

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c => (hr c).2) (run_main m ρ)

end Cert.KernelIdeal.Hand

end
-- ==== Proof.KI_Host.lean ====
/-
  The host side of the kernel program: the StableHLO stretches between the kernel regions, as named stage
  functions (each the composed term of the printed operations), and what every stretch leaves in the buffers the
  regions read, at any contents of the buffers it is entered from.
-/
import proofs.«422387_j74071005987301_1_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.StableHlo

variable {F : FTy → Type} [FloatOps F]

/-! ## The stage functions -/

/-- The edge sources followed by one self loop per node: row 0 of the edge index, then 0 … 99999. -/
def srcIdx (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The edge targets followed by one self loop per node: row 1 of the edge index, then 0 … 99999. -/
def dstIdx (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- An index vector with its negative entries wrapped (100000 added), as a column of gather indices. -/
def wrapIdx (i : IVec S1700000 32) : IVec S1700000x1 32 :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The degree of every node: ones scatter-added at the edge targets into zeros. -/
def degV (dst : IVec S1700000 32) : FVec F S100000 .f32 :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 dst)
    (broadcastInDim S1700000 ![] bcast_S_S1700000 (constant (F := F) S_ .f32 0x3F800000#32))

/-- The inverse square root of the degree where the degree is positive, zero elsewhere. -/
def dinvV (dg : FVec F S100000 .f32) : FVec F S100000 .f32 :=
  select (cmpf (F := F) .ogt dg (broadcastInDim S100000 ![] bcast_S_S100000 (constant (F := F) S_ .f32 0x00000000#32)))
    (Host.rsqrt (F := F) dg)
    (broadcastInDim S100000 ![] bcast_S_S100000 (id (constant (F := F) S_ .f32 0x00000000#32)))

/-- The edge weights from the inverse square-root degrees: the product of the two gathers at the edge's ends. -/
def normOf (dinv : FVec F S100000 .f32) (src dst : IVec S1700000 32) : FVec F S1700000 .f32 :=
  mulf (Host.gather gather_S100000_S1700000x1_S1700000_n_0_n_n_0_1_1 dinv (wrapIdx src))
       (Host.gather gather_S100000_S1700000x1_S1700000_n_0_n_n_0_1_1 dinv (wrapIdx dst))

/-- The symmetric normalisation of every edge (self loops included). -/
def normV (ei : IVec S2x1600000 32) : FVec F S1700000 .f32 :=
  normOf (dinvV (degV (F := F) (dstIdx ei))) (srcIdx ei) (dstIdx ei)

/-- One graph convolution's aggregation: the rows gathered at the edge sources, scaled by the edge weights,
    scatter-added at the edge targets into zeros. -/
def conv (h2 : FVec F S100000x128 .f32) (src dst : IVec S1700000 32) (nrm : FVec F S1700000 .f32) : FVec F S100000x128 .f32 :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 dst)
    (mulf (Host.gather gather_S100000x128_S1700000x1_S1700000x128_1_0_n_n_0_1_1128 h2 (wrapIdx src))
      (broadcastInDim S1700000x128 ![0, 1] bcast_S1700000x1_S1700000x128_0_1
        (broadcastInDim S1700000x1 ![0] bcast_S1700000_S1700000x1_0 nrm)))

/-- The bias as a row. -/
def rowB (b : FVec F S128 .f32) : FVec F S1x128 .f32 := shapeCast S1x128 b shapeCasts_S128_S1x128

/-- The graph ids as a column. -/
def colIds (bt : IVec S100000 32) : IVec S100000x1 32 := shapeCast S100000x1 bt shapeCasts_S100000_S100000x1

/-- The per-graph mean: the sums divided by the counts clamped below at one. -/
def meanQ (s : FVec F S512x128 .f32) (cn : FVec F S1x512 .f32) : FVec F S512x128 .f32 :=
  Host.divf s (broadcastInDim S512x128 ![0, 1] bcast_S512x1_S512x128_0_1
    (maximumf (shapeCast S512x1 cn shapeCasts_S1x512_S512x1)
      (broadcastInDim S512x1 ![] bcast_S_S512x1 (constant (F := F) S_ .f32 0x3F800000#32))))

/-- The whole network over its three kinds of kernel region: the dense product \`D\`, the bias with and without the
    rectifier \`B1\`, \`B5\`, and the readout \`FIN\`. -/
def gcn (D : FVec F S100000x128 .f32 → FVec F S128x128 .f32 → FVec F S100000x128 .f32)
    (B1 B5 : FVec F S100000x128 .f32 → FVec F S128 .f32 → FVec F S100000x128 .f32)
    (FIN : FVec F S100000x128 .f32 → IVec S100000 32 → FVec F S512x128 .f32)
    (x : FVec F S100000x128 .f32) (ei : IVec S2x1600000 32) (bt : IVec S100000 32)
    (w1 : FVec F S128x128 .f32) (b1 : FVec F S128 .f32) (w2 : FVec F S128x128 .f32) (b2 : FVec F S128 .f32)
    (w3 : FVec F S128x128 .f32) (b3 : FVec F S128 .f32) : FVec F S512x128 .f32 :=
  FIN (B5 (conv (D (B1 (conv (D (B1 (conv (D x w1) (srcIdx ei) (dstIdx ei) (normV ei)) b1) w2)
    (srcIdx ei) (dstIdx ei) (normV ei)) b2) w3) (srcIdx ei) (dstIdx ei) (normV ei)) b3) bt

/-! ## What the stretches leave -/

variable (Wa : Valuation τ sig (Elt F))

theorem pre_v3 : StableHlo.after (hostOps0 (F := F)) Wa (Proc.devRef .tc main_v3) = srcIdx (Wa (Proc.devRef .tc main_arg1)) := by
  after_results; rfl

theorem pre_v6 : StableHlo.after (hostOps0 (F := F)) Wa (Proc.devRef .tc main_v6) = dstIdx (Wa (Proc.devRef .tc main_arg1)) := by
  after_results; rfl

/-! ### The first three stretches: the indices, the degree, the edge weights -/

theorem pre_v10 : StableHlo.after (hostOps0 (F := F)) Wa (Proc.devRef .tc main_v10) = degV (dstIdx (Wa (Proc.devRef .tc main_arg1))) := by
  after_results; rfl

theorem pre_v12 : StableHlo.after (hostOps0 (F := F)) Wa (Proc.devRef .tc main_v12)
    = cmpf (F := F) .ogt (degV (dstIdx (Wa (Proc.devRef .tc main_arg1)))) (broadcastInDim S100000 ![] bcast_S_S100000 (constant (F := F) S_ .f32 0x00000000#32)) := by
  after_results; rfl

theorem pre_v13 : StableHlo.after (hostOps0 (F := F)) Wa (Proc.devRef .tc main_v13) = Host.rsqrt (F := F) (degV (dstIdx (Wa (Proc.devRef .tc main_arg1)))) := by
  after_results; rfl

theorem pre_cst2 : StableHlo.after (hostOps0 (F := F)) Wa (Proc.devRef .tc main_cst_2) = constant (F := F) S_ .f32 0x00000000#32 := by
  after_results

theorem mid_v14 : StableHlo.after (hostOps0_1 (F := F)) Wa (Proc.devRef .tc main_v14)
    = select (Wa (Proc.devRef .tc main_v12)) (Wa (Proc.devRef .tc main_v13))
        (broadcastInDim S100000 ![] bcast_S_S100000 (id (Wa (Proc.devRef .tc main_cst_2)))) := by
  after_results; rfl

theorem post_v29 : StableHlo.after (hostOps0_2 (F := F)) Wa (Proc.devRef .tc main_v29)
    = normOf (Wa (Proc.devRef .tc main_v14)) (Wa (Proc.devRef .tc main_v3)) (Wa (Proc.devRef .tc main_v6)) := by
  after_results_simp; rfl

theorem pre_v29 : StableHlo.after (hostOps0_2 (F := F)) (StableHlo.after (hostOps0_1 (F := F)) (StableHlo.after (hostOps0 (F := F)) Wa)) (Proc.devRef .tc main_v29)
    = normV (Wa (Proc.devRef .tc main_arg1)) := by
  rw [post_v29, mid_v14,
    StableHlo.after_of_writes_sub hostOps0_1 _ hostOps0_1_writes (r := main_v3) (by decide),
    StableHlo.after_of_writes_sub hostOps0_1 _ hostOps0_1_writes (r := main_v6) (by decide),
    pre_v12, pre_v13, pre_cst2, pre_v3, pre_v6]
  rfl

/-! ### The stretches before the bias regions -/

theorem s1_v43 : StableHlo.after (hostOps1 (F := F)) Wa (Proc.devRef .tc main_v43)
    = conv (Wa (Proc.devRef .tc main_v30)) (Wa (Proc.devRef .tc main_v3)) (Wa (Proc.devRef .tc main_v6)) (Wa (Proc.devRef .tc main_v29)) := by
  after_results_simp; rfl
theorem s1_v44 : StableHlo.after (hostOps1 (F := F)) Wa (Proc.devRef .tc main_v44) = rowB (Wa (Proc.devRef .tc main_arg4)) := by
  after_results; rfl

theorem s3_v59 : StableHlo.after (hostOps3 (F := F)) Wa (Proc.devRef .tc main_v59)
    = conv (Wa (Proc.devRef .tc main_v46)) (Wa (Proc.devRef .tc main_v3)) (Wa (Proc.devRef .tc main_v6)) (Wa (Proc.devRef .tc main_v29)) := by
  after_results_simp; rfl
theorem s3_v60 : StableHlo.after (hostOps3 (F := F)) Wa (Proc.devRef .tc main_v60) = rowB (Wa (Proc.devRef .tc main_arg6)) := by
  after_results; rfl

theorem s5_v75 : StableHlo.after (hostOps5 (F := F)) Wa (Proc.devRef .tc main_v75)
    = conv (Wa (Proc.devRef .tc main_v62)) (Wa (Proc.devRef .tc main_v3)) (Wa (Proc.devRef .tc main_v6)) (Wa (Proc.devRef .tc main_v29)) := by
  after_results_simp; rfl
theorem s5_v76 : StableHlo.after (hostOps5 (F := F)) Wa (Proc.devRef .tc main_v76) = rowB (Wa (Proc.devRef .tc main_arg8)) := by
  after_results; rfl

/-! ### The readout's column of graph ids, and the mean at the return -/

theorem s6_v78 : StableHlo.after (hostOps6 (F := F)) Wa (Proc.devRef .tc main_v78) = colIds (Wa (Proc.devRef .tc main_arg2)) := by
  after_results; rfl

theorem tail_v84 : StableHlo.after (hostOps7 (F := F)) Wa (Proc.devRef .tc main_v84)
    = meanQ (Wa (Proc.devRef .tc main_v79_0)) (Wa (Proc.devRef .tc main_v79_1)) := by
  after_results; rfl

end Cert.KernelIdeal.Hand

end
-- ==== Proof.KI_HostChain.lean ====
/-
  The host stretches composed along @main: from what every kernel region leaves in its output array, as a function
  of what it finds in its operand arrays, the contents of the returned buffer as the network's composed function of
  the launch contents of the nine argument arrays. Stated over any chain of boundary contents built as @main builds
  it: the launch contents after the first three stretches, then, alternately, a region's output array replaced and a
  host stretch applied.
-/
import proofs.«422387_j74071005987301_1_alg».proof.Proof.KI_Host

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.StableHlo

variable {F : FTy → Type} [FloatOps F]

/-- Replacing one buffer's contents leaves every other reference's. -/
theorem update_keep (W : Valuation τ sig (Elt F)) (y : Ref sig .tc) (o : (Proc.devRef (τ := τ) .tc y : DevRef τ sig).ty.Contents (Elt F))
    (r : Ref sig .tc) (h : r ∉ ([y] : List (Ref sig .tc))) :
    Function.update W (Proc.devRef .tc y) o (Proc.devRef .tc r) = W (Proc.devRef .tc r) :=
  Function.update_of_ne (StableHlo.devRef_ne_of_ne (List.ne_of_not_mem_cons h)) _ _

variable (m : (ℓ : Loc nD τ sig) → Buf (Elt F) ℓ) (c : Dev nD)

/-! ## The launch contents after the first three stretches -/

theorem V3_v3 : Gen.V3 m c (Proc.devRef .tc main_v3) = srcIdx (m ((c : Thread nD τ).loc main_arg1)) :=
  (Gen.V3_of m c main_v3 (by decide)).trans ((Gen.V2_of m c main_v3 (by decide)).trans (pre_v3 (Gen.V0 m c)))
theorem V3_v6 : Gen.V3 m c (Proc.devRef .tc main_v6) = dstIdx (m ((c : Thread nD τ).loc main_arg1)) :=
  (Gen.V3_of m c main_v6 (by decide)).trans ((Gen.V2_of m c main_v6 (by decide)).trans (pre_v6 (Gen.V0 m c)))
theorem V3_v29 : Gen.V3 m c (Proc.devRef .tc main_v29) = normV (m ((c : Thread nD τ).loc main_arg1)) :=
  pre_v29 (Gen.V0 m c)
/-- No reference the first three stretches leave unwritten changes. -/
theorem V3_keep (r : Ref sig .tc) (h0 : r ∉ (hostOps0_W : List (Ref sig .tc))) (h1 : r ∉ (hostOps0_1_W : List (Ref sig .tc))) (h2 : r ∉ (hostOps0_2_W : List (Ref sig .tc))) :
    Gen.V3 m c (Proc.devRef .tc r) = m ((c : Thread nD τ).loc r) :=
  (Gen.V3_of m c r h2).trans ((Gen.V2_of m c r h1).trans (Gen.V1_of m c r h0))

/-! ## The chain -/

section Chain

variable {W4 W5 W6 W7 W8 W9 W10 W11 W12 W13 W14 W15 : Valuation τ sig (Elt F)}
variable {o4 : (Proc.devRef (τ := τ) .tc main_v30 : DevRef τ sig).ty.Contents (Elt F)} {o6 : (Proc.devRef (τ := τ) .tc main_v45 : DevRef τ sig).ty.Contents (Elt F)} {o7 : (Proc.devRef (τ := τ) .tc main_v46 : DevRef τ sig).ty.Contents (Elt F)}
  {o9 : (Proc.devRef (τ := τ) .tc main_v61 : DevRef τ sig).ty.Contents (Elt F)} {o10 : (Proc.devRef (τ := τ) .tc main_v62 : DevRef τ sig).ty.Contents (Elt F)} {o12 : (Proc.devRef (τ := τ) .tc main_v77 : DevRef τ sig).ty.Contents (Elt F)}
  {o14a : (Proc.devRef (τ := τ) .tc main_v79_0 : DevRef τ sig).ty.Contents (Elt F)} {o14b : (Proc.devRef (τ := τ) .tc main_v79_1 : DevRef τ sig).ty.Contents (Elt F)}

set_option maxHeartbeats 1000000 in
/-- The returned buffer's contents, from what the seven regions leave: `D` the dense regions' function of their two
    operand arrays, `B1` and `B5` the bias regions' (with and without the rectifier), `SS` and `SC` the readout's sums
    and counts. -/
theorem chain_value
    (D : FVec F S100000x128 .f32 → FVec F S128x128 .f32 → FVec F S100000x128 .f32)
    (B1 B5 : FVec F S100000x128 .f32 → FVec F S1x128 .f32 → FVec F S100000x128 .f32)
    (SS : FVec F S100000x128 .f32 → IVec S100000x1 32 → FVec F S512x128 .f32)
    (SC : IVec S100000x1 32 → FVec F S1x512 .f32)
    (e4 : W4 = Function.update (Gen.V3 m c) (Proc.devRef .tc main_v30) o4)
    (h4 : o4 = D (Gen.V3 m c (Proc.devRef .tc main_arg0)) (Gen.V3 m c (Proc.devRef .tc main_arg3)))
    (e5 : W5 = StableHlo.after (hostOps1 (F := F)) W4)
    (e6 : W6 = Function.update W5 (Proc.devRef .tc main_v45) o6)
    (h6 : o6 = B1 (W5 (Proc.devRef .tc main_v43)) (W5 (Proc.devRef .tc main_v44)))
    (e7 : W7 = Function.update W6 (Proc.devRef .tc main_v46) o7)
    (h7 : o7 = D (W6 (Proc.devRef .tc main_v45)) (W6 (Proc.devRef .tc main_arg5)))
    (e8 : W8 = StableHlo.after (hostOps3 (F := F)) W7)
    (e9 : W9 = Function.update W8 (Proc.devRef .tc main_v61) o9)
    (h9 : o9 = B1 (W8 (Proc.devRef .tc main_v59)) (W8 (Proc.devRef .tc main_v60)))
    (e10 : W10 = Function.update W9 (Proc.devRef .tc main_v62) o10)
    (h10 : o10 = D (W9 (Proc.devRef .tc main_v61)) (W9 (Proc.devRef .tc main_arg7)))
    (e11 : W11 = StableHlo.after (hostOps5 (F := F)) W10)
    (e12 : W12 = Function.update W11 (Proc.devRef .tc main_v77) o12)
    (h12 : o12 = B5 (W11 (Proc.devRef .tc main_v75)) (W11 (Proc.devRef .tc main_v76)))
    (e13 : W13 = StableHlo.after (hostOps6 (F := F)) W12)
    (e14 : W14 = Function.update (Function.update W13 (Proc.devRef .tc main_v79_0) o14a) (Proc.devRef .tc main_v79_1) o14b)
    (h14a : o14a = SS (W13 (Proc.devRef .tc main_v77)) (W13 (Proc.devRef .tc main_v78)))
    (h14b : o14b = SC (W13 (Proc.devRef .tc main_v78)))
    (e15 : W15 = StableHlo.after (hostOps7 (F := F)) W14) :
    W15 (Proc.devRef .tc main_v84)
      = gcn D (fun a b => B1 a (rowB b)) (fun a b => B5 a (rowB b)) (fun h bt => meanQ (SS h (colIds bt)) (SC (colIds bt)))
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  -- what every item leaves unchanged
  have k4 : ∀ r : Ref sig .tc, r ∉ ([main_v30] : List (Ref sig .tc)) → W4 (Proc.devRef .tc r) = Gen.V3 m c (Proc.devRef .tc r) :=
    fun r h => by rw [e4]; exact update_keep _ _ _ r h
  have k5 : ∀ r : Ref sig .tc, r ∉ (hostOps1_W : List (Ref sig .tc)) → W5 (Proc.devRef .tc r) = W4 (Proc.devRef .tc r) :=
    fun r h => by rw [e5]; exact StableHlo.after_of_writes_sub hostOps1 _ hostOps1_writes h
  have k6 : ∀ r : Ref sig .tc, r ∉ ([main_v45] : List (Ref sig .tc)) → W6 (Proc.devRef .tc r) = W5 (Proc.devRef .tc r) :=
    fun r h => by rw [e6]; exact update_keep _ _ _ r h
  have k7 : ∀ r : Ref sig .tc, r ∉ ([main_v46] : List (Ref sig .tc)) → W7 (Proc.devRef .tc r) = W6 (Proc.devRef .tc r) :=
    fun r h => by rw [e7]; exact update_keep _ _ _ r h
  have k8 : ∀ r : Ref sig .tc, r ∉ (hostOps3_W : List (Ref sig .tc)) → W8 (Proc.devRef .tc r) = W7 (Proc.devRef .tc r) :=
    fun r h => by rw [e8]; exact StableHlo.after_of_writes_sub hostOps3 _ hostOps3_writes h
  have k9 : ∀ r : Ref sig .tc, r ∉ ([main_v61] : List (Ref sig .tc)) → W9 (Proc.devRef .tc r) = W8 (Proc.devRef .tc r) :=
    fun r h => by rw [e9]; exact update_keep _ _ _ r h
  have k10 : ∀ r : Ref sig .tc, r ∉ ([main_v62] : List (Ref sig .tc)) → W10 (Proc.devRef .tc r) = W9 (Proc.devRef .tc r) :=
    fun r h => by rw [e10]; exact update_keep _ _ _ r h
  have k11 : ∀ r : Ref sig .tc, r ∉ (hostOps5_W : List (Ref sig .tc)) → W11 (Proc.devRef .tc r) = W10 (Proc.devRef .tc r) :=
    fun r h => by rw [e11]; exact StableHlo.after_of_writes_sub hostOps5 _ hostOps5_writes h
  have k12 : ∀ r : Ref sig .tc, r ∉ ([main_v77] : List (Ref sig .tc)) → W12 (Proc.devRef .tc r) = W11 (Proc.devRef .tc r) :=
    fun r h => by rw [e12]; exact update_keep _ _ _ r h
  have k13 : ∀ r : Ref sig .tc, r ∉ (hostOps6_W : List (Ref sig .tc)) → W13 (Proc.devRef .tc r) = W12 (Proc.devRef .tc r) :=
    fun r h => by rw [e13]; exact StableHlo.after_of_writes_sub hostOps6 _ hostOps6_writes h
  -- after region 0
  have f4_v30 : W4 (Proc.devRef .tc main_v30) = (D (m ((c : Thread nD τ).loc main_arg0)) (m ((c : Thread nD τ).loc main_arg3))) := by
    rw [e4, Function.update_self, h4, (V3_keep m c main_arg0 (by decide) (by decide) (by decide)), (V3_keep m c main_arg3 (by decide) (by decide) (by decide))]
  have f4_v3 : W4 (Proc.devRef .tc main_v3) = (srcIdx (m ((c : Thread nD τ).loc main_arg1))) := (k4 main_v3 (by decide)).trans (V3_v3 m c)
  have f4_v6 : W4 (Proc.devRef .tc main_v6) = (dstIdx (m ((c : Thread nD τ).loc main_arg1))) := (k4 main_v6 (by decide)).trans (V3_v6 m c)
  have f4_v29 : W4 (Proc.devRef .tc main_v29) = (normV (F := F) (m ((c : Thread nD τ).loc main_arg1))) := (k4 main_v29 (by decide)).trans (V3_v29 m c)
  have f4_arg4 : W4 (Proc.devRef .tc main_arg4) = (m ((c : Thread nD τ).loc main_arg4)) := ((k4 main_arg4 (by decide)).trans (V3_keep m c main_arg4 (by decide) (by decide) (by decide)))
  -- the first aggregation, regions 1 and 2
  have f5_v43 : W5 (Proc.devRef .tc main_v43) = (conv (D (m ((c : Thread nD τ).loc main_arg0)) (m ((c : Thread nD τ).loc main_arg3))) (srcIdx (m ((c : Thread nD τ).loc main_arg1))) (dstIdx (m ((c : Thread nD τ).loc main_arg1))) (normV (F := F) (m ((c : Thread nD τ).loc main_arg1)))) := by rw [e5, s1_v43, f4_v30, f4_v3, f4_v6, f4_v29]
  have f5_v44 : W5 (Proc.devRef .tc main_v44) = rowB (m ((c : Thread nD τ).loc main_arg4)) := by rw [e5, s1_v44, f4_arg4]
  have f6_v45 : W6 (Proc.devRef .tc main_v45) = (B1 (conv (D (m ((c : Thread nD τ).loc main_arg0)) (m ((c : Thread nD τ).loc main_arg3))) (srcIdx (m ((c : Thread nD τ).loc main_arg1))) (dstIdx (m ((c : Thread nD τ).loc main_arg1))) (normV (F := F) (m ((c : Thread nD τ).loc main_arg1)))) (rowB (m ((c : Thread nD τ).loc main_arg4)))) := by rw [e6, Function.update_self, h6, f5_v43, f5_v44]
  have f6_arg5 : W6 (Proc.devRef .tc main_arg5) = (m ((c : Thread nD τ).loc main_arg5)) := ((k6 main_arg5 (by decide)).trans ((k5 main_arg5 (by decide)).trans ((k4 main_arg5 (by decide)).trans (V3_keep m c main_arg5 (by decide) (by decide) (by decide)))))
  have f7_v46 : W7 (Proc.devRef .tc main_v46) = (D (B1 (conv (D (m ((c : Thread nD τ).loc main_arg0)) (m ((c : Thread nD τ).loc main_arg3))) (srcIdx (m ((c : Thread nD τ).loc main_arg1))) (dstIdx (m ((c : Thread nD τ).loc main_arg1))) (normV (F := F) (m ((c : Thread nD τ).loc main_arg1)))) (rowB (m ((c : Thread nD τ).loc main_arg4)))) (m ((c : Thread nD τ).loc main_arg5))) := by rw [e7, Function.update_self, h7, f6_v45, f6_arg5]
  have f7_v3 : W7 (Proc.devRef .tc main_v3) = (srcIdx (m ((c : Thread nD τ).loc main_arg1))) := ((k7 main_v3 (by decide)).trans ((k6 main_v3 (by decide)).trans ((k5 main_v3 (by decide)).trans f4_v3)))
  have f7_v6 : W7 (Proc.devRef .tc main_v6) = (dstIdx (m ((c : Thread nD τ).loc main_arg1))) := ((k7 main_v6 (by decide)).trans ((k6 main_v6 (by decide)).trans ((k5 main_v6 (by decide)).trans f4_v6)))
  have f7_v29 : W7 (Proc.devRef .tc main_v29) = (normV (F := F) (m ((c : Thread nD τ).loc main_arg1))) := ((k7 main_v29 (by decide)).trans ((k6 main_v29 (by decide)).trans ((k5 main_v29 (by decide)).trans f4_v29)))
  have f7_arg6 : W7 (Proc.devRef .tc main_arg6) = (m ((c : Thread nD τ).loc main_arg6)) := ((k7 main_arg6 (by decide)).trans ((k6 main_arg6 (by decide)).trans ((k5 main_arg6 (by decide)).trans ((k4 main_arg6 (by decide)).trans (V3_keep m c main_arg6 (by decide) (by decide) (by decide))))))
  -- the second aggregation, regions 3 and 4
  have f8_v59 : W8 (Proc.devRef .tc main_v59) = (conv (D (B1 (conv (D (m ((c : Thread nD τ).loc main_arg0)) (m ((c : Thread nD τ).loc main_arg3))) (srcIdx (m ((c : Thread nD τ).loc main_arg1))) (dstIdx (m ((c : Thread nD τ).loc main_arg1))) (normV (F := F) (m ((c : Thread nD τ).loc main_arg1)))) (rowB (m ((c : Thread nD τ).loc main_arg4)))) (m ((c : Thread nD τ).loc main_arg5))) (srcIdx (m ((c : Thread nD τ).loc main_arg1))) (dstIdx (m ((c : Thread nD τ).loc main_arg1))) (normV (F := F) (m ((c : Thread nD τ).loc main_arg1)))) := by rw [e8, s3_v59, f7_v46, f7_v3, f7_v6, f7_v29]
  have f8_v60 : W8 (Proc.devRef .tc main_v60) = rowB (m ((c : Thread nD τ).loc main_arg6)) := by rw [e8, s3_v60, f7_arg6]
  have f9_v61 : W9 (Proc.devRef .tc main_v61) = (B1 (conv (D (B1 (conv (D (m ((c : Thread nD τ).loc main_arg0)) (m ((c : Thread nD τ).loc main_arg3))) (srcIdx (m ((c : Thread nD τ).loc main_arg1))) (dstIdx (m ((c : Thread nD τ).loc main_arg1))) (normV (F := F) (m ((c : Thread nD τ).loc main_arg1)))) (rowB (m ((c : Thread nD τ).loc main_arg4)))) (m ((c : Thread nD τ).loc main_arg5))) (srcIdx (m ((c : Thread nD τ).loc main_arg1))) (dstIdx (m ((c : Thread nD τ).loc main_arg1))) (normV (F := F) (m ((c : Thread nD τ).loc main_arg1)))) (rowB (m ((c : Thread nD τ).loc main_arg6)))) := by rw [e9, Function.update_self, h9, f8_v59, f8_v60]
  have f9_arg7 : W9 (Proc.devRef .tc main_arg7) = (m ((c : Thread nD τ).loc main_arg7)) := ((k9 main_arg7 (by decide)).trans ((k8 main_arg7 (by decide)).trans ((k7 main_arg7 (by decide)).trans ((k6 main_arg7 (by decide)).trans ((k5 main_arg7 (by decide)).trans ((k4 main_arg7 (by decide)).trans (V3_keep m c main_arg7 (by decide) (by decide) (by decide))))))))
  have f10_v62 : W10 (Proc.devRef .tc main_v62) = (D (B1 (conv (D (B1 (conv (D (m ((c : Thread nD τ).loc main_arg0)) (m ((c : Thread nD τ).loc main_arg3))) (srcIdx (m ((c : Thread nD τ).loc main_arg1))) (dstIdx (m ((c : Thread nD τ).loc main_arg1))) (normV (F := F) (m ((c : Thread nD τ).loc main_arg1)))) (rowB (m ((c : Thread nD τ).loc main_arg4)))) (m ((c : Thread nD τ).loc main_arg5))) (srcIdx (m ((c : Thread nD τ).loc main_arg1))) (dstIdx (m ((c : Thread nD τ).loc main_arg1))) (normV (F := F) (m ((c : Thread nD τ).loc main_arg1)))) (rowB (m ((c : Thread nD τ).loc main_arg6)))) (m ((c : Thread nD τ).loc main_arg7))) := by rw [e10, Function.update_self, h10, f9_v61, f9_arg7]
  have f10_v3 : W10 (Proc.devRef .tc main_v3) = (srcIdx (m ((c : Thread nD τ).loc main_arg1))) := ((k10 main_v3 (by decide)).trans ((k9 main_v3 (by decide)).trans ((k8 main_v3 (by decide)).trans f7_v3)))
  have f10_v6 : W10 (Proc.devRef .tc main_v6) = (dstIdx (m ((c : Thread nD τ).loc main_arg1))) := ((k10 main_v6 (by decide)).trans ((k9 main_v6 (by decide)).trans ((k8 main_v6 (by decide)).trans f7_v6)))
  have f10_v29 : W10 (Proc.devRef .tc main_v29) = (normV (F := F) (m ((c : Thread nD τ).loc main_arg1))) := ((k10 main_v29 (by decide)).trans ((k9 main_v29 (by decide)).trans ((k8 main_v29 (by decide)).trans f7_v29)))
  have f10_arg8 : W10 (Proc.devRef .tc main_arg8) = (m ((c : Thread nD τ).loc main_arg8)) := ((k10 main_arg8 (by decide)).trans ((k9 main_arg8 (by decide)).trans ((k8 main_arg8 (by decide)).trans ((k7 main_arg8 (by decide)).trans ((k6 main_arg8 (by decide)).trans ((k5 main_arg8 (by decide)).trans ((k4 main_arg8 (by decide)).trans (V3_keep m c main_arg8 (by decide) (by decide) (by decide)))))))))
  -- the third aggregation, region 5
  have f11_v75 : W11 (Proc.devRef .tc main_v75) = (conv (D (B1 (conv (D (B1 (conv (D (m ((c : Thread nD τ).loc main_arg0)) (m ((c : Thread nD τ).loc main_arg3))) (srcIdx (m ((c : Thread nD τ).loc main_arg1))) (dstIdx (m ((c : Thread nD τ).loc main_arg1))) (normV (F := F) (m ((c : Thread nD τ).loc main_arg1)))) (rowB (m ((c : Thread nD τ).loc main_arg4)))) (m ((c : Thread nD τ).loc main_arg5))) (srcIdx (m ((c : Thread nD τ).loc main_arg1))) (dstIdx (m ((c : Thread nD τ).loc main_arg1))) (normV (F := F) (m ((c : Thread nD τ).loc main_arg1)))) (rowB (m ((c : Thread nD τ).loc main_arg6)))) (m ((c : Thread nD τ).loc main_arg7))) (srcIdx (m ((c : Thread nD τ).loc main_arg1))) (dstIdx (m ((c : Thread nD τ).loc main_arg1))) (normV (F := F) (m ((c : Thread nD τ).loc main_arg1)))) := by rw [e11, s5_v75, f10_v62, f10_v3, f10_v6, f10_v29]
  have f11_v76 : W11 (Proc.devRef .tc main_v76) = rowB (m ((c : Thread nD τ).loc main_arg8)) := by rw [e11, s5_v76, f10_arg8]
  have f12_v77 : W12 (Proc.devRef .tc main_v77) = (B5 (conv (D (B1 (conv (D (B1 (conv (D (m ((c : Thread nD τ).loc main_arg0)) (m ((c : Thread nD τ).loc main_arg3))) (srcIdx (m ((c : Thread nD τ).loc main_arg1))) (dstIdx (m ((c : Thread nD τ).loc main_arg1))) (normV (F := F) (m ((c : Thread nD τ).loc main_arg1)))) (rowB (m ((c : Thread nD τ).loc main_arg4)))) (m ((c : Thread nD τ).loc main_arg5))) (srcIdx (m ((c : Thread nD τ).loc main_arg1))) (dstIdx (m ((c : Thread nD τ).loc main_arg1))) (normV (F := F) (m ((c : Thread nD τ).loc main_arg1)))) (rowB (m ((c : Thread nD τ).loc main_arg6)))) (m ((c : Thread nD τ).loc main_arg7))) (srcIdx (m ((c : Thread nD τ).loc main_arg1))) (dstIdx (m ((c : Thread nD τ).loc main_arg1))) (normV (F := F) (m ((c : Thread nD τ).loc main_arg1)))) (rowB (m ((c : Thread nD τ).loc main_arg8)))) := by rw [e12, Function.update_self, h12, f11_v75, f11_v76]
  have f12_arg2 : W12 (Proc.devRef .tc main_arg2) = (m ((c : Thread nD τ).loc main_arg2)) := ((k12 main_arg2 (by decide)).trans ((k11 main_arg2 (by decide)).trans ((k10 main_arg2 (by decide)).trans ((k9 main_arg2 (by decide)).trans ((k8 main_arg2 (by decide)).trans ((k7 main_arg2 (by decide)).trans ((k6 main_arg2 (by decide)).trans ((k5 main_arg2 (by decide)).trans ((k4 main_arg2 (by decide)).trans (V3_keep m c main_arg2 (by decide) (by decide) (by decide)))))))))))
  -- the readout and the mean
  have f13_v77 : W13 (Proc.devRef .tc main_v77) = (B5 (conv (D (B1 (conv (D (B1 (conv (D (m ((c : Thread nD τ).loc main_arg0)) (m ((c : Thread nD τ).loc main_arg3))) (srcIdx (m ((c : Thread nD τ).loc main_arg1))) (dstIdx (m ((c : Thread nD τ).loc main_arg1))) (normV (F := F) (m ((c : Thread nD τ).loc main_arg1)))) (rowB (m ((c : Thread nD τ).loc main_arg4)))) (m ((c : Thread nD τ).loc main_arg5))) (srcIdx (m ((c : Thread nD τ).loc main_arg1))) (dstIdx (m ((c : Thread nD τ).loc main_arg1))) (normV (F := F) (m ((c : Thread nD τ).loc main_arg1)))) (rowB (m ((c : Thread nD τ).loc main_arg6)))) (m ((c : Thread nD τ).loc main_arg7))) (srcIdx (m ((c : Thread nD τ).loc main_arg1))) (dstIdx (m ((c : Thread nD τ).loc main_arg1))) (normV (F := F) (m ((c : Thread nD τ).loc main_arg1)))) (rowB (m ((c : Thread nD τ).loc main_arg8)))) := (k13 main_v77 (by decide)).trans f12_v77
  have f13_v78 : W13 (Proc.devRef .tc main_v78) = (colIds (m ((c : Thread nD τ).loc main_arg2))) := by rw [e13, s6_v78, f12_arg2]
  have f14_v79_0 : W14 (Proc.devRef .tc main_v79_0) = SS (B5 (conv (D (B1 (conv (D (B1 (conv (D (m ((c : Thread nD τ).loc main_arg0)) (m ((c : Thread nD τ).loc main_arg3))) (srcIdx (m ((c : Thread nD τ).loc main_arg1))) (dstIdx (m ((c : Thread nD τ).loc main_arg1))) (normV (F := F) (m ((c : Thread nD τ).loc main_arg1)))) (rowB (m ((c : Thread nD τ).loc main_arg4)))) (m ((c : Thread nD τ).loc main_arg5))) (srcIdx (m ((c : Thread nD τ).loc main_arg1))) (dstIdx (m ((c : Thread nD τ).loc main_arg1))) (normV (F := F) (m ((c : Thread nD τ).loc main_arg1)))) (rowB (m ((c : Thread nD τ).loc main_arg6)))) (m ((c : Thread nD τ).loc main_arg7))) (srcIdx (m ((c : Thread nD τ).loc main_arg1))) (dstIdx (m ((c : Thread nD τ).loc main_arg1))) (normV (F := F) (m ((c : Thread nD τ).loc main_arg1)))) (rowB (m ((c : Thread nD τ).loc main_arg8)))) (colIds (m ((c : Thread nD τ).loc main_arg2))) := by
    rw [e14, update_keep _ main_v79_1 _ main_v79_0 (by decide), Function.update_self, h14a, f13_v77, f13_v78]
  have f14_v79_1 : W14 (Proc.devRef .tc main_v79_1) = SC (colIds (m ((c : Thread nD τ).loc main_arg2))) := by
    rw [e14, Function.update_self, h14b, f13_v78]
  rw [e15, tail_v84, f14_v79_0, f14_v79_1]
  rfl

end Chain

end Cert.KernelIdeal.Hand

end
-- ==== Proof.KI_DenseSpec.lean ====
import proofs.«422387_j74071005987301_1_alg».proof.Proof.Gen.KernelIdeal
import Idealize.ShloMosaic.Lib.ValueIdx
import Idealize.ShloMosaic.PureOps.Ideal.Laws

/-! # The dense layer's value: a matrix product, index by index

`denseG a w` is the product of a `[100000,128]` matrix `a` by a `[128,128]` matrix `w` over the extended reals:
entry `(r, n)` is `∑ k, a (r, k) * w (k, n)`. The body of a dense region computes, on one row block
`[2000,128]`, the accumulating matrix product of the two operands (rounded to a narrower format, which is
the identity at the ideal values) into a zero accumulator: at an index this is the same sum. -/

noncomputable section

namespace Cert.KernelIdeal.Hand

open Cert.KernelIdeal Cert.KernelIdeal.Gen Idealize.ShloMosaic Idealize.ShloMosaic.ValueIdx
open scoped BigOperators

/-- The product of a `[100000,128]` matrix by a `[128,128]` matrix, entry by entry. -/
def denseG (a : S100000x128.Idx → Elt Ideal .f32) (w : S128x128.Idx → Elt Ideal .f32) : S100000x128.Idx → Elt Ideal .f32 :=
  fun i => ∑ k : Fin 128, a (ix2 (⟨(i 0).val, (i 0).isLt⟩ : Fin 100000) k) * w (ix2 k (⟨(i 1).val, (i 1).isLt⟩ : Fin 128))

/-- The zero offset of a whole-buffer access, as a constant function. -/
theorem zeroOff2 : (![0, 0] : Fin 2 → Nat) = fun _ => 0 := funext fun a => by fin_cases a <;> rfl

/-! ## The block product's operand indices, axis by axis -/

theorem lhs_blockDot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_blockDot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_blockDot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_blockDot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at an index: the sum over the contracted axis of the products of
    the left operand's row entry and the right operand's column entry (the rounding of the operands is the
    identity at the ideal values). -/
theorem blockDot_apply (x0 : Vec Ideal S2000x128 .f32) (x1 : Vec Ideal S128x128 .f32) (j : S2000x128.Idx) :
    matmul (F := Ideal) dot_S2000x128_S128x128_S2000x128_1_0_0_1_n_n none
        (truncf (F := Ideal) .bf16 x0 bitsLt_bf16_f32) (truncf (F := Ideal) .bf16 x1 bitsLt_bf16_f32)
        (constant (F := Ideal) S2000x128 .f32 0x00000000#32) j
      = ∑ k : Fin 128, x0 (ix2 (⟨(j 0).val, (j 0).isLt⟩ : Fin 2000) k) * x1 (ix2 k (⟨(j 1).val, (j 1).isLt⟩ : Fin 128)) := by
  show FloatOps.matmul dot_S2000x128_S128x128_S2000x128_1_0_0_1_n_n none _ _ (constant S2000x128 .f32 0x00000000#32) j = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (⟨(j 0).val, (j 0).isLt⟩ : Fin 2000) k := funext fun a => Fin.ext (by
    match a with
    | ⟨0, _⟩ => exact lhs_blockDot_0 _ _
    | ⟨1, _⟩ => exact (lhs_blockDot_1 _ _).trans hk)
  have er : dot_S2000x128_S128x128_S2000x128_1_0_0_1_n_n.rhsIdx j ((contrEquiv1 dot_S2000x128_S128x128_S2000x128_1_0_0_1_n_n 128 rfl rfl).symm k) = ix2 k (⟨(j 1).val, (j 1).isLt⟩ : Fin 128) := funext fun a => Fin.ext (by
    match a with
    | ⟨0, _⟩ => exact (rhs_blockDot_0 _ _).trans hk
    | ⟨1, _⟩ => exact rhs_blockDot_1 _ _)
  rw [el, er]
  rfl

end Cert.KernelIdeal.Hand

end
-- ==== Proof.KI_DenseVal0.lean ====
import proofs.«422387_j74071005987301_1_alg».proof.Proof.KI_Dense0
import proofs.«422387_j74071005987301_1_alg».proof.Proof.KI_DenseSpec
import Idealize.ShloMosaic.Lib.Pipeline.Value
import Idealize.ShloMosaic.Lib.ValueIdx
import Idealize.ShloMosaic.PureOps.Ideal.Laws

/-! # Region 0 at the ideal values: the output array is the whole matrix product

At each grid point `t` the body leaves in the output buffer the product of row block `t` of the left
operand by the weight matrix; the point writes it back to row block `t` of the output array; the 50 row
blocks of 2000 rows tile the 100000 rows. So after the region the output array is `denseG` of the two
operand arrays as the region finds them. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The body's payload at an index: the sum over the contracted axis (where the left operand first passes
    through a shape cast to its own shape, that cast is the identity). -/
theorem pay0_apply (x0 : Vec Ideal S2000x128 .f32) (x1 : Vec Ideal S128x128 .f32) (j : S2000x128.Idx) :
    k0_pay1 (F := Ideal) x0 x1 j
      = ∑ k : Fin 128, x0 (ix2 (⟨(j 0).val, (j 0).isLt⟩ : Fin 2000) k) * x1 (ix2 k (⟨(j 1).val, (j 1).isLt⟩ : Fin 128)) := by
  unfold k0_pay1
  first
    | exact blockDot_apply x0 x1 j
    | (rw [shapeCast_self]; exact blockDot_apply x0 x1 j)

/-- The printed index maps, decided over the grid: the left operand's and the output's row block is the
    point's number, their column block 0; the weight matrix's block is always `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- What point `t` writes back is row block `t` of the matrix product of the operand arrays as the region finds them. -/
theorem flushed0_eq (c : Dev nD) (t : Fin cfg0.N) :
    (dat0 V c).flushed 2 t = ((cfg0.win 2).blk t).view.read (Elt Ideal) (denseG (V c main_arg0) (V c main_arg3)) := by
  show (cfg0.win 2).cut (grid0.coords t) ((dat0 V c).after 2 t) = _
  rw [after0_2]
  unfold out0_2
  rw [View.canon_unit_zero zeroOff2]
  simp only [View.ld_unit_zero (S := S2000x128) zeroOff2, View.ld_unit_zero (S := S128x128) zeroOff2]
  obtain ⟨e0, e1, e2, e3, e4, e5⟩ := idx_facts0 t
  funext j
  show k0_pay1 (F := Ideal) (iblk0 V c 0 t) (iblk0 V c 1 t) j = denseG (V c main_arg0) (V c main_arg3) (((cfg0.win 2).blk t).view.emb j)
  rw [pay0_apply]
  unfold denseG
  refine Finset.sum_congr rfl fun k _ => ?_
  have hj0 : (j 0).val < 2000 := (j 0).isLt
  have hj1 : (j 1).val < 128 := (j 1).isLt
  have h0 : iblk0 V c 0 t (ix2 (⟨(j 0).val, (j 0).isLt⟩ : Fin 2000) k)
      = V c main_arg0 (ix2 (⟨((((cfg0.win 2).blk t).view.emb j) 0).val, ((((cfg0.win 2).blk t).view.emb j) 0).isLt⟩ : Fin 100000) k) := by
    show V c main_arg0 (((cfg0.win 0).blk t).view.emb (ix2 (⟨(j 0).val, (j 0).isLt⟩ : Fin 2000) k)) = _
    congr 1
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : iblk0 V c 1 t (ix2 k (⟨(j 1).val, (j 1).isLt⟩ : Fin 128))
      = V c main_arg3 (ix2 k (⟨((((cfg0.win 2).blk t).view.emb j) 1).val, ((((cfg0.win 2).blk t).view.emb j) 1).isLt⟩ : Fin 128)) := by
    show V c main_arg3 (((cfg0.win 1).blk t).view.emb (ix2 k (⟨(j 1).val, (j 1).isLt⟩ : Fin 128))) = _
    congr 1
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every index of the output array is in some point's block: row `r` is in row block `r / 2000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 2000, by show (i 0).val / 2000 < 50; omega⟩
  obtain ⟨e0, e1, e2, e3, e4, e5⟩ := idx_facts0 t
  have e4' : win0_2.index t (0 : Fin 2) = (i 0).val / 2000 := e4
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE OUTPUT ARRAY after the region: the matrix product of the operand arrays as the region finds them. -/
theorem arrAt0_out (c : Dev nD) :
    (dat0 (F := Ideal) V c).arrAt 2 cfg0.N = denseG (V c main_arg0) (V c main_arg3) :=
  (dat0 V c).arrAt_eq_of_cover 2 (denseG (V c main_arg0) (V c main_arg3)) (fun t _ => flushed0_eq V c t) cover0

end Cert.KernelIdeal.Hand

end
-- ==== Proof.KI_DenseVal2.lean ====
import proofs.«422387_j74071005987301_1_alg».proof.Proof.KI_Dense2
import proofs.«422387_j74071005987301_1_alg».proof.Proof.KI_DenseSpec
import Idealize.ShloMosaic.Lib.Pipeline.Value
import Idealize.ShloMosaic.Lib.ValueIdx
import Idealize.ShloMosaic.PureOps.Ideal.Laws

/-! # Region 2 at the ideal values: the output array is the whole matrix product

At each grid point `t` the body leaves in the output buffer the product of row block `t` of the left
operand by the weight matrix; the point writes it back to row block `t` of the output array; the 50 row
blocks of 2000 rows tile the 100000 rows. So after the region the output array is `denseG` of the two
operand arrays as the region finds them. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The body's payload at an index: the sum over the contracted axis (where the left operand first passes
    through a shape cast to its own shape, that cast is the identity). -/
theorem pay2_apply (x0 : Vec Ideal S2000x128 .f32) (x1 : Vec Ideal S128x128 .f32) (j : S2000x128.Idx) :
    k2_pay1 (F := Ideal) x0 x1 j
      = ∑ k : Fin 128, x0 (ix2 (⟨(j 0).val, (j 0).isLt⟩ : Fin 2000) k) * x1 (ix2 k (⟨(j 1).val, (j 1).isLt⟩ : Fin 128)) := by
  unfold k2_pay1
  first
    | exact blockDot_apply x0 x1 j
    | (rw [shapeCast_self]; exact blockDot_apply x0 x1 j)

/-- The printed index maps, decided over the grid: the left operand's and the output's row block is the
    point's number, their column block 0; the weight matrix's block is always `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

/-- What point `t` writes back is row block `t` of the matrix product of the operand arrays as the region finds them. -/
theorem flushed2_eq (c : Dev nD) (t : Fin cfg2.N) :
    (dat2 V c).flushed 2 t = ((cfg2.win 2).blk t).view.read (Elt Ideal) (denseG (V c main_v45) (V c main_arg5)) := by
  show (cfg2.win 2).cut (grid2.coords t) ((dat2 V c).after 2 t) = _
  rw [after2_2]
  unfold out2_2
  rw [View.canon_unit_zero zeroOff2]
  simp only [View.ld_unit_zero (S := S2000x128) zeroOff2, View.ld_unit_zero (S := S128x128) zeroOff2]
  obtain ⟨e0, e1, e2, e3, e4, e5⟩ := idx_facts2 t
  funext j
  show k2_pay1 (F := Ideal) (iblk2 V c 0 t) (iblk2 V c 1 t) j = denseG (V c main_v45) (V c main_arg5) (((cfg2.win 2).blk t).view.emb j)
  rw [pay2_apply]
  unfold denseG
  refine Finset.sum_congr rfl fun k _ => ?_
  have hj0 : (j 0).val < 2000 := (j 0).isLt
  have hj1 : (j 1).val < 128 := (j 1).isLt
  have h0 : iblk2 V c 0 t (ix2 (⟨(j 0).val, (j 0).isLt⟩ : Fin 2000) k)
      = V c main_v45 (ix2 (⟨((((cfg2.win 2).blk t).view.emb j) 0).val, ((((cfg2.win 2).blk t).view.emb j) 0).isLt⟩ : Fin 100000) k) := by
    show V c main_v45 (((cfg2.win 0).blk t).view.emb (ix2 (⟨(j 0).val, (j 0).isLt⟩ : Fin 2000) k)) = _
    congr 1
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have h1 : iblk2 V c 1 t (ix2 k (⟨(j 1).val, (j 1).isLt⟩ : Fin 128))
      = V c main_arg5 (ix2 k (⟨((((cfg2.win 2).blk t).view.emb j) 1).val, ((((cfg2.win 2).blk t).view.emb j) 1).isLt⟩ : Fin 128)) := by
    show V c main_arg5 (((cfg2.win 1).blk t).view.emb (ix2 k (⟨(j 1).val, (j 1).isLt⟩ : Fin 128))) = _
    congr 1
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-- An index of the array is in point `t`'s block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every index of the output array is in some point's block: row `r` is in row block `r / 2000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 2000, by show (i 0).val / 2000 < 50; omega⟩
  obtain ⟨e0, e1, e2, e3, e4, e5⟩ := idx_facts2 t
  have e4' : win2_2.index t (0 : Fin 2) = (i 0).val / 2000 := e4
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- THE OUTPUT ARRAY after the region: the matrix product of the operand arrays as the region finds them. -/
theorem arrAt2_out (c : Dev nD) :
    (dat2 (F := Ideal) V c).arrAt 2 cfg2.N = denseG (V c main_v45) (V c main_arg5) :=
  (dat2 V c).arrAt_eq_of_cover 2 (denseG (V c main_v45) (V c main_arg5)) (fun t _ => flushed2_eq V c t) cover2

end Cert.KernelIdeal.Hand

end
-- ==== Proof.KI_DenseVal4.lean ====
import proofs.«422387_j74071005987301_1_alg».proof.Proof.KI_Dense4
import proofs.«422387_j74071005987301_1_alg».proof.Proof.KI_DenseSpec
import Idealize.ShloMosaic.Lib.Pipeline.Value
import Idealize.ShloMosaic.Lib.ValueIdx
import Idealize.ShloMosaic.PureOps.Ideal.Laws

/-! # Region 4 at the ideal values: the output array is the whole matrix product

At each grid point `t` the body leaves in the output buffer the product of row block `t` of the left
operand by the weight matrix; the point writes it back to row block `t` of the output array; the 50 row
blocks of 2000 rows tile the 100000 rows. So after the region the output array is `denseG` of the two
operand arrays as the region finds them. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The body's payload at an index: the sum over the contracted axis (where the left operand first passes
    through a shape cast to its own shape, that cast is the identity). -/
theorem pay4_apply (x0 : Vec Ideal S2000x128 .f32) (x1 : Vec Ideal S128x128 .f32) (j : S2000x128.Idx) :
    k4_pay1 (F := Ideal) x0 x1 j
      = ∑ k : Fin 128, x0 (ix2 (⟨(j 0).val, (j 0).isLt⟩ : Fin 2000) k) * x1 (ix2 k (⟨(j 1).val, (j 1).isLt⟩ : Fin 128)) := by
  unfold k4_pay1
  first
    | exact blockDot_apply x0 x1 j
    | (rw [shapeCast_self]; exact blockDot_apply x0 x1 j)

/-- The printed index maps, decided over the grid: the left operand's and the output's row block is the
    point's number, their column block 0; the weight matrix's block is always `(0, 0)`. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0)

/-- What point `t` writes back is row block `t` of the matrix product of the operand arrays as the region finds them. -/
theorem flushed4_eq (c : Dev nD) (t : Fin cfg4.N) :
    (dat4 V c).flushed 2 t = ((cfg4.win 2).blk t).view.read (Elt Ideal) (denseG (V c main_v61) (V c main_arg7)) := by
  show (cfg4.win 2).cut (grid4.coords t) ((dat4 V c).after 2 t) = _
  rw [after4_2]
  unfold out4_2
  rw [View.canon_unit_zero zeroOff2]
  simp only [View.ld_unit_zero (S := S2000x128) zeroOff2, View.ld_unit_zero (S := S128x128) zeroOff2]
  obtain ⟨e0, e1, e2, e3, e4, e5⟩ := idx_facts4 t
  funext j
  show k4_pay1 (F := Ideal) (iblk4 V c 0 t) (iblk4 V c 1 t) j = denseG (V c main_v61) (V c main_arg7) (((cfg4.win 2).blk t).view.emb j)
  rw [pay4_apply]
  unfold denseG
  refine Finset.sum_congr rfl fun k _ => ?_
  have hj0 : (j 0).val < 2000 := (j 0).isLt
  have hj1 : (j 1).val < 128 := (j 1).isLt
  have h0 : iblk4 V c 0 t (ix2 (⟨(j 0).val, (j 0).isLt⟩ : Fin 2000) k)
      = V c main_v61 (ix2 (⟨((((cfg4.win 2).blk t).view.emb j) 0).val, ((((cfg4.win 2).blk t).view.emb j) 0).isLt⟩ : Fin 100000) k) := by
    show V c main_v61 (((cfg4.win 0).blk t).view.emb (ix2 (⟨(j 0).val, (j 0).isLt⟩ : Fin 2000) k)) = _
    congr 1
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  have h1 : iblk4 V c 1 t (ix2 k (⟨(j 1).val, (j 1).isLt⟩ : Fin 128))
      = V c main_arg7 (ix2 k (⟨((((cfg4.win 2).blk t).view.emb j) 1).val, ((((cfg4.win 2).blk t).view.emb j) 1).isLt⟩ : Fin 128)) := by
    show V c main_arg7 (((cfg4.win 1).blk t).view.emb (ix2 k (⟨(j 1).val, (j 1).isLt⟩ : Fin 128))) = _
    congr 1
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [h0, h1]

/-- An index of the array is in point `t`'s block iff each coordinate is in the block's range on its axis. -/
theorem mem_blk4 (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v62).slice (win4_2.rect t)).set ↔ _
  rw [View.set_slice_whole, Rect.mem_set_unit]
  exact Iff.rfl

/-- Every index of the output array is in some point's block: row `r` is in row block `r / 2000`. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  let t : Fin cfg4.N := ⟨(i 0).val / 2000, by show (i 0).val / 2000 < 50; omega⟩
  obtain ⟨e0, e1, e2, e3, e4, e5⟩ := idx_facts4 t
  have e4' : win4_2.index t (0 : Fin 2) = (i 0).val / 2000 := e4
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- THE OUTPUT ARRAY after the region: the matrix product of the operand arrays as the region finds them. -/
theorem arrAt4_out (c : Dev nD) :
    (dat4 (F := Ideal) V c).arrAt 2 cfg4.N = denseG (V c main_v61) (V c main_arg7) :=
  (dat4 V c).arrAt_eq_of_cover 2 (denseG (V c main_v61) (V c main_arg7)) (fun t _ => flushed4_eq V c t) cover4

end Cert.KernelIdeal.Hand

end
-- ==== Proof.KI_BiasVal1.lean ====
/- Region 1 of @main at the ideal values: the output array after the region is, index by index, the aggregated array
   plus the bias row, cut below at zero. From the blocks to the array: what a grid point writes back is the point's block
   of that one function of the two input arrays; the fifty blocks of 2000 rows cover the 100000 rows. -/
import proofs.«422387_j74071005987301_1_alg».proof.Proof.KI_Bias1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The specification: bias, then rectify -/

/-- Row `i 0`, lane `i 1`: the aggregated value plus the bias of the lane, or zero if that is negative. -/
def biasReluG (agg : FVec Ideal S100000x128 .f32) (b : FVec Ideal S1x128 .f32) : FVec Ideal S100000x128 .f32 :=
  fun i => max (agg i + b (ix2 (0 : Fin 1) (i 1 : Fin 128))) (0 : EReal)

/-! ## The payload at an index -/

/-- The body's payload at row `p`, lane `q` of the block: the two casts are the identity, the bias row is laid along
    every row, and the constant it is cut at is the zero word. -/
theorem k1_pay1_apply (x0 : Vec Ideal S2000x128 .f32) (x1 : Vec Ideal S1x128 .f32) (p : Fin 2000) (q : Fin 128) :
    k1_pay1 x0 x1 (ix2 p q) = max (x0 (ix2 p q) + x1 (ix2 (0 : Fin 1) q)) (0 : EReal) := by
  unfold k1_pay1
  simp only [shapeCast_self]
  rw [maximumf_apply, addf_apply, broadcast_apply, broadcastTo_1b_ab_apply]
  show max _ (Ideal.ofBits .f32 0x00000000#32) = _
  rw [Ideal.ofBits_zero_f32]

/-! ## From blocks to the array -/

theorem zero_off1 : (![0, 0] : Fin 2 → Nat) = fun _ => 0 := funext fun a => by fin_cases a <;> rfl

/-- The printed index maps, decided over the grid: the aggregated block moves with the output block, the bias block
    stays at the origin, and the output's block at point `t` is row block `t`, lane block 0. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) ≤ 49
    ∧ win1_2.index t (1 : Fin 2) = 0 :=
  (by decide +kernel : ∀ t : Fin grid1.N, _)

/-- Every row block is some point's. -/
theorem idx_onto1 : ∀ q0 : Fin 50, ∃ t : Fin cfg1.N, win1_2.index t = ![q0.val, 0] :=
  (by decide +kernel : ∀ q0 : Fin 50, ∃ t : Fin grid1.N, win1_2.index t = ![q0.val, 0])

variable (V : (c : Dev nD) → (b : Ref sig .tc) → Buf (Elt Ideal) ((c : Thread nD τ).loc b))

/-- What point `t` writes back is block `t` of `biasReluG` of the two input arrays as the region finds them. -/
theorem flushed1_eq (c : Dev nD) (t : Fin cfg1.N) :
    (dat1 (F := Ideal) V c).flushed 2 t
      = ((cfg1.win 2).blk t).view.read (Elt Ideal) (biasReluG (V c main_v43) (V c main_v44)) := by
  show (cfg1.win 2).cut (grid1.coords t) ((dat1 V c).after 2 t) = _
  rw [after1_2]
  unfold out1_2
  rw [View.canon_unit_zero zero_off1]
  simp only [View.ld_unit_zero (S := S2000x128) zero_off1, View.ld_unit_zero (S := S1x128) zero_off1]
  obtain ⟨e0, e1, e2, e3, e4, e5⟩ := idx_facts1 t
  funext j
  obtain ⟨p, q, rfl⟩ : ∃ (p : Fin 2000) (q : Fin 128), j = ix2 p q := ⟨j 0, j 1, eq_ix2 j⟩
  show k1_pay1 (iblk1 V c 0 t) (iblk1 V c 1 t) (ix2 p q)
      = biasReluG (V c main_v43) (V c main_v44) (((cfg1.win 2).blk t).view.emb (ix2 p q))
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) ((((cfg1.win 2).blk t).view.emb (ix2 p q)) 1 : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  -- each input block is its array read where the output's block says, whatever the two arrays hold
  have key : ∀ (A : S100000x128.Idx → EReal) (B : S1x128.Idx → EReal),
      max (A (((cfg1.win 0).blk t).view.emb (ix2 p q)) + B (((cfg1.win 1).blk t).view.emb (ix2 (0 : Fin 1) q))) (0 : EReal)
        = biasReluG A B (((cfg1.win 2).blk t).view.emb (ix2 p q)) := by
    intro A B
    unfold biasReluG
    rw [h0, h1]
    rfl
  rw [k1_pay1_apply]
  exact key (V c main_v43) (V c main_v44)

/-- An index of the array is in point `t`'s block iff each coordinate is in the block's range on its axis. -/
theorem mem_blk1 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Every index is in some writing point's block: row `r` lies in row block `r / 2000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the region: `biasReluG` of the two input arrays as the region finds them. -/
theorem arrAt1_out (c : Dev nD) :
    (dat1 (F := Ideal) V c).arrAt 2 cfg1.N = biasReluG (V c main_v43) (V c main_v44) :=
  (dat1 (F := Ideal) V c).arrAt_eq_of_cover 2 (biasReluG (V c main_v43) (V c main_v44))
    (fun t _ => flushed1_eq V c t) cover1

end Cert.KernelIdeal.Hand

end
-- ==== Proof.KI_BiasVal3.lean ====
/- Region 3 of @main at the ideal values: the output array after the region is, index by index, the aggregated array
   plus the bias row, cut below at zero. From the blocks to the array: what a grid point writes back is the point's block
   of that one function of the two input arrays; the fifty blocks of 2000 rows cover the 100000 rows. -/
import proofs.«422387_j74071005987301_1_alg».proof.Proof.KI_Bias3
import proofs.«422387_j74071005987301_1_alg».proof.Proof.KI_BiasVal1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The payload at an index -/

/-- The body's payload at row `p`, lane `q` of the block: the two casts are the identity, the bias row is laid along
    every row, and the constant it is cut at is the zero word. -/
theorem k3_pay1_apply (x0 : Vec Ideal S2000x128 .f32) (x1 : Vec Ideal S1x128 .f32) (p : Fin 2000) (q : Fin 128) :
    k3_pay1 x0 x1 (ix2 p q) = max (x0 (ix2 p q) + x1 (ix2 (0 : Fin 1) q)) (0 : EReal) := by
  unfold k3_pay1
  simp only [shapeCast_self]
  rw [maximumf_apply, addf_apply, broadcast_apply, broadcastTo_1b_ab_apply]
  show max _ (Ideal.ofBits .f32 0x00000000#32) = _
  rw [Ideal.ofBits_zero_f32]

/-! ## From blocks to the array -/

theorem zero_off3 : (![0, 0] : Fin 2 → Nat) = fun _ => 0 := funext fun a => by fin_cases a <;> rfl

/-- The printed index maps, decided over the grid: the aggregated block moves with the output block, the bias block
    stays at the origin, and the output's block at point `t` is row block `t`, lane block 0. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) ≤ 49
    ∧ win3_2.index t (1 : Fin 2) = 0 :=
  (by decide +kernel : ∀ t : Fin grid3.N, _)

/-- Every row block is some point's. -/
theorem idx_onto3 : ∀ q0 : Fin 50, ∃ t : Fin cfg3.N, win3_2.index t = ![q0.val, 0] :=
  (by decide +kernel : ∀ q0 : Fin 50, ∃ t : Fin grid3.N, win3_2.index t = ![q0.val, 0])

variable (V : (c : Dev nD) → (b : Ref sig .tc) → Buf (Elt Ideal) ((c : Thread nD τ).loc b))

/-- What point `t` writes back is block `t` of `biasReluG` of the two input arrays as the region finds them. -/
theorem flushed3_eq (c : Dev nD) (t : Fin cfg3.N) :
    (dat3 (F := Ideal) V c).flushed 2 t
      = ((cfg3.win 2).blk t).view.read (Elt Ideal) (biasReluG (V c main_v59) (V c main_v60)) := by
  show (cfg3.win 2).cut (grid3.coords t) ((dat3 V c).after 2 t) = _
  rw [after3_2]
  unfold out3_2
  rw [View.canon_unit_zero zero_off3]
  simp only [View.ld_unit_zero (S := S2000x128) zero_off3, View.ld_unit_zero (S := S1x128) zero_off3]
  obtain ⟨e0, e1, e2, e3, e4, e5⟩ := idx_facts3 t
  funext j
  obtain ⟨p, q, rfl⟩ : ∃ (p : Fin 2000) (q : Fin 128), j = ix2 p q := ⟨j 0, j 1, eq_ix2 j⟩
  show k3_pay1 (iblk3 V c 0 t) (iblk3 V c 1 t) (ix2 p q)
      = biasReluG (V c main_v59) (V c main_v60) (((cfg3.win 2).blk t).view.emb (ix2 p q))
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (0 : Fin 1) ((((cfg3.win 2).blk t).view.emb (ix2 p q)) 1 : Fin 128) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  -- each input block is its array read where the output's block says, whatever the two arrays hold
  have key : ∀ (A : S100000x128.Idx → EReal) (B : S1x128.Idx → EReal),
      max (A (((cfg3.win 0).blk t).view.emb (ix2 p q)) + B (((cfg3.win 1).blk t).view.emb (ix2 (0 : Fin 1) q))) (0 : EReal)
        = biasReluG A B (((cfg3.win 2).blk t).view.emb (ix2 p q)) := by
    intro A B
    unfold biasReluG
    rw [h0, h1]
    rfl
  rw [k3_pay1_apply]
  exact key (V c main_v59) (V c main_v60)

/-- An index of the array is in point `t`'s block iff each coordinate is in the block's range on its axis. -/
theorem mem_blk3 (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- Every index is in some writing point's block: row `r` lies in row block `r / 2000`. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The output array after the region: `biasReluG` of the two input arrays as the region finds them. -/
theorem arrAt3_out (c : Dev nD) :
    (dat3 (F := Ideal) V c).arrAt 2 cfg3.N = biasReluG (V c main_v59) (V c main_v60) :=
  (dat3 (F := Ideal) V c).arrAt_eq_of_cover 2 (biasReluG (V c main_v59) (V c main_v60))
    (fun t _ => flushed3_eq V c t) cover3

end Cert.KernelIdeal.Hand

end
-- ==== Proof.KI_BiasVal5.lean ====
/- Region 5 of @main at the ideal values: the output array after the region is, index by index, the aggregated array
   plus the bias row (the last layer does not rectify). From the blocks to the array: what a grid point writes back is the
   point's block of that one function of the two input arrays; the fifty blocks of 2000 rows cover the 100000 rows. -/
import proofs.«422387_j74071005987301_1_alg».proof.Proof.KI_Bias5
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The specification: bias only -/

/-- Row `i 0`, lane `i 1`: the aggregated value plus the bias of the lane. -/
def biasG (agg : FVec Ideal S100000x128 .f32) (b : FVec Ideal S1x128 .f32) : FVec Ideal S100000x128 .f32 :=
  fun i => agg i + b (ix2 (0 : Fin 1) (i 1 : Fin 128))

/-! ## The payload at an index -/

/-- The body's payload at row `p`, lane `q` of the block: the casts are the identity and the bias row is laid along
    every row. -/
theorem k5_pay1_apply (x0 : Vec Ideal S2000x128 .f32) (x1 : Vec Ideal S1x128 .f32) (p : Fin 2000) (q : Fin 128) :
    k5_pay1 x0 x1 (ix2 p q) = x0 (ix2 p q) + x1 (ix2 (0 : Fin 1) q) := by
  unfold k5_pay1
  simp only [shapeCast_self]
  rw [addf_apply, broadcastTo_1b_ab_apply]

/-! ## From blocks to the array -/

theorem zero_off5 : (![0, 0] : Fin 2 → Nat) = fun _ => 0 := funext fun a => by fin_cases a <;> rfl

/-- The printed index maps, decided over the grid: the aggregated block moves with the output block, the bias block
    stays at the origin, and the output's block at point `t` is a row block, lane block 0. -/
theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) ≤ 49
    ∧ win5_2.index t (1 : Fin 2) = 0 :=
  (by decide +kernel : ∀ t : Fin grid5.N, _)

/-- Every row block is some point's. -/
theorem idx_onto5 : ∀ q0 : Fin 50, ∃ t : Fin cfg5.N, win5_2.index t = ![q0.val, 0] :=
  (by decide +kernel : ∀ q0 : Fin 50, ∃ t : Fin grid5.N, win5_2.index t = ![q0.val, 0])

variable (V : (c : Dev nD) → (b : Ref sig .tc) → Buf (Elt Ideal) ((c : Thread nD τ).loc b))

/-- What point `t` writes back is block `t` of `biasG` of the two input arrays as the region finds them. -/
theorem flushed5_eq (c : Dev nD) (t : Fin cfg5.N) :
    (dat5 (F := Ideal) V c).flushed 2 t
      = ((cfg5.win 2).blk t).view.read (Elt Ideal) (biasG (V c main_v75) (V c main_v76)) := by
  show (cfg5.win 2).cut (grid5.coords t) ((dat5 V c).after 2 t) = _
  rw [after5_2]
  unfold out5_2
  rw [View.canon_unit_zero zero_off5]
  simp only [View.ld_unit_zero (S := S2000x128) zero_off5, View.ld_unit_zero (S := S1x128) zero_off5]
  obtain ⟨e0, e1, e2, e3, e4, e5⟩ := idx_facts5 t
  funext j
  obtain ⟨p, q, rfl⟩ : ∃ (p : Fin 2000) (q : Fin 128), j = ix2 p q := ⟨j 0, j 1, eq_ix2 j⟩
  show k5_pay1 (iblk5 V c 0 t) (iblk5 V c 1 t) (ix2 p q)
      = biasG (V c main_v75) (V c main_v76) (((cfg5.win 2).blk t).view.emb (ix2 p q))
  have h0 : ((cfg5.win 0).blk t).view.emb (ix2 p q) = ((cfg5.win 2).blk t).view.emb (ix2 p q) := by
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 128 + 1 * q.val = win5_2.index t (1 : Fin 2) * 128 + 1 * q.val; omega
  have h1 : ((cfg5.win 1).blk t).view.emb (ix2 (0 : Fin 1) q)
      = ix2 (0 : Fin 1) ((((cfg5.win 2).blk t).view.emb (ix2 p q)) 1 : Fin 128) := by
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  -- each input block is its array read where the output's block says, whatever the two arrays hold
  have key : ∀ (A : S100000x128.Idx → EReal) (B : S1x128.Idx → EReal),
      A (((cfg5.win 0).blk t).view.emb (ix2 p q)) + B (((cfg5.win 1).blk t).view.emb (ix2 (0 : Fin 1) q))
        = biasG A B (((cfg5.win 2).blk t).view.emb (ix2 p q)) := by
    intro A B
    unfold biasG
    rw [h0, h1]
    rfl
  rw [k5_pay1_apply]
  exact key (V c main_v75) (V c main_v76)

/-- An index of the array is in point `t`'s block iff each coordinate is in the block's range on its axis. -/
theorem mem_blk5 (t : Fin cfg5.N) (i : S100000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v77).slice (win5_2.rect t)).set ↔ _
  rw [View.set_slice_whole, Rect.mem_set_unit]
  exact Iff.rfl

/-- Every index is in some writing point's block: row `r` lies in row block `r / 2000`. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := idx_onto5 ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- The output array after the region: `biasG` of the two input arrays as the region finds them. -/
theorem arrAt5_out (c : Dev nD) :
    (dat5 (F := Ideal) V c).arrAt 2 cfg5.N = biasG (V c main_v75) (V c main_v76) :=
  (dat5 (F := Ideal) V c).arrAt_eq_of_cover 2 (biasG (V c main_v75) (V c main_v76))
    (fun t _ => flushed5_eq V c t) cover5

end Cert.KernelIdeal.Hand

end
-- ==== Proof.KI_SegSpec.lean ====
/-
  The readout's target functions over the whole arrays: for features h [100000,128] and graph numbers b [100000,1],
  segSum h b at (g, d) is the sum of h[n, d] over the rows n with b[n] = g, and segCnt b at (0, g) is the number of
  such rows, as extended reals.
-/
import proofs.«422387_j74071005987301_1_alg».proof.KernelIdeal
import Idealize.ShloMosaic.Lib.ValueIdx

noncomputable section

namespace Cert.KernelIdeal.Hand

open Idealize.ShloMosaic Idealize.SL.Sem Idealize.ShloMosaic.ValueIdx
open Cert.KernelIdeal
open scoped BigOperators

/-- The per-graph feature sums: at (g, d), the sum over the rows whose graph number is g of the row's entry d. -/
def segSum (h : S100000x128.Idx → Elt Ideal .f32) (b : S100000x1.Idx → BitVec 32) : S512x128.Idx → Elt Ideal .f32 :=
  fun i => ∑ n : Fin 100000, if b (ix2 n (0 : Fin 1)) = BitVec.ofNat 32 (i 0).val
    then h (ix2 n (⟨(i 1).val, (i 1).isLt⟩ : Fin 128)) else 0

/-- The per-graph node counts: at (0, g), the number of rows whose graph number is g. -/
def segCnt (b : S100000x1.Idx → BitVec 32) : S1x512.Idx → Elt Ideal .f32 :=
  fun i => ∑ n : Fin 100000, if b (ix2 n (0 : Fin 1)) = BitVec.ofNat 32 (i 1).val then (1 : EReal) else 0

end Cert.KernelIdeal.Hand

end
-- ==== Proof.KI_Value.lean ====
/-
  The kernel program's returned buffer as the network's composed function of the launch contents of the nine
  argument arrays, over extended reals: every region's output array is its target function of its operand arrays,
  and the host stretches between them compose.
-/
import proofs.«422387_j74071005987301_1_alg».proof.Proof.KI_Chain
import proofs.«422387_j74071005987301_1_alg».proof.Proof.KI_HostChain
import proofs.«422387_j74071005987301_1_alg».proof.Proof.KI_DenseVal0
import proofs.«422387_j74071005987301_1_alg».proof.Proof.KI_DenseVal2
import proofs.«422387_j74071005987301_1_alg».proof.Proof.KI_DenseVal4
import proofs.«422387_j74071005987301_1_alg».proof.Proof.KI_BiasVal1
import proofs.«422387_j74071005987301_1_alg».proof.Proof.KI_BiasVal3
import proofs.«422387_j74071005987301_1_alg».proof.Proof.KI_BiasVal5
import proofs.«422387_j74071005987301_1_alg».proof.Proof.KI_SegSpec

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.StableHlo

variable (m : (ℓ : Loc nD τ sig) → Buf (Elt Ideal) ℓ) (c : Dev nD)

/-- The returned buffer after the whole of @main, from the readout's two output arrays being the per-graph sums and
    counts of what the readout finds. -/
theorem kernel_value
    (hs : o14a m c = segSum (W13 m c (Proc.devRef .tc main_v77)) (W13 m c (Proc.devRef .tc main_v78)))
    (hc : o14b m c = segCnt (W13 m c (Proc.devRef .tc main_v78))) :
    W15 m c (Proc.devRef .tc main_v84)
      = gcn denseG (fun a b => biasReluG a (rowB b)) (fun a b => biasG a (rowB b))
          (fun h bt => meanQ (segSum h (colIds bt)) (segCnt (colIds bt)))
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  chain_value m c denseG biasReluG biasG segSum segCnt
    (W4 := W4 m c) (W5 := W5 m c) (W6 := W6 m c) (W7 := W7 m c) (W8 := W8 m c) (W9 := W9 m c) (W10 := W10 m c)
    (W11 := W11 m c) (W12 := W12 m c) (W13 := W13 m c) (W14 := W14 m c) (W15 := W15 m c)
    (o4 := o4 m c) (o6 := o6 m c) (o7 := o7 m c) (o9 := o9 m c) (o10 := o10 m c) (o12 := o12 m c)
    (o14a := o14a m c) (o14b := o14b m c)
    rfl (arrAt0_out (atTc (W3 m)) c)
    rfl rfl (arrAt1_out (atTc (W5 m)) c)
    rfl (arrAt2_out (atTc (W6 m)) c)
    rfl rfl (arrAt3_out (atTc (W8 m)) c)
    rfl (arrAt4_out (atTc (W9 m)) c)
    rfl rfl (arrAt5_out (atTc (W11 m)) c)
    rfl rfl hs hc rfl

end Cert.KernelIdeal.Hand

end
-- ==== Proof.KI_RefValue.lean ====
/-
  The reference program's result as the network's composed function of its nine argument arrays: the same
  composition as the kernel program's, over the reference's own stage functions (the dense layer a whole-array
  matrix product, the bias a broadcast sum cut at zero or not, the readout two scatter-adds and a quotient).
-/
import proofs.«422387_j74071005987301_1_alg».proof.Proof.RefRunP
import proofs.«422387_j74071005987301_1_alg».proof.Proof.KI_Host

set_option maxRecDepth 16384

noncomputable section

namespace Cert.KernelIdeal.Hand

open Idealize.ShloMosaic Idealize.ShloMosaic.TcCoe
open Idealize.SL.Sem
open Idealize.ShloMosaic.StableHlo

variable {F : FTy → Type} [FloatOps F]

/-- The reference's dense layer: the whole-array matrix product. -/
def Dref (x : FVec F S100000x128 .f32) (w : FVec F S128x128 .f32) : FVec F S100000x128 .f32 :=
  Host.dotGeneral Cert.ReferenceIdeal.dot_S100000x128_S128x128_S100000x128_1_0_0_1_n_n none x w

/-- The reference's bias without the rectifier: the bias laid along every row, added. -/
def B5ref (a : FVec F S100000x128 .f32) (b : FVec F S128 .f32) : FVec F S100000x128 .f32 :=
  addf a (broadcastInDim Cert.ReferenceIdeal.S100000x128 ![0, 1] Cert.ReferenceIdeal.Gen.bcast_S1x128_S100000x128_0_1
    (broadcastInDim Cert.ReferenceIdeal.S1x128 ![1] Cert.ReferenceIdeal.Gen.bcast_S128_S1x128_1 b))

/-- The reference's bias with the rectifier: the sum cut below at zero. -/
def B1ref (a : FVec F S100000x128 .f32) (b : FVec F S128 .f32) : FVec F S100000x128 .f32 :=
  maximumf (B5ref a b)
    (broadcastInDim Cert.ReferenceIdeal.S100000x128 ![] Cert.ReferenceIdeal.Gen.bcast_S_S100000x128 (constant (F := F) Cert.ReferenceIdeal.S_ .f32 0x00000000#32))

/-- The reference's readout: the per-graph sums over the per-graph counts clamped below at one. -/
def FINref (h : FVec F S100000x128 .f32) (bt : IVec S100000 32) : FVec F S512x128 .f32 :=
  Host.divf
    (Host.scatterAdd Cert.ReferenceIdeal.scatter_S512x128_S100000x1_S100000x128_1_0_0_1
      (broadcastInDim Cert.ReferenceIdeal.S512x128 ![] Cert.ReferenceIdeal.Gen.bcast_S_S512x128 (constant (F := F) Cert.ReferenceIdeal.S_ .f32 0x00000000#32))
      (broadcastInDim Cert.ReferenceIdeal.S100000x1 ![0] Cert.ReferenceIdeal.Gen.bcast_S100000_S100000x1_0 bt) h)
    (broadcastInDim Cert.ReferenceIdeal.S512x128 ![0, 1] Cert.ReferenceIdeal.Gen.bcast_S512x1_S512x128_0_1
      (broadcastInDim Cert.ReferenceIdeal.S512x1 ![0] Cert.ReferenceIdeal.Gen.bcast_S512_S512x1_0
        (maximumf
          (Host.scatterAdd Cert.ReferenceIdeal.scatter_S512_S100000x1_S100000_n_0_0_1
            (broadcastInDim Cert.ReferenceIdeal.S512 ![] Cert.ReferenceIdeal.Gen.bcast_S_S512 (constant (F := F) Cert.ReferenceIdeal.S_ .f32 0x00000000#32))
            (broadcastInDim Cert.ReferenceIdeal.S100000x1 ![0] Cert.ReferenceIdeal.Gen.bcast_S100000_S100000x1_0 bt)
            (broadcastInDim Cert.ReferenceIdeal.S100000 ![] Cert.ReferenceIdeal.Gen.bcast_S_S100000 (constant (F := F) Cert.ReferenceIdeal.S_ .f32 0x3F800000#32)))
          (broadcastInDim Cert.ReferenceIdeal.S512 ![] Cert.ReferenceIdeal.Gen.bcast_S_S512 (constant (F := F) Cert.ReferenceIdeal.S_ .f32 0x3F800000#32)))))

set_option maxHeartbeats 4000000 in
/-- The reference's result is the network composed over the reference's stage functions. -/
theorem ref_value (m' : (ℓ : Loc Cert.ReferenceIdeal.nD Cert.ReferenceIdeal.τ Cert.ReferenceIdeal.sig) → Buf (Elt F) ℓ) (c : Dev Cert.ReferenceIdeal.nD) :
    Cert.ReferenceIdeal.ValueP.res_main_v94 m' c
      = gcn (F := F) Dref B1ref B5ref FINref
          (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  unfold Cert.ReferenceIdeal.ValueP.res_main_v94
  rfl

end Cert.KernelIdeal.Hand

end
-- ==== Proof.KI_RefDense.lean ====
import proofs.«422387_j74071005987301_1_alg».proof.Proof.Gen.ReferenceIdeal
import proofs.«422387_j74071005987301_1_alg».proof.Proof.KI_DenseSpec
import Idealize.ShloMosaic.Lib.ValueIdx
import Idealize.ShloMosaic.PureOps.Ideal.Laws

/-! # The reference's dense layer is the same matrix product

The reference computes a dense layer as one host contraction of the `[100000,128]` operand with the
`[128,128]` weight matrix over the operand's second and the weights' first axis. At the ideal values this is,
entry by entry, the sum `denseG` states. -/

noncomputable section

namespace Cert.KernelIdeal.Hand

open Idealize.ShloMosaic Idealize.ShloMosaic.ValueIdx
open scoped BigOperators

/-! ## The contraction's operand indices, axis by axis -/

theorem lhs_refDot_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_refDot_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_refDot_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_refDot_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The reference's contraction of the operand with the weight matrix is `denseG` of the two. -/
theorem ref_dot (x : FVec Ideal Cert.ReferenceIdeal.S100000x128 .f32) (w : FVec Ideal Cert.ReferenceIdeal.S128x128 .f32) :
    Host.dotGeneral (F := Ideal) Cert.ReferenceIdeal.dot_S100000x128_S128x128_S100000x128_1_0_0_1_n_n none x w = denseG x w := by
  funext i
  simp only [Host.dotGeneral]
  rw [Ideal.dotGeneral_apply, ← Equiv.sum_comp (contrEquiv1 Cert.ReferenceIdeal.dot_S100000x128_S128x128_S100000x128_1_0_0_1_n_n 128 rfl rfl).symm]
  unfold denseG
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((contrEquiv1 Cert.ReferenceIdeal.dot_S100000x128_S128x128_S100000x128_1_0_0_1_n_n 128 rfl rfl).symm k) = ix2 (⟨(i 0).val, (i 0).isLt⟩ : Fin 100000) k := funext fun a => Fin.ext (by
    match a with
    | ⟨0, _⟩ => exact lhs_refDot_0 _ _
    | ⟨1, _⟩ => exact (lhs_refDot_1 _ _).trans hk)
  have er : Cert.ReferenceIdeal.dot_S100000x128_S128x128_S100000x128_1_0_0_1_n_n.rhsIdx i ((contrEquiv1 Cert.ReferenceIdeal.dot_S100000x128_S128x128_S100000x128_1_0_0_1_n_n 128 rfl rfl).symm k) = ix2 k (⟨(i 1).val, (i 1).isLt⟩ : Fin 128) := funext fun a => Fin.ext (by
    match a with
    | ⟨0, _⟩ => exact (rhs_refDot_0 _ _).trans hk
    | ⟨1, _⟩ => exact rhs_refDot_1 _ _)
  rw [el, er]

end Cert.KernelIdeal.Hand

end
-- ==== Proof.KI_RefBias.lean ====
/- The reference's bias steps at the ideal values: the bias laid as a one-row matrix, then down the 100000 rows, added to the
   aggregated array, and (in the first two layers) cut below at the zero constant, is index by index the function the
   kernel's bias regions compute of the aggregated array and the bias as a row. -/
import proofs.«422387_j74071005987301_1_alg».proof.Proof.Gen.ReferenceIdeal
import proofs.«422387_j74071005987301_1_alg».proof.Proof.KI_BiasVal1
import proofs.«422387_j74071005987301_1_alg».proof.Proof.KI_BiasVal5
import proofs.«422387_j74071005987301_1_alg».proof.Proof.KI_Host
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! ## The bias as a row, read at an index -/

/-- The bias recast as a one-row matrix reads, at row 0 and lane `q`, the bias at `q`. -/
theorem rowB_apply (b : FVec Ideal S128 .f32) (q : Fin 128) : rowB b (ix2 (0 : Fin 1) q) = b (ix1 q) := by
  unfold rowB
  exact shapeCast_apply b shapeCasts_S128_S1x128 (ix2 (0 : Fin 1) q) (ix1 q) (by
    rw [Shape.rowMajor_val_one, Shape.rowMajor_val_two]
    show q.val = 0 * 128 + q.val
    omega)

/-- The reference's two broadcasts of the bias — to one row, then down every row — read, at row `i 0` and lane `i 1`,
    the bias at `i 1`. -/
theorem ref_bias_rows_apply (b : FVec Ideal Cert.ReferenceIdeal.S128 .f32) (i : Cert.ReferenceIdeal.S100000x128.Idx) :
    broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) i
      = b (ix1 (⟨(i 1).val, (i 1).isLt⟩ : Fin 128)) :=
  (broadcastInDim_apply ![0, 1] Cert.ReferenceIdeal.Gen.bcast_S1x128_S100000x128_0_1 _ i
      (ix2 (0 : Fin 1) (⟨(i 1).val, (i 1).isLt⟩ : Fin 128))
      (fun a => match a with
        | ⟨0, _⟩ => by show 0 = if (1 : Nat) = 1 then 0 else (i 0).val; rw [if_pos rfl]
        | ⟨1, _⟩ => by show (i 1).val = if (128 : Nat) = 1 then 0 else (i 1).val; rw [if_neg (by decide)])).trans
    (broadcastInDim_apply ![1] Cert.ReferenceIdeal.Gen.bcast_S128_S1x128_1 b
      (ix2 (0 : Fin 1) (⟨(i 1).val, (i 1).isLt⟩ : Fin 128)) (ix1 (⟨(i 1).val, (i 1).isLt⟩ : Fin 128))
      (fun a => match a with
        | ⟨0, _⟩ => by show (i 1).val = if (128 : Nat) = 1 then 0 else (i 1).val; rw [if_neg (by decide)]))

/-- The same, as the bias-as-a-row read where the kernel's regions read it. -/
theorem ref_bias_rows_eq_rowB (b : FVec Ideal Cert.ReferenceIdeal.S128 .f32) (i : Cert.ReferenceIdeal.S100000x128.Idx) :
    broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) i
      = rowB b (ix2 (0 : Fin 1) (⟨(i 1).val, (i 1).isLt⟩ : Fin 128)) :=
  (ref_bias_rows_apply b i).trans (rowB_apply b ⟨(i 1).val, (i 1).isLt⟩).symm

/-! ## The two bias steps -/

/-- Without the rectifier (the last layer): the reference's sum is `biasG` of the aggregated array and the bias as a row. -/
theorem ref_bias (agg : FVec Ideal Cert.ReferenceIdeal.S100000x128 .f32) (b : FVec Ideal Cert.ReferenceIdeal.S128 .f32) :
    addf agg (broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b))
      = biasG agg (rowB b) := by
  funext i
  exact congrArg (fun z : EReal => (agg i : EReal) + z) (ref_bias_rows_eq_rowB b i)

/-- With the rectifier (the first two layers): the reference's maximum with the broadcast zero constant is
    `biasReluG` of the aggregated array and the bias as a row. -/
theorem ref_bias_relu (agg : FVec Ideal Cert.ReferenceIdeal.S100000x128 .f32) (b : FVec Ideal Cert.ReferenceIdeal.S128 .f32) :
    maximumf (addf agg (broadcastInDim Cert.ReferenceIdeal.S100000x128 ![0, 1] Cert.ReferenceIdeal.Gen.bcast_S1x128_S100000x128_0_1
          (broadcastInDim Cert.ReferenceIdeal.S1x128 ![1] Cert.ReferenceIdeal.Gen.bcast_S128_S1x128_1 b)))
        (broadcastInDim Cert.ReferenceIdeal.S100000x128 ![] Cert.ReferenceIdeal.Gen.bcast_S_S100000x128
          (constant (F := Ideal) Cert.ReferenceIdeal.S_ .f32 0x00000000#32))
      = biasReluG agg (rowB b) := by
  funext i
  have hz : broadcastInDim Cert.ReferenceIdeal.S100000x128 ![] Cert.ReferenceIdeal.Gen.bcast_S_S100000x128
      (constant (F := Ideal) Cert.ReferenceIdeal.S_ .f32 0x00000000#32) i = (0 : EReal) := by
    have h := broadcastInDim_apply _ Cert.ReferenceIdeal.Gen.bcast_S_S100000x128
      (constant (F := Ideal) Cert.ReferenceIdeal.S_ .f32 0x00000000#32) i
      ((fun a => a.elim0) : Cert.ReferenceIdeal.S_.Idx) (fun a => a.elim0)
    exact h.trans Ideal.ofBits_zero_f32
  exact congrArg₂ (fun z w : EReal => max ((agg i : EReal) + z) w) (ref_bias_rows_eq_rowB b i) hz

end Cert.KernelIdeal.Hand

end
-- ==== Proof.KI_Join.lean ====
/-
  The reference's stage functions are, over extended reals, the kernel regions' target functions: the whole-array
  matrix product is the entry-by-entry sum, the broadcast bias sums are the regions' bias functions of the bias as
  a row, the readout's two scatter-adds and quotient are the mean of the per-graph sums over the per-graph counts.
  So the network composed over either family is the same function.
-/
import proofs.«422387_j74071005987301_1_alg».proof.Proof.KI_RefValue
import proofs.«422387_j74071005987301_1_alg».proof.Proof.KI_RefDense
import proofs.«422387_j74071005987301_1_alg».proof.Proof.KI_RefBias
import proofs.«422387_j74071005987301_1_alg».proof.Proof.KI_SegSpec

set_option maxRecDepth 16384

noncomputable section

namespace Cert.KernelIdeal.Hand

open Idealize.ShloMosaic Idealize.ShloMosaic.TcCoe
open Idealize.SL.Sem

/-- The reference's dense layer is the dense regions' function. -/
theorem Dref_eq : Dref (F := Ideal) = denseG :=
  funext fun x => funext fun w => ref_dot x w

/-- The reference's bias with the rectifier is the first two bias regions' function of the bias as a row. -/
theorem B1ref_eq : B1ref (F := Ideal) = fun a b => biasReluG a (rowB b) :=
  funext fun a => funext fun b => ref_bias_relu a b

/-- The reference's bias without the rectifier is the last bias region's function of the bias as a row. -/
theorem B5ref_eq : B5ref (F := Ideal) = fun a b => biasG a (rowB b) :=
  funext fun a => funext fun b => ref_bias a b

/-- The network over the reference's stage functions is the network over the regions' target functions. -/
theorem gcn_ref_eq
    (hfin : ∀ (h : FVec Ideal S100000x128 .f32) (bt : IVec S100000 32),
      FINref (F := Ideal) h bt = meanQ (segSum h (colIds bt)) (segCnt (colIds bt))) :
    gcn (F := Ideal) Dref B1ref B5ref FINref
      = gcn (F := Ideal) denseG (fun a b => biasReluG a (rowB b)) (fun a b => biasG a (rowB b))
          (fun h bt => meanQ (segSum h (colIds bt)) (segCnt (colIds bt))) := by
  have hF : FINref (F := Ideal) = fun h bt => meanQ (segSum h (colIds bt)) (segCnt (colIds bt)) :=
    funext fun h => funext fun bt => hfin h bt
  rw [Dref_eq, B1ref_eq, B5ref_eq, hF]

end Cert.KernelIdeal.Hand

end
-- ==== Proof.KI_RefOps.lean ====
/-
  The reference's two accumulating scatters read as sums over the rows. A row n of the updates, with graph number
  idx[n] read as a signed 32-bit word, is added at graph g exactly when idx[n] is the word of g (0 ≤ g < 512); a row
  whose number is outside is dropped. So the scatter of the feature rows into a zero [512,128] array is, at (g, d),
  the sum of h[n, d] over the rows with idx[n] = g, and the scatter of ones into a zero [512] array counts those rows.
-/
import proofs.«422387_j74071005987301_1_alg».proof.ReferenceIdeal
import proofs.«422387_j74071005987301_1_alg».proof.Proof.KI_SegSpec
import Idealize.ShloMosaic.PureOps.Ideal.Laws
import Idealize.ShloMosaic.Lib.ValueIdx
import Idealize.ShloMosaic.Lib.IdealHost

set_option synthInstance.maxSize 4096

noncomputable section

namespace Cert.KernelIdeal.Hand

open Idealize.ShloMosaic Idealize.SL.Sem Idealize.ShloMosaic.ValueIdx
open scoped BigOperators

variable [Cert.ReferenceIdeal.Facts₀]

abbrev D2 := Cert.ReferenceIdeal.scatter_S512x128_S100000x1_S100000x128_1_0_0_1

theorem d2_siIdx (n : Fin 100000) (d' : Fin 128) (c : Fin D2.scatterDimsToOperandDims.length) :
    D2.siIdx (ix2 n d') c = ix2 n (0 : Fin 1) := by
  funext b; apply Fin.ext
  match b with
  | ⟨0, _⟩ => rfl
  | ⟨1, _⟩ =>
    have := c.isLt
    show c.val = 0
    simp [D2, Cert.ReferenceIdeal.scatter_S512x128_S100000x1_S100000x128_1_0_0_1] at this
    omega

theorem d2_start0 (idx : IVec Cert.ReferenceIdeal.S100000x1 32) (n : Fin 100000) (d' : Fin 128) :
    D2.start (ix2 n d') idx 0 = (idx (ix2 n (0 : Fin 1))).toInt := by
  unfold ScatterDims.start
  rw [dif_pos (show (0 : Fin Cert.ReferenceIdeal.S512x128.rank) ∈ D2.scatterDimsToOperandDims by
    show (0 : Fin 2) ∈ [(0 : Fin 2)]; decide), d2_siIdx]

theorem d2_start1 (idx : IVec Cert.ReferenceIdeal.S100000x1 32) (n : Fin 100000) (d' : Fin 128) :
    D2.start (ix2 n d') idx 1 = 0 := by
  unfold ScatterDims.start
  rw [dif_neg (show ¬ (1 : Fin Cert.ReferenceIdeal.S512x128.rank) ∈ D2.scatterDimsToOperandDims by
    show ¬ (1 : Fin 2) ∈ [(0 : Fin 2)]; decide)]

theorem d2_window0 (n : Fin 100000) (d' : Fin 128) : D2.window (ix2 n d') 0 = 0 := by
  unfold ScatterDims.window
  rw [dif_neg (show ¬ (0 : Fin Cert.ReferenceIdeal.S512x128.rank) ∈ D2.sKept by
    show ¬ (0 : Fin 2) ∈ Shape.kept Cert.ReferenceIdeal.S512x128 [(0 : Fin 2)]; decide)]

theorem d2_window1 (n : Fin 100000) (d' : Fin 128) : D2.window (ix2 n d') 1 = d'.val := by
  unfold ScatterDims.window
  rw [dif_pos (show (1 : Fin Cert.ReferenceIdeal.S512x128.rank) ∈ D2.sKept by
    show (1 : Fin 2) ∈ Shape.kept Cert.ReferenceIdeal.S512x128 [(0 : Fin 2)]; decide)]
  rfl

/-- A 32-bit word read signed is the natural g < 512 exactly when it is the word of g. -/
theorem toInt_eq_iff (x : BitVec 32) (g : ℕ) (hg : g < 512) : x.toInt = (g : Int) ↔ x = BitVec.ofNat 32 g := by
  have hg' : (BitVec.ofNat 32 g).toInt = (g : Int) := by
    unfold BitVec.toInt
    rw [BitVec.toNat_ofNat, Nat.mod_eq_of_lt (by omega)]
    rw [if_pos (by omega)]
  constructor
  · intro h; exact BitVec.eq_of_toInt_eq (h.trans hg'.symm)
  · intro h; rw [h, hg']

/-- Row n's update at column d' lands on (g, d) exactly when the row's graph number is g and d' = d. -/
theorem d2_resultIdx_iff (idx : IVec Cert.ReferenceIdeal.S100000x1 32) (n : Fin 100000) (d' : Fin 128) (g : Fin 512) (d : Fin 128) :
    D2.resultIdx? (ix2 n d') idx = some (ix2 g d) ↔ (idx (ix2 n (0 : Fin 1)) = BitVec.ofNat 32 g.val ∧ d' = d) := by
  have v0 : D2.start (ix2 n d') idx 0 + D2.window (ix2 n d') 0 = (idx (ix2 n (0 : Fin 1))).toInt := by
    rw [d2_start0, d2_window0]; simp
  have v1 : D2.start (ix2 n d') idx 1 + D2.window (ix2 n d') 1 = (d'.val : Int) := by
    rw [d2_start1, d2_window1]; simp
  rw [← toInt_eq_iff _ _ g.isLt]
  unfold ScatterDims.resultIdx?
  split
  · rename_i h
    rw [Option.some.injEq]
    constructor
    · intro e
      have e0 : (D2.start (ix2 n d') idx 0 + D2.window (ix2 n d') 0).toNat = g.val := congrArg (fun f => (f 0).val) e
      have e1 : (D2.start (ix2 n d') idx 1 + D2.window (ix2 n d') 1).toNat = d.val := congrArg (fun f => (f 1).val) e
      have h0 := (h 0).1
      rw [v0] at h0 e0
      rw [v1] at e1
      exact ⟨by omega, Fin.ext (by omega)⟩
    · rintro ⟨e0, e1⟩
      funext a; apply Fin.ext
      match a with
      | ⟨0, _⟩ =>
        show (D2.start (ix2 n d') idx 0 + D2.window (ix2 n d') 0).toNat = g.val
        rw [v0, e0]; omega
      | ⟨1, _⟩ =>
        show (D2.start (ix2 n d') idx 1 + D2.window (ix2 n d') 1).toNat = d.val
        rw [v1, e1]; omega
  · rename_i h
    constructor
    · intro e; exact absurd e (by simp)
    · rintro ⟨e0, e1⟩
      exfalso; apply h
      intro a
      match a with
      | ⟨0, _⟩ =>
        show 0 ≤ D2.start (ix2 n d') idx 0 + D2.window (ix2 n d') 0
          ∧ D2.start (ix2 n d') idx 0 + D2.window (ix2 n d') 0 < ((512 : ℕ) : Int)
        rw [v0, e0]; have := g.isLt; omega
      | ⟨1, _⟩ =>
        show 0 ≤ D2.start (ix2 n d') idx 1 + D2.window (ix2 n d') 1
          ∧ D2.start (ix2 n d') idx 1 + D2.window (ix2 n d') 1 < ((128 : ℕ) : Int)
        rw [v1]; have := d'.isLt; omega

/-- The reference's per-graph feature sums: the accumulating scatter of the rows into a zero [512,128] array, by the
    rows' graph numbers, is `segSum`. -/
theorem ref_scatter_sum (idx : IVec Cert.ReferenceIdeal.S100000x1 32) (h : FVec Ideal Cert.ReferenceIdeal.S100000x128 .f32) :
    Host.scatterAdd (F := Ideal) Cert.ReferenceIdeal.scatter_S512x128_S100000x1_S100000x128_1_0_0_1
        (broadcastInDim Cert.ReferenceIdeal.S512x128 ![] Cert.ReferenceIdeal.Facts₀.bcast_S_S512x128
          (constant (F := Ideal) Cert.ReferenceIdeal.S_ .f32 0x00000000#32)) idx h
      = segSum h idx := by
  funext i
  obtain ⟨g, d, rfl⟩ : ∃ (g : Fin 512) (d : Fin 128), i = ix2 g d := ⟨i 0, i 1, eq_ix2 i⟩
  show Ideal.ofBits .f32 0x00000000#32
      + ∑ j ∈ Finset.univ.filter (fun j => D2.resultIdx? j idx = some (ix2 g d)), h j
    = ∑ n : Fin 100000, if idx (ix2 n (0 : Fin 1)) = BitVec.ofNat 32 g.val then h (ix2 n d) else 0
  rw [Ideal.ofBits_zero_f32, zero_add, Finset.sum_filter, sum_idx2]
  refine Finset.sum_congr rfl fun n _ => ?_
  simp only [d2_resultIdx_iff]
  by_cases hn : idx (ix2 n (0 : Fin 1)) = BitVec.ofNat 32 g.val
  · simp only [hn, true_and, if_true]
    rw [Finset.sum_ite_eq' Finset.univ d (fun d' => h (ix2 n d')), if_pos (Finset.mem_univ d)]
  · simp only [hn, false_and, if_false]
    exact Finset.sum_const_zero

abbrev D1 := Cert.ReferenceIdeal.scatter_S512_S100000x1_S100000_n_0_0_1

theorem d1_siIdx (n : Fin 100000) (c : Fin D1.scatterDimsToOperandDims.length) :
    D1.siIdx (ix1 n) c = ix2 n (0 : Fin 1) := by
  funext b; apply Fin.ext
  match b with
  | ⟨0, _⟩ => rfl
  | ⟨1, _⟩ =>
    have := c.isLt
    show c.val = 0
    simp [D1, Cert.ReferenceIdeal.scatter_S512_S100000x1_S100000_n_0_0_1] at this
    omega

theorem d1_start0 (idx : IVec Cert.ReferenceIdeal.S100000x1 32) (n : Fin 100000) :
    D1.start (ix1 n) idx 0 = (idx (ix2 n (0 : Fin 1))).toInt := by
  unfold ScatterDims.start
  rw [dif_pos (show (0 : Fin Cert.ReferenceIdeal.S512.rank) ∈ D1.scatterDimsToOperandDims by
    show (0 : Fin 1) ∈ [(0 : Fin 1)]; decide), d1_siIdx]

theorem d1_window0 (n : Fin 100000) : D1.window (ix1 n) 0 = 0 := by
  unfold ScatterDims.window
  rw [dif_neg (show ¬ (0 : Fin Cert.ReferenceIdeal.S512.rank) ∈ D1.sKept by
    show ¬ (0 : Fin 1) ∈ Shape.kept Cert.ReferenceIdeal.S512 [(0 : Fin 1)]; decide)]

/-- Row n's unit update lands on g exactly when the row's graph number is g. -/
theorem d1_resultIdx_iff (idx : IVec Cert.ReferenceIdeal.S100000x1 32) (n : Fin 100000) (g : Fin 512) :
    D1.resultIdx? (ix1 n) idx = some (ix1 g) ↔ idx (ix2 n (0 : Fin 1)) = BitVec.ofNat 32 g.val := by
  have v0 : D1.start (ix1 n) idx 0 + D1.window (ix1 n) 0 = (idx (ix2 n (0 : Fin 1))).toInt := by
    rw [d1_start0, d1_window0]; simp
  rw [← toInt_eq_iff _ _ g.isLt]
  unfold ScatterDims.resultIdx?
  split
  · rename_i h
    rw [Option.some.injEq]
    constructor
    · intro e
      have e0 : (D1.start (ix1 n) idx 0 + D1.window (ix1 n) 0).toNat = g.val := congrArg (fun f => (f 0).val) e
      have h0 := (h 0).1
      rw [v0] at h0 e0
      omega
    · intro e0
      funext a; apply Fin.ext
      match a with
      | ⟨0, _⟩ =>
        show (D1.start (ix1 n) idx 0 + D1.window (ix1 n) 0).toNat = g.val
        rw [v0, e0]; omega
  · rename_i h
    constructor
    · intro e; exact absurd e (by simp)
    · intro e0
      exfalso; apply h
      intro a
      match a with
      | ⟨0, _⟩ =>
        show 0 ≤ D1.start (ix1 n) idx 0 + D1.window (ix1 n) 0
          ∧ D1.start (ix1 n) idx 0 + D1.window (ix1 n) 0 < ((512 : ℕ) : Int)
        rw [v0, e0]; have := g.isLt; omega

/-- A sum over a rank-1 index set is the sum over its coordinate. -/
theorem sum_idx1 {M : Type*} [AddCommMonoid M] {n0 : Nat} (f : (⟨1, ![n0]⟩ : Shape).Idx → M) :
    ∑ i, f i = ∑ a : Fin n0, f (ix1 a) := by
  refine (Equiv.sum_comp (⟨fun a => ix1 a, fun i => i 0, fun a => rfl, fun i => (eq_ix1 i).symm⟩ :
    Fin n0 ≃ (⟨1, ![n0]⟩ : Shape).Idx) f).symm

/-- The reference's per-graph node counts: the accumulating scatter of a one per row into a zero [512] array, by the
    rows' graph numbers, counts the rows of each graph. -/
theorem ref_scatter_cnt (idx : IVec Cert.ReferenceIdeal.S100000x1 32) :
    Host.scatterAdd (F := Ideal) Cert.ReferenceIdeal.scatter_S512_S100000x1_S100000_n_0_0_1
        (broadcastInDim Cert.ReferenceIdeal.S512 ![] Cert.ReferenceIdeal.Facts₀.bcast_S_S512
          (constant (F := Ideal) Cert.ReferenceIdeal.S_ .f32 0x00000000#32)) idx
        (broadcastInDim Cert.ReferenceIdeal.S100000 ![] Cert.ReferenceIdeal.Facts₀.bcast_S_S100000
          (constant (F := Ideal) Cert.ReferenceIdeal.S_ .f32 0x3F800000#32))
      = fun i : Cert.ReferenceIdeal.S512.Idx =>
          ∑ n : Fin 100000, if idx (ix2 n (0 : Fin 1)) = BitVec.ofNat 32 (i 0).val then (1 : EReal) else 0 := by
  funext i
  obtain ⟨g, rfl⟩ : ∃ g : Fin 512, i = ix1 g := ⟨i 0, eq_ix1 i⟩
  show Ideal.ofBits .f32 0x00000000#32
      + ∑ j ∈ Finset.univ.filter (fun j => D1.resultIdx? j idx = some (ix1 g)), Ideal.ofBits .f32 0x3F800000#32
    = ∑ n : Fin 100000, if idx (ix2 n (0 : Fin 1)) = BitVec.ofNat 32 g.val then (1 : EReal) else 0
  rw [Ideal.ofBits_zero_f32, zero_add, Ideal.ofBits_one_f32, Finset.sum_filter, sum_idx1]
  refine Finset.sum_congr rfl fun n _ => ?_
  simp only [d1_resultIdx_iff]

end Cert.KernelIdeal.Hand

end
-- ==== Proof.KI_RefFin.lean ====
import proofs.«422387_j74071005987301_1_alg».proof.Proof.KI_RefOps
import proofs.«422387_j74071005987301_1_alg».proof.Proof.KI_SegSpec
import proofs.«422387_j74071005987301_1_alg».proof.Proof.KI_Host
import proofs.«422387_j74071005987301_1_alg».proof.Proof.KI_RefValue
import Idealize.ShloMosaic.Lib.Pipeline.Value
import Idealize.ShloMosaic.Lib.ValueIdx
import Idealize.ShloMosaic.Lib.IdealHost

/-! # The reference's readout tail is the per-graph mean

The reference ends with the quotient of two accumulating scatters by the rows' graph numbers: the rows'
features into a zero `[512,128]` array, and a one per row into a zero `[512]` array, the latter clamped
below at one and broadcast along the feature axis. The first is `segSum`, the second `segCnt` read as a
column; so the quotient is `meanQ` of the two, entry by entry. -/

set_option maxRecDepth 16384

noncomputable section

namespace Cert.KernelIdeal.Hand

open Idealize.ShloMosaic Idealize.SL.Sem Idealize.ShloMosaic.ValueIdx
open scoped BigOperators

section AnyFacts

variable [Cert.ReferenceIdeal.Facts₀]

/-- The graph numbers broadcast to a column are the graph numbers reshaped to a column: both read entry `n` at `(n, 0)`. -/
theorem ref_colIds (bt : IVec Cert.ReferenceIdeal.S100000 32) :
    broadcastInDim Cert.ReferenceIdeal.S100000x1 ![0] Cert.ReferenceIdeal.Facts₀.bcast_S100000_S100000x1_0 bt = colIds bt := by
  funext j
  have h1 : (j 1).val < 1 := (j 1).isLt
  have e1 : broadcastInDim Cert.ReferenceIdeal.S100000x1 ![0] Cert.ReferenceIdeal.Facts₀.bcast_S100000_S100000x1_0 bt j
      = bt (ix1 (⟨(j 0).val, (j 0).isLt⟩ : Fin 100000)) :=
    broadcastInDim_apply _ _ bt j (ix1 (⟨(j 0).val, (j 0).isLt⟩ : Fin 100000)) (fun a => by
      match a with
      | ⟨0, _⟩ => show (j 0).val = if (100000 : Nat) = 1 then 0 else (j 0).val; rw [if_neg (by decide)])
  have e2 : colIds bt j = bt (ix1 (⟨(j 0).val, (j 0).isLt⟩ : Fin 100000)) := by
    unfold colIds
    exact shapeCast_apply bt _ j (ix1 (⟨(j 0).val, (j 0).isLt⟩ : Fin 100000)) (by
      rw [Shape.rowMajor_val_one, Shape.rowMajor_val_two]
      show (j 0).val = (j 0).val * 1 + (j 1).val
      omega)
  rw [e1, e2]

/-- THE REFERENCE'S READOUT: the scattered feature sums divided by the scattered counts clamped below at one is the
    per-graph mean of the segment sums and segment counts. -/
theorem ref_fin_term (h : FVec Ideal Cert.ReferenceIdeal.S100000x128 .f32) (bt : IVec Cert.ReferenceIdeal.S100000 32) :
    Host.divf (F := Ideal)
        (Host.scatterAdd (F := Ideal) Cert.ReferenceIdeal.scatter_S512x128_S100000x1_S100000x128_1_0_0_1
          (broadcastInDim Cert.ReferenceIdeal.S512x128 ![] Cert.ReferenceIdeal.Facts₀.bcast_S_S512x128 (constant (F := Ideal) Cert.ReferenceIdeal.S_ .f32 0x00000000#32))
          (broadcastInDim Cert.ReferenceIdeal.S100000x1 ![0] Cert.ReferenceIdeal.Facts₀.bcast_S100000_S100000x1_0 bt) h)
        (broadcastInDim Cert.ReferenceIdeal.S512x128 ![0, 1] Cert.ReferenceIdeal.Facts₀.bcast_S512x1_S512x128_0_1
          (broadcastInDim Cert.ReferenceIdeal.S512x1 ![0] Cert.ReferenceIdeal.Facts₀.bcast_S512_S512x1_0
            (maximumf (F := Ideal)
              (Host.scatterAdd (F := Ideal) Cert.ReferenceIdeal.scatter_S512_S100000x1_S100000_n_0_0_1
                (broadcastInDim Cert.ReferenceIdeal.S512 ![] Cert.ReferenceIdeal.Facts₀.bcast_S_S512 (constant (F := Ideal) Cert.ReferenceIdeal.S_ .f32 0x00000000#32))
                (broadcastInDim Cert.ReferenceIdeal.S100000x1 ![0] Cert.ReferenceIdeal.Facts₀.bcast_S100000_S100000x1_0 bt)
                (broadcastInDim Cert.ReferenceIdeal.S100000 ![] Cert.ReferenceIdeal.Facts₀.bcast_S_S100000 (constant (F := Ideal) Cert.ReferenceIdeal.S_ .f32 0x3F800000#32)))
              (broadcastInDim Cert.ReferenceIdeal.S512 ![] Cert.ReferenceIdeal.Facts₀.bcast_S_S512 (constant (F := Ideal) Cert.ReferenceIdeal.S_ .f32 0x3F800000#32)))))
      = meanQ (F := Ideal) (segSum h (colIds bt)) (segCnt (colIds bt)) := by
  rewrite [ref_colIds, ref_scatter_sum, ref_scatter_cnt]
  funext i
  obtain ⟨g, d, rfl⟩ : ∃ (g : Fin 512) (d : Fin 128), i = ix2 g d := ⟨i 0, i 1, eq_ix2 i⟩
  unfold meanQ
  rewrite [hostDivf_apply, hostDivf_apply]
  refine congrArg (Ideal.div _) ?_
  -- the reference's denominator at (g, d): the clamped count of graph g
  rewrite [broadcastInDim_apply (![0, 1] : Fin 2 → Fin 2) Cert.ReferenceIdeal.Facts₀.bcast_S512x1_S512x128_0_1 _ (ix2 g d) (ix2 g (0 : Fin 1)) (fun a => by
      match a with
      | ⟨0, _⟩ => show g.val = if (512 : Nat) = 1 then 0 else g.val; rw [if_neg (by decide)]
      | ⟨1, _⟩ => show (0 : Nat) = if (1 : Nat) = 1 then 0 else d.val; rw [if_pos rfl]),
    broadcastInDim_apply (![0] : Fin 1 → Fin 2) Cert.ReferenceIdeal.Facts₀.bcast_S512_S512x1_0 _ (ix2 g (0 : Fin 1)) (ix1 g) (fun a => by
      match a with
      | ⟨0, _⟩ => show g.val = if (512 : Nat) = 1 then 0 else g.val; rw [if_neg (by decide)]),
    maximumf_apply, broadcastInDim_scalar_apply]
  -- the kernel side's denominator at (g, d): the count row read as a column, clamped
  rewrite [broadcastInDim_apply (![0, 1] : Fin 2 → Fin 2) _ _ (ix2 g d) (ix2 g (0 : Fin 1)) (fun a => by
      match a with
      | ⟨0, _⟩ => show g.val = if (512 : Nat) = 1 then 0 else g.val; rw [if_neg (by decide)]
      | ⟨1, _⟩ => show (0 : Nat) = if (1 : Nat) = 1 then 0 else d.val; rw [if_pos rfl]),
    maximumf_apply, broadcastInDim_scalar_apply,
    shapeCast_apply _ _ (ix2 g (0 : Fin 1)) (ix2 (0 : Fin 1) g) (by
      rw [Shape.rowMajor_val_two, Shape.rowMajor_val_two]
      show 0 * 512 + g.val = g.val * 1 + 0
      omega)]
  rfl

end AnyFacts

/-- The same, for the reference's readout stage function at the reference's own stated facts. -/
theorem ref_fin (h : FVec Ideal Cert.KernelIdeal.S100000x128 .f32) (bt : IVec Cert.KernelIdeal.S100000 32) :
    FINref (F := Ideal) h bt = meanQ (F := Ideal) (segSum h (colIds bt)) (segCnt (colIds bt)) := by
  unfold FINref
  exact ref_fin_term h bt

end Cert.KernelIdeal.Hand

end
-- ==== Proof.KI_ReadoutSpec.lean ====
/-
  The mathematics of the readout region at the ideal values, over explicit coordinates.

  The region's payload builds, for a block of 2000 rows, the one-hot matrix E[r, g] = 1 if the row's graph number
  b[r] equals the lane number g (0 ≤ g < 512), else 0; adds to a [512,128] accumulator the product Eᵀ · h (the
  contraction over the 2000 rows of E with the block's features h), and to a [1,512] accumulator the column sums of
  E. Over the extended reals 0 · x = 0 and 1 · x = x for every x, so at (g, d) the product is the sum of h[r, d] over
  the rows r with b[r] = g, and the column sum at g counts those rows. The accumulators start from zero at the first
  grid point; after the 50 grid points they hold the sums over all 50 × 2000 rows, and a sum over (block, row in
  block) is the sum over the 100000 rows, row 2000 t + r being row r of block t.
-/
import proofs.«422387_j74071005987301_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option synthInstance.maxSize 4096

noncomputable section

namespace Cert.KernelIdeal.Hand

open Idealize.ShloMosaic Idealize.SL.Sem Idealize.ShloMosaic.ValueIdx
open Cert.KernelIdeal Cert.KernelIdeal.Gen
open scoped BigOperators

/-- The contraction of axis 0 of a [2000,512] operand with axis 0 of a [2000,128] operand into a zero accumulator,
    read at (g, d): the sum over the 2000 rows of the products. -/
theorem matmul_tn_apply {φ₁ φ₂ : FTy} (A : FVec Ideal S2000x512 φ₁) (B : FVec Ideal S2000x128 φ₂) (g : Fin 512) (d : Fin 128) :
    matmul dot_S2000x512_S2000x128_S512x128_0_0_1_1_n_n none A B (constant (F := Ideal) S512x128 .f32 0x00000000#32) (ix2 g d)
      = ∑ r : Fin 2000, A (ix2 r g) * B (ix2 r d) := by
  show FloatOps.matmul _ none A B _ (ix2 g d) = _
  rw [Ideal.matmul_constant_zero_apply,
    ← Equiv.sum_comp (contrEquiv1 dot_S2000x512_S2000x128_S512x128_0_0_1_1_n_n 2000 rfl rfl).symm]
  refine Finset.sum_congr rfl fun c _ => ?_
  have c2 := contrEquiv1_symm_val dot_S2000x512_S2000x128_S512x128_0_0_1_1_n_n 2000 rfl rfl c
  have l2 : dot_S2000x512_S2000x128_S512x128_0_0_1_1_n_n.lhsIdx (ix2 g d) ((contrEquiv1 _ 2000 rfl rfl).symm c) = ix2 c g := by
    funext ax; apply Fin.ext
    match ax with
    | ⟨0, _⟩ => simp [DotDims.lhsIdx, dot_S2000x512_S2000x128_S512x128_0_0_1_1_n_n]; exact c2
    | ⟨1, _⟩ => simp [DotDims.lhsIdx, dot_S2000x512_S2000x128_S512x128_0_0_1_1_n_n]; rfl
  have r2 : dot_S2000x512_S2000x128_S512x128_0_0_1_1_n_n.rhsIdx (ix2 g d) ((contrEquiv1 _ 2000 rfl rfl).symm c) = ix2 c d := by
    funext ax; apply Fin.ext
    match ax with
    | ⟨0, _⟩ => simp [DotDims.rhsIdx, dot_S2000x512_S2000x128_S512x128_0_0_1_1_n_n]; exact c2
    | ⟨1, _⟩ => simp [DotDims.rhsIdx, dot_S2000x512_S2000x128_S512x128_0_0_1_1_n_n]; rfl
  rw [l2, r2]

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot compare at (r, g): the row's word against the lane number. -/
theorem k6pay3_apply {F : FTy → Type} [FloatOps F] (b : Vec F S2000x1 .i32) (r : Fin 2000) (g : Fin 512) :
    k6_pay3 (F := F) b (ix2 r g) = IntOp.cmpi .eq (b (ix2 r (0 : Fin 1))) (BitVec.ofNat 32 g.val) := by
  unfold k6_pay3
  simp only [shapeCast_self]
  show IntOp.cmpi .eq (broadcastTo S2000x512 b broadcasts_S2000x1_S2000x512 (ix2 r g))
      (iota .tc S2000x512 32 [1] iota_S2000x512_d1_w32 (ix2 r g)) = _
  rw [broadcastTo_a1_ab_apply, iota_single_apply]

/-- The one-hot as an extended real. -/
theorem onehot_apply (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  unfold IntOp.cmpi
  by_cases h : x = y
  · subst h; simp
  · have : (x == y) = false := by simpa using h
    simp [this, h]

/-- The block's contribution to the per-graph feature sums, and the running sum it is added to, at (g, d). -/
theorem k6pay4_apply (h : Vec Ideal S2000x128 .f32) (b : Vec Ideal S2000x1 .i32) (a : Vec Ideal S512x128 .f32)
    (g : Fin 512) (d : Fin 128) :
    k6_pay4 (F := Ideal) h b a (ix2 g d)
      = a (ix2 g d) + ∑ r : Fin 2000, (if b (ix2 r (0 : Fin 1)) = BitVec.ofNat 32 g.val then h (ix2 r d) else 0) := by
  unfold k6_pay4
  simp only [shapeCast_self]
  rw [addf_apply, matmul_tn_apply]
  refine congrArg (a (ix2 g d) + ·) (Finset.sum_congr rfl fun r _ => ?_)
  rw [truncf_apply, truncf_apply, sitofp_apply, extui_apply, k6pay3_apply, onehot_apply]
  split
  · exact one_mul _
  · exact zero_mul _

/-- The lane sum over the 2000 rows of a [2000,512] vector, viewed [1,512], at (0, g). -/
theorem colsum_apply (X : FVec Ideal S2000x512 .f32) (g : Fin 512)
    (hφ : FKind.Formats .f32) (hacc : (0x00000000#32 : BitVec 32) = FKind.add.neutral .f32 hφ) :
    shapeCast S1x512 (multiReduction (F := Ideal) .add [0] S512 X 0x00000000#32 reduces_S2000x512_S512 hφ hacc)
        shapeCasts_S512_S1x512 (ix2 (0 : Fin 1) g)
      = ∑ r : Fin 2000, X (ix2 r g) := by
  rw [shapeCast_a_1a_apply]
  refine (Ideal.multiReduction_add_single X 0x00000000#32 reduces_S2000x512_S512 hφ hacc (ix1 g)).trans ?_
  refine Finset.sum_congr rfl fun r _ => congrArg X ?_
  funext ax; apply Fin.ext
  match ax with
  | ⟨0, _⟩ => rfl
  | ⟨1, _⟩ => rfl

/-- The block's contribution to the per-graph node counts, and the running count it is added to, at (0, g). -/
theorem k6pay5_apply (b : Vec Ideal S2000x1 .i32) (a : Vec Ideal S1x512 .f32) (g : Fin 512) :
    k6_pay5 (F := Ideal) b a (ix2 (0 : Fin 1) g)
      = a (ix2 (0 : Fin 1) g) + ∑ r : Fin 2000, (if b (ix2 r (0 : Fin 1)) = BitVec.ofNat 32 g.val then (1 : EReal) else 0) := by
  unfold k6_pay5
  simp only [shapeCast_self]
  rw [addf_apply]
  refine congrArg (a (ix2 (0 : Fin 1) g) + ·) ?_
  refine (colsum_apply _ g _ _).trans ?_
  refine Finset.sum_congr rfl fun r _ => ?_
  rw [sitofp_apply, extui_apply, k6pay3_apply, onehot_apply]

/-- The feature accumulator is zeroed at the first grid point. -/
theorem k6pay1_apply (i : S512x128.Idx) : k6_pay1 (F := Ideal) i = 0 := by
  unfold k6_pay1
  simp only [shapeCast_self]
  show Ideal.ofBits .f32 0x00000000#32 = 0
  exact Ideal.ofBits_zero_f32

/-- The count accumulator is zeroed at the first grid point. -/
theorem k6pay2_apply (i : S1x512.Idx) : k6_pay2 (F := Ideal) i = 0 := by
  unfold k6_pay2
  simp only [shapeCast_self]
  show Ideal.ofBits .f32 0x00000000#32 = 0
  exact Ideal.ofBits_zero_f32

/-! ## The accumulation over the 50 grid points -/

/-- The two accumulators after grid point `n`: zeroed before point 0, then every point adds its block's contribution. -/
def accS (hb : Fin 50 → Vec Ideal S2000x128 .f32) (bb : Fin 50 → Vec Ideal S2000x1 .i32) :
    (n : ℕ) → n < 50 → Vec Ideal S512x128 .f32 × Vec Ideal S1x512 .f32
  | 0, hn => (k6_pay4 (F := Ideal) (hb ⟨0, hn⟩) (bb ⟨0, hn⟩) (k6_pay1 (F := Ideal)),
      k6_pay5 (F := Ideal) (bb ⟨0, hn⟩) (k6_pay2 (F := Ideal)))
  | n + 1, hn => (k6_pay4 (F := Ideal) (hb ⟨n + 1, hn⟩) (bb ⟨n + 1, hn⟩) (accS hb bb n (Nat.lt_of_succ_lt hn)).1,
      k6_pay5 (F := Ideal) (bb ⟨n + 1, hn⟩) (accS hb bb n (Nat.lt_of_succ_lt hn)).2)

theorem accS_zero (hb : Fin 50 → Vec Ideal S2000x128 .f32) (bb : Fin 50 → Vec Ideal S2000x1 .i32) (hn : 0 < 50) :
    accS hb bb 0 hn = (k6_pay4 (F := Ideal) (hb ⟨0, hn⟩) (bb ⟨0, hn⟩) (k6_pay1 (F := Ideal)),
      k6_pay5 (F := Ideal) (bb ⟨0, hn⟩) (k6_pay2 (F := Ideal))) := rfl

theorem accS_succ (hb : Fin 50 → Vec Ideal S2000x128 .f32) (bb : Fin 50 → Vec Ideal S2000x1 .i32) (n : ℕ) (hn : n + 1 < 50) :
    accS hb bb (n + 1) hn
      = (k6_pay4 (F := Ideal) (hb ⟨n + 1, hn⟩) (bb ⟨n + 1, hn⟩) (accS hb bb n (Nat.lt_of_succ_lt hn)).1,
        k6_pay5 (F := Ideal) (bb ⟨n + 1, hn⟩) (accS hb bb n (Nat.lt_of_succ_lt hn)).2) := rfl

/-- After point `n` the feature accumulator holds, at (g, d), the sum over the points so far and over each block's rows
    of the rows whose graph number is `g`. -/
theorem accS_fst_apply (hb : Fin 50 → Vec Ideal S2000x128 .f32) (bb : Fin 50 → Vec Ideal S2000x1 .i32)
    (n : ℕ) (hn : n < 50) (g : Fin 512) (d : Fin 128) :
    (accS hb bb n hn).1 (ix2 g d)
      = ∑ t : Fin (n + 1), ∑ r : Fin 2000,
          (if bb ⟨t.val, lt_of_lt_of_le t.isLt hn⟩ (ix2 r (0 : Fin 1)) = BitVec.ofNat 32 g.val
            then hb ⟨t.val, lt_of_lt_of_le t.isLt hn⟩ (ix2 r d) else 0) := by
  induction n with
  | zero =>
    rw [accS_zero]
    show k6_pay4 (F := Ideal) _ _ _ (ix2 g d) = _
    rw [k6pay4_apply, k6pay1_apply, zero_add, Fin.sum_univ_one]
    rfl
  | succ n ih =>
    rw [accS_succ]
    show k6_pay4 (F := Ideal) _ _ _ (ix2 g d) = _
    rw [k6pay4_apply, ih (Nat.lt_of_succ_lt hn), Fin.sum_univ_castSucc (n := n + 1)]
    rfl

/-- After point `n` the count accumulator holds, at (0, g), the number of rows so far whose graph number is `g`. -/
theorem accS_snd_apply (hb : Fin 50 → Vec Ideal S2000x128 .f32) (bb : Fin 50 → Vec Ideal S2000x1 .i32)
    (n : ℕ) (hn : n < 50) (g : Fin 512) :
    (accS hb bb n hn).2 (ix2 (0 : Fin 1) g)
      = ∑ t : Fin (n + 1), ∑ r : Fin 2000,
          (if bb ⟨t.val, lt_of_lt_of_le t.isLt hn⟩ (ix2 r (0 : Fin 1)) = BitVec.ofNat 32 g.val then (1 : EReal) else 0) := by
  induction n with
  | zero =>
    rw [accS_zero]
    show k6_pay5 (F := Ideal) _ _ (ix2 (0 : Fin 1) g) = _
    rw [k6pay5_apply, k6pay2_apply, zero_add, Fin.sum_univ_one]
    rfl
  | succ n ih =>
    rw [accS_succ]
    show k6_pay5 (F := Ideal) _ _ (ix2 (0 : Fin 1) g) = _
    rw [k6pay5_apply, ih (Nat.lt_of_succ_lt hn), Fin.sum_univ_castSucc (n := n + 1)]
    rfl

/-! ## Fifty blocks of 2000 rows are the 100000 rows -/

/-- A sum over the 50 blocks and the 2000 rows of each is the sum over the 100000 rows, row `2000 t + r` being row `r`
    of block `t`. -/
theorem sum_blocks {M : Type*} [AddCommMonoid M] (f : Fin 100000 → M) :
    ∑ t : Fin 50, ∑ r : Fin 2000, f ⟨2000 * t.val + r.val, by have := t.isLt; have := r.isLt; omega⟩
      = ∑ n : Fin 100000, f n := by
  rw [← Equiv.sum_comp (finProdFinEquiv (m := 50) (n := 2000) : Fin 50 × Fin 2000 ≃ Fin 100000) f, Fintype.sum_prod_type]
  refine Finset.sum_congr rfl fun t _ => Finset.sum_congr rfl fun r _ => congrArg f (Fin.ext ?_)
  show 2000 * t.val + r.val = r.val + 2000 * t.val
  exact Nat.add_comm _ _

/-- The accumulators after the last point, over the rows of the whole arrays: `H` the 100000 × 128 features, `B` the
    100000 graph numbers, each block being its 2000 rows of them. -/
theorem accS_fst_total (hb : Fin 50 → Vec Ideal S2000x128 .f32) (bb : Fin 50 → Vec Ideal S2000x1 .i32)
    (H : Fin 100000 → Fin 128 → EReal) (B : Fin 100000 → BitVec 32)
    (hH : ∀ (t : Fin 50) (r : Fin 2000) (d : Fin 128) (hlt : 2000 * t.val + r.val < 100000),
      hb t (ix2 r d) = H ⟨2000 * t.val + r.val, hlt⟩ d)
    (hB : ∀ (t : Fin 50) (r : Fin 2000) (hlt : 2000 * t.val + r.val < 100000),
      bb t (ix2 r (0 : Fin 1)) = B ⟨2000 * t.val + r.val, hlt⟩)
    (g : Fin 512) (d : Fin 128) :
    (accS hb bb 49 (by decide)).1 (ix2 g d) = ∑ n : Fin 100000, (if B n = BitVec.ofNat 32 g.val then H n d else 0) := by
  rw [accS_fst_apply, ← sum_blocks]
  refine Finset.sum_congr rfl fun t _ => Finset.sum_congr rfl fun r _ => ?_
  rw [← hH t r d, ← hB t r]

theorem accS_snd_total (hb : Fin 50 → Vec Ideal S2000x128 .f32) (bb : Fin 50 → Vec Ideal S2000x1 .i32)
    (B : Fin 100000 → BitVec 32)
    (hB : ∀ (t : Fin 50) (r : Fin 2000) (hlt : 2000 * t.val + r.val < 100000),
      bb t (ix2 r (0 : Fin 1)) = B ⟨2000 * t.val + r.val, hlt⟩)
    (g : Fin 512) :
    (accS hb bb 49 (by decide)).2 (ix2 (0 : Fin 1) g) = ∑ n : Fin 100000, (if B n = BitVec.ofNat 32 g.val then (1 : EReal) else 0) := by
  rw [accS_snd_apply, ← sum_blocks]
  refine Finset.sum_congr rfl fun t _ => Finset.sum_congr rfl fun r _ => ?_
  rw [← hB t r]

end Cert.KernelIdeal.Hand

end
-- ==== Proof.KI_ReadoutVal.lean ====
/-
  The readout region at the ideal values: the two output arrays after the region.

  The region's two accumulators after grid point t are the abstract accumulation over the blocks 0 … t of the
  features and of the graph numbers; block t is rows 2000 t … 2000 t + 1999 of its array. The two outputs have one
  block, the whole array, written back once, at the last point, from the accumulators. So after the region the first
  output holds the per-graph feature sums and the second the per-graph node counts of the arrays as the region finds
  them.
-/
import proofs.«422387_j74071005987301_1_alg».proof.Proof.KI_Readout
import proofs.«422387_j74071005987301_1_alg».proof.Proof.KI_ReadoutSpec
import proofs.«422387_j74071005987301_1_alg».proof.Proof.KI_SegSpec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The printed index maps, decided over the grid: the two inputs' row block is the point's number, their column
    block 0; the two outputs' block is always (0, 0). -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0)

/-- Row r of the features' block at point t is row 2000 t + r of the features' array. -/
theorem iblk6_0_apply (c : Dev nD) (t : Fin cfg6.N) (r : Fin 2000) (d : Fin 128) (hlt : 2000 * t.val + r.val < 100000) :
    iblk6 V c 0 t (ix2 r d) = V c main_v77 (ix2 (⟨2000 * t.val + r.val, hlt⟩ : Fin 100000) d) := by
  obtain ⟨e0, e1, e2, e3, e4, e5, e6, e7⟩ := idx_facts6 t
  show V c main_v77 (((cfg6.win 0).blk t).view.emb (ix2 r d)) = _
  congr 1
  funext a; apply Fin.ext
  match a with
  | ⟨0, _⟩ => show win6_0.index t (0 : Fin 2) * 2000 + 1 * r.val = 2000 * t.val + r.val; omega
  | ⟨1, _⟩ => show win6_0.index t (1 : Fin 2) * 128 + 1 * d.val = d.val; omega

/-- Row r of the graph numbers' block at point t is row 2000 t + r of the graph numbers' array. -/
theorem iblk6_1_apply (c : Dev nD) (t : Fin cfg6.N) (r : Fin 2000) (hlt : 2000 * t.val + r.val < 100000) :
    iblk6 V c 1 t (ix2 r (0 : Fin 1)) = V c main_v78 (ix2 (⟨2000 * t.val + r.val, hlt⟩ : Fin 100000) (0 : Fin 1)) := by
  obtain ⟨e0, e1, e2, e3, e4, e5, e6, e7⟩ := idx_facts6 t
  show V c main_v78 (((cfg6.win 1).blk t).view.emb (ix2 r (0 : Fin 1))) = _
  congr 1
  funext a; apply Fin.ext
  match a with
  | ⟨0, _⟩ => show win6_1.index t (0 : Fin 2) * 2000 + 1 * r.val = 2000 * t.val + r.val; omega
  | ⟨1, _⟩ => show win6_1.index t (1 : Fin 2) * 1 + 1 * 0 = 0; omega

/-- The 50 blocks of the features and of the graph numbers, as the abstract accumulation takes them. -/
def hb6 (c : Dev nD) : Fin 50 → Vec Ideal S2000x128 .f32 := fun t => iblk6 V c 0 ⟨t.val, lt_of_lt_of_eq t.isLt N_6.symm⟩
def bb6 (c : Dev nD) : Fin 50 → Vec Ideal S2000x1 .i32 := fun t => iblk6 V c 1 ⟨t.val, lt_of_lt_of_eq t.isLt N_6.symm⟩

/-- The region's accumulators are the abstract accumulation over its blocks. -/
theorem acc6_eq_accS (c : Dev nD) : ∀ (n : ℕ) (h : n < cfg6.N) (h' : n < 50), acc6 V c n h = accS (hb6 V c) (bb6 V c) n h'
  | 0, h, h' => rfl
  | n + 1, h, h' => by
    rw [accS_succ, ← acc6_eq_accS c n (Nat.lt_of_succ_lt h) (Nat.lt_of_succ_lt h')]
    rfl

/-- After the last point the feature accumulator holds the per-graph feature sums of the whole arrays. -/
theorem acc6_last_fst (c : Dev nD) (t : Fin cfg6.N) (ht : t.val = 49) (i : S512x128.Idx) :
    (acc6 V c t.val t.isLt).1 i = segSum (V c main_v77) (V c main_v78) i := by
  obtain ⟨n, hn⟩ := t
  have ht' : n = 49 := ht
  subst ht'
  obtain ⟨g, d, rfl⟩ : ∃ (g : Fin 512) (d : Fin 128), i = ix2 g d := ⟨i 0, i 1, eq_ix2 i⟩
  show (acc6 V c 49 hn).1 (ix2 g d) = _
  rw [acc6_eq_accS V c 49 hn (by decide)]
  refine (accS_fst_total (hb6 V c) (bb6 V c) (fun n d => V c main_v77 (ix2 n d))
    (fun n => V c main_v78 (ix2 n (0 : Fin 1))) ?_ ?_ g d).trans ?_
  · intro t r d hlt; exact iblk6_0_apply V c _ r d hlt
  · intro t r hlt; exact iblk6_1_apply V c _ r hlt
  · rfl

/-- After the last point the count accumulator holds the per-graph node counts of the whole array. -/
theorem acc6_last_snd (c : Dev nD) (t : Fin cfg6.N) (ht : t.val = 49) (i : S1x512.Idx) :
    (acc6 V c t.val t.isLt).2 i = segCnt (V c main_v78) i := by
  obtain ⟨n, hn⟩ := t
  have ht' : n = 49 := ht
  subst ht'
  obtain ⟨u, g, rfl⟩ : ∃ (u : Fin 1) (g : Fin 512), i = ix2 u g := ⟨i 0, i 1, eq_ix2 i⟩
  have hu : u = 0 := Fin.ext (by omega)
  subst hu
  show (acc6 V c 49 hn).2 (ix2 (0 : Fin 1) g) = _
  rw [acc6_eq_accS V c 49 hn (by decide)]
  refine (accS_snd_total (hb6 V c) (bb6 V c) (fun n => V c main_v78 (ix2 n (0 : Fin 1))) ?_ g).trans ?_
  · intro t r hlt; exact iblk6_1_apply V c _ r hlt
  · rfl

/-- The points that write the outputs back: the last one only. -/
theorem flush6_last (t : Fin cfg6.N) (h : t.val % 50 = 49) : t.val = 49 := by
  have hN : t.val < 50 := lt_of_lt_of_eq t.isLt N_6
  omega

/-- A read of an output's block, whatever the array holds: the array at the block's index in it. -/
theorem read_blk6_2 (t : Fin cfg6.N) (G : S512x128.Idx → Elt Ideal .f32) (j : ((cfg6.win 2).xblock (grid6.coords t)).Idx) :
    ((cfg6.win 2).blk t).view.read (Elt Ideal) G j = G (((cfg6.win 2).blk t).view.emb j) := rfl
theorem read_blk6_3 (t : Fin cfg6.N) (G : S1x512.Idx → Elt Ideal .f32) (j : ((cfg6.win 3).xblock (grid6.coords t)).Idx) :
    ((cfg6.win 3).blk t).view.read (Elt Ideal) G j = G (((cfg6.win 3).blk t).view.emb j) := rfl

/-- What the last point writes back to the feature-sum output is the whole array of per-graph feature sums. -/
theorem flushed6_2_eq (c : Dev nD) (t : Fin cfg6.N) (hf : (cfg6.win 2).flush t = true) :
    (dat6 V c).flushed 2 t = ((cfg6.win 2).blk t).view.read (Elt Ideal) (segSum (V c main_v77) (V c main_v78)) := by
  have ht : t.val = 49 := flush6_last t ((flush6_2 t).mp hf)
  obtain ⟨e0, e1, e2, e3, e4, e5, e6, e7⟩ := idx_facts6 t
  show (cfg6.win 2).cut (grid6.coords t) ((dat6 V c).after 2 t) = _
  rw [after6_2]
  funext j
  refine Eq.trans ?_ (read_blk6_2 t _ j).symm
  show (acc6 V c t.val t.isLt).1 ((cfg6.win 2).xinj (grid6.coords t) j) = _
  refine (acc6_last_fst V c t ht _).trans (congrArg _ ?_)
  funext a; apply Fin.ext
  match a with
  | ⟨0, _⟩ => show (j 0).val = win6_2.index t (0 : Fin 2) * 512 + 1 * (j 0).val; omega
  | ⟨1, _⟩ => show (j 1).val = win6_2.index t (1 : Fin 2) * 128 + 1 * (j 1).val; omega

/-- What the last point writes back to the count output is the whole array of per-graph node counts. -/
theorem flushed6_3_eq (c : Dev nD) (t : Fin cfg6.N) (hf : (cfg6.win 3).flush t = true) :
    (dat6 V c).flushed 3 t = ((cfg6.win 3).blk t).view.read (Elt Ideal) (segCnt (V c main_v78)) := by
  have ht : t.val = 49 := flush6_last t ((flush6_3 t).mp hf)
  obtain ⟨e0, e1, e2, e3, e4, e5, e6, e7⟩ := idx_facts6 t
  show (cfg6.win 3).cut (grid6.coords t) ((dat6 V c).after 3 t) = _
  rw [after6_3]
  funext j
  refine Eq.trans ?_ (read_blk6_3 t _ j).symm
  show (acc6 V c t.val t.isLt).2 ((cfg6.win 3).xinj (grid6.coords t) j) = _
  refine (acc6_last_snd V c t ht _).trans (congrArg _ ?_)
  funext a; apply Fin.ext
  match a with
  | ⟨0, _⟩ => show (j 0).val = win6_3.index t (0 : Fin 2) * 1 + 1 * (j 0).val; omega
  | ⟨1, _⟩ => show (j 1).val = win6_3.index t (1 : Fin 2) * 512 + 1 * (j 1).val; omega

/-- An index of the feature-sum output is in point `t`'s block iff each coordinate is in the block's range. -/
theorem mem_blk6_2 (t : Fin cfg6.N) (i : S512x128.Idx) :
    i ∈ ((cfg6.win 2).blk t).view.set ↔ ∀ a : Fin 2, win6_2.index t a * S512x128.size a ≤ (i a).val ∧ (i a).val < win6_2.index t a * S512x128.size a + S512x128.size a := by
  show i ∈ ((View.whole main_v79_0).slice (win6_2.rect t)).set ↔ _
  rw [View.set_slice_whole, Rect.mem_set_unit]
  exact Iff.rfl

theorem mem_blk6_3 (t : Fin cfg6.N) (i : S1x512.Idx) :
    i ∈ ((cfg6.win 3).blk t).view.set ↔ ∀ a : Fin 2, win6_3.index t a * S1x512.size a ≤ (i a).val ∧ (i a).val < win6_3.index t a * S1x512.size a + S1x512.size a := by
  show i ∈ ((View.whole main_v79_1).slice (win6_3.rect t)).set ↔ _
  rw [View.set_slice_whole, Rect.mem_set_unit]
  exact Iff.rfl

/-- The last point. -/
def tLast6 : Fin cfg6.N := ⟨49, by rw [show cfg6.N = 50 from N_6]; decide⟩

/-- Every index of the feature-sum output is in the last point's block, which is the whole array. -/
theorem cover6_2 (i : S512x128.Idx) :
    ∃ t : Fin cfg6.N, (cfg6.win 2).flush t = true ∧ i ∈ ((cfg6.win 2).blk t).view.set := by
  have hi0 : (i 0).val < 512 := (i 0).isLt
  have hi1 : (i 1).val < 128 := (i 1).isLt
  obtain ⟨e0, e1, e2, e3, e4, e5, e6, e7⟩ := idx_facts6 tLast6
  refine ⟨tLast6, (flush6_2 tLast6).mpr rfl, ?_⟩
  rw [mem_blk6_2]
  intro a
  match a with
  | ⟨0, _⟩ => show win6_2.index tLast6 (0 : Fin 2) * 512 ≤ (i 0).val ∧ (i 0).val < win6_2.index tLast6 (0 : Fin 2) * 512 + 512; omega
  | ⟨1, _⟩ => show win6_2.index tLast6 (1 : Fin 2) * 128 ≤ (i 1).val ∧ (i 1).val < win6_2.index tLast6 (1 : Fin 2) * 128 + 128; omega

theorem cover6_3 (i : S1x512.Idx) :
    ∃ t : Fin cfg6.N, (cfg6.win 3).flush t = true ∧ i ∈ ((cfg6.win 3).blk t).view.set := by
  have hi0 : (i 0).val < 1 := (i 0).isLt
  have hi1 : (i 1).val < 512 := (i 1).isLt
  obtain ⟨e0, e1, e2, e3, e4, e5, e6, e7⟩ := idx_facts6 tLast6
  refine ⟨tLast6, (flush6_3 tLast6).mpr rfl, ?_⟩
  rw [mem_blk6_3]
  intro a
  match a with
  | ⟨0, _⟩ => show win6_3.index tLast6 (0 : Fin 2) * 1 ≤ (i 0).val ∧ (i 0).val < win6_3.index tLast6 (0 : Fin 2) * 1 + 1; omega
  | ⟨1, _⟩ => show win6_3.index tLast6 (1 : Fin 2) * 512 ≤ (i 1).val ∧ (i 1).val < win6_3.index tLast6 (1 : Fin 2) * 512 + 512; omega

/-- THE FEATURE-SUM OUTPUT after the region: the per-graph feature sums of the arrays as the region finds them. -/
theorem arrAt6_sum (c : Dev nD) :
    (dat6 (F := Ideal) V c).arrAt 2 cfg6.N = segSum (V c main_v77) (V c main_v78) :=
  (dat6 V c).arrAt_eq_of_cover 2 (segSum (V c main_v77) (V c main_v78)) (fun t hf => flushed6_2_eq V c t hf) cover6_2

/-- THE COUNT OUTPUT after the region: the per-graph node counts of the array as the region finds it. -/
theorem arrAt6_cnt (c : Dev nD) :
    (dat6 (F := Ideal) V c).arrAt 3 cfg6.N = segCnt (V c main_v78) :=
  (dat6 V c).arrAt_eq_of_cover 3 (segCnt (V c main_v78)) (fun t hf => flushed6_3_eq V c t hf) cover6_3

end Cert.KernelIdeal.Hand

end
-- ==== Proof.lean ====
/-
  The certificate of the three-layer graph convolution with a per-graph mean readout, against its plain reference.
  Frames: the kernel program, at words and at extended reals, runs as fifteen items — eight stretches of host
  operations and seven pipelined kernel regions (three dense transforms x·W row block by row block, three bias steps,
  one readout that accumulates per-graph sums and counts in two scratch buffers over the fifty row blocks and writes
  them out at the last one) — each region's arrays split out of the unscoped buffers at entry and put back at exit;
  the reference is host operations only. Values, over extended reals: each dense region leaves the whole matrix
  product (a row block's product is the rows' share of the sum over the contracted axis), each bias region the
  pointwise sum with the bias row (clamped below at zero in the first two layers), the readout the sums and counts
  of the rows whose graph id is g — the one-hot matrix product is that sum because 0·x = 0 and 1·x = x for every
  extended real, and a finite sum over fifty blocks of two thousand rows is the sum over the hundred thousand rows;
  the host stretches between the regions are the reference's own operations, so the two results are one composed
  function of the arguments. Only commutativity and associativity of finite sums and the two unit laws above are
  used; the precondition on the inputs is never opened.
-/
import proofs.«422387_j74071005987301_1_alg».proof.Defs
import proofs.«422387_j74071005987301_1_alg».proof.Proof.Gen.Kernel
import proofs.«422387_j74071005987301_1_alg».proof.Proof.Gen.KernelIdeal
import proofs.«422387_j74071005987301_1_alg».proof.Proof.Gen.ReferenceIdeal
import proofs.«422387_j74071005987301_1_alg».proof.Proof.Gen.Pre_finite_inputs
import proofs.«422387_j74071005987301_1_alg».proof.Proof.K_Main
import proofs.«422387_j74071005987301_1_alg».proof.Proof.KI_Main
import proofs.«422387_j74071005987301_1_alg».proof.Proof.KI_Value
import proofs.«422387_j74071005987301_1_alg».proof.Proof.KI_RefValue
import proofs.«422387_j74071005987301_1_alg».proof.Proof.KI_Join
import proofs.«422387_j74071005987301_1_alg».proof.Proof.KI_RefFin
import proofs.«422387_j74071005987301_1_alg».proof.Proof.KI_ReadoutVal

noncomputable section

namespace Cert.Proof

open Idealize.ShloMosaic Idealize.SL.Sem

/-- The word-level kernel program runs to the end and leaves its arguments as launched. -/
theorem frame_p : Cert.frame_Kernel := fun m ρ _ => Cert.Kernel.Hand.frame (F := Bits) m ρ

/-- So does its reading over extended reals. -/
theorem frame_pi : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with one result: the kernel's returned buffer is the
    network's composed function with each region read as its target (the value lemmas), the reference's is the same
    composition over the host's own matrix product, bias sums and scatter-added sums, and those are the same
    functions over extended reals. -/
theorem algebraic : Cert.algebraic_KernelIdeal_ReferenceIdeal := by
  intro m ρ m' ρ' _ hagree
  refine ⟨fun c => Cert.KernelIdeal.Hand.W15 (F := Ideal) m c (Proc.devRef .tc Cert.KernelIdeal.main_v84),
    Cert.KernelIdeal.Hand.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  show _ = Cert.KernelIdeal.Hand.W15 (F := Ideal) m c (Proc.devRef .tc Cert.KernelIdeal.main_v84)
  rw [Cert.KernelIdeal.Hand.ref_value m' c, Cert.KernelIdeal.Hand.gcn_ref_eq (fun h bt => Cert.KernelIdeal.Hand.ref_fin h bt),
    Cert.KernelIdeal.Hand.kernel_value m c (Cert.KernelIdeal.Hand.arrAt6_sum _ c) (Cert.KernelIdeal.Hand.arrAt6_cnt _ c),
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

/-- Everything the certificate claims; the ideal pass rewrote nothing, so the idealization claim is empty. -/
theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
